-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x133 : Shape := ⟨2, ![131072, 133]⟩
abbrev S262144x14 : Shape := ⟨2, ![262144, 14]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S2x262144 : Shape := ⟨2, ![2, 262144]⟩
abbrev S131072 : Shape := ⟨1, ![131072]⟩
abbrev S_ : Shape := ⟨0, ![]⟩
abbrev S1x262144 : Shape := ⟨2, ![1, 262144]⟩
abbrev S262144 : Shape := ⟨1, ![262144]⟩

class Facts : Prop where
  bcast_S_S131072x133 : S_.BroadcastsInDim S131072x133 (![] : Fin 0 → Fin S131072x133.rank)
  reducesTo_S131072x133_S_d0_1 : S131072x133.ReducesTo [0, 1] S_
  h_S_ : 0 < S_.numel
  bcast_S_S262144x14 : S_.BroadcastsInDim S262144x14 (![] : Fin 0 → Fin S262144x14.rank)
  reducesTo_S262144x14_S_d0_1 : S262144x14.ReducesTo [0, 1] S_
  bcast_S_S147x300 : S_.BroadcastsInDim S147x300 (![] : Fin 0 → Fin S147x300.rank)
  reducesTo_S147x300_S_d0_1 : S147x300.ReducesTo [0, 1] S_
  bcast_S_S300x300 : S_.BroadcastsInDim S300x300 (![] : Fin 0 → Fin S300x300.rank)
  reducesTo_S300x300_S_d0_1 : S300x300.ReducesTo [0, 1] S_
  bcast_S_S433x300 : S_.BroadcastsInDim S433x300 (![] : Fin 0 → Fin S433x300.rank)
  reducesTo_S433x300_S_d0_1 : S433x300.ReducesTo [0, 1] S_
  bcast_S_S300 : S_.BroadcastsInDim S300 (![] : Fin 0 → Fin S300.rank)
  reducesTo_S300_S_d0 : S300.ReducesTo [0] S_
  slices_S2x262144_S1x262144_0_0 : S2x262144.Slices ![0, 0] S1x262144
  shapeCasts_S1x262144_S262144 : S1x262144.ShapeCasts S262144
  bcast_S_S262144 : S_.BroadcastsInDim S262144 (![] : Fin 0 → Fin S262144.rank)
  reducesTo_S262144_S_d0 : S262144.ReducesTo [0] S_

variable [Facts]

def fn_part2 {F : FTy → Type} [FloatOps F] (main_arg6 : IVec S2x262144 32) (main_v28 : IVec S_ 1) (main_v33 : IVec S_ 1) : IVec S_ 1 :=
  let main_v34 : IVec S_ 1 := andi main_v28 main_v33
  let main_v35 : IVec S1x262144 32 := (extractStridedSlice S1x262144 ![0, 0] · slices_S2x262144_S1x262144_0_0) main_arg6
  let main_v36 : IVec S262144 32 := shapeCast S262144 main_v35 shapeCasts_S1x262144_S262144
  let main_c_12 : IVec S_ 32 := constantI S_ 32 131072#32
  let main_v37 : IVec S262144 32 := broadcastInDim S262144 ![] bcast_S_S262144 main_c_12
  let main_v38 : IVec S262144 1 := cmpi .slt main_v36 main_v37
  let main_c_13 : IVec S_ 1 := constantI S_ 1 1#1
  let main_v39 : IVec S_ 1 := (fun x v => Host.reduce IntOp.andi x v reducesTo_S262144_S_d0 h_S_) main_v38 main_c_13
  let main_v40 : IVec S_ 1 := andi main_v34 main_v39
  main_v40

def fn_part1 {F : FTy → Type} [FloatOps F] (main_arg4 : FVec F S433x300 .f32) (main_arg5 : FVec F S300 .f32) (main_arg6 : IVec S2x262144 32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S433x300 .f32 := Host.absf main_arg4
  let main_cst_6 : FVec F S_ .f32 := constant S_ .f32 0x7F800000#32
  let main_v20 : FVec F S433x300 .f32 := broadcastInDim S433x300 ![] bcast_S_S433x300 main_cst_6
  let main_v21 : IVec S433x300 1 := cmpf .olt main_v19 main_v20
  let main_c_7 : IVec S_ 1 := constantI S_ 1 1#1
  let main_v22 : IVec S_ 1 := (fun x v => Host.reduce IntOp.andi x v reducesTo_S433x300_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : IVec S1x262144 32 := (extractStridedSlice S1x262144 ![0, 0] · slices_S2x262144_S1x262144_0_0) main_arg6
  let main_v30 : IVec S262144 32 := shapeCast S262144 main_v29 shapeCasts_S1x262144_S262144
  let main_c_10 : IVec S_ 32 := constantI S_ 32 0#32
  let main_v31 : IVec S262144 32 := broadcastInDim S262144 ![] bcast_S_S262144 main_c_10
  let main_v32 : IVec S262144 1 := cmpi .sge main_v30 main_v31
  let main_c_11 : IVec S_ 1 := constantI S_ 1 1#1
  let main_v33 : IVec S_ 1 := (fun x v => Host.reduce IntOp.andi x v reducesTo_S262144_S_d0 h_S_) main_v32 main_c_11
  fn_part2 (F := F) main_arg6 main_v28 main_v33

def fn {F : FTy → Type} [FloatOps F] (main_arg0 : FVec F S131072x133 .f32) (main_arg1 : FVec F S262144x14 .f32) (main_arg2 : FVec F S147x300 .f32) (main_arg3 : FVec F S300x300 .f32) (main_arg4 : FVec F S433x300 .f32) (main_arg5 : FVec F S300 .f32) (main_arg6 : IVec S2x262144 32) (main_arg7 : IVec S131072 32) : IVec S_ 1 :=
  let main_v0 : FVec F S131072x133 .f32 := Host.absf main_arg0
  let main_cst : FVec F S_ .f32 := constant S_ .f32 0x7F800000#32
  let main_v1 : FVec F S131072x133 .f32 := broadcastInDim S131072x133 ![] bcast_S_S131072x133 main_cst
  let main_v2 : IVec S131072x133 1 := cmpf .olt main_v0 main_v1
  let main_c : IVec S_ 1 := constantI S_ 1 1#1
  let main_v3 : IVec S_ 1 := (fun x v => Host.reduce IntOp.andi x v reducesTo_S131072x133_S_d0_1 h_S_) main_v2 main_c
  let main_v4 : FVec F S262144x14 .f32 := Host.absf main_arg1
  let main_cst_0 : FVec F S_ .f32 := constant S_ .f32 0x7F800000#32
  let main_v5 : FVec F S262144x14 .f32 := broadcastInDim S262144x14 ![] bcast_S_S262144x14 main_cst_0
  let main_v6 : IVec S262144x14 1 := cmpf .olt main_v4 main_v5
  let main_c_1 : IVec S_ 1 := constantI S_ 1 1#1
  let main_v7 : IVec S_ 1 := (fun x v => Host.reduce IntOp.andi x v reducesTo_S262144x14_S_d0_1 h_S_) main_v6 main_c_1
  let main_v8 : IVec S_ 1 := andi main_v3 main_v7
  let main_v9 : FVec F S147x300 .f32 := Host.absf main_arg2
  let main_cst_2 : FVec F S_ .f32 := constant S_ .f32 0x7F800000#32
  let main_v10 : FVec F S147x300 .f32 := broadcastInDim S147x300 ![] bcast_S_S147x300 main_cst_2
  let main_v11 : IVec S147x300 1 := cmpf .olt main_v9 main_v10
  let main_c_3 : IVec S_ 1 := constantI S_ 1 1#1
  let main_v12 : IVec S_ 1 := (fun x v => Host.reduce IntOp.andi x v reducesTo_S147x300_S_d0_1 h_S_) main_v11 main_c_3
  let main_v13 : IVec S_ 1 := andi main_v8 main_v12
  let main_v14 : FVec F S300x300 .f32 := Host.absf main_arg3
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg4 main_arg5 main_arg6 main_v13 main_v16
-- ==== Kernel.lean ====
abbrev S131072x133 : Shape := ⟨2, ![131072, 133]⟩
abbrev S262144x14 : Shape := ⟨2, ![262144, 14]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S2x262144 : Shape := ⟨2, ![2, 262144]⟩
abbrev S131072 : Shape := ⟨1, ![131072]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S262144x133 : Shape := ⟨2, ![262144, 133]⟩
abbrev S133x300 : Shape := ⟨2, ![133, 300]⟩
abbrev S14x300 : Shape := ⟨2, ![14, 300]⟩
abbrev S262144x300 : Shape := ⟨2, ![262144, 300]⟩
abbrev S4096x133 : Shape := ⟨2, ![4096, 133]⟩
abbrev S4096x14 : Shape := ⟨2, ![4096, 14]⟩
abbrev S4096x300 : Shape := ⟨2, ![4096, 300]⟩
abbrev S131072x300 : Shape := ⟨2, ![131072, 300]⟩
abbrev S2048x300 : Shape := ⟨2, ![2048, 300]⟩
abbrev S1x300 : Shape := ⟨2, ![1, 300]⟩
abbrev S2048x133 : Shape := ⟨2, ![2048, 133]⟩
abbrev S131072x1 : Shape := ⟨2, ![131072, 1]⟩

abbrev nBuf : Space → Nat
  | .hbm => 106
  | .vmem => 31
  | .smem => 0
  | _ => 0

abbrev bufTy : (tb : Table) → Fin (tcTables nBuf tb) → BufTy
  | .hbm, ⟨0, _⟩ => ⟨S131072x133, .f32⟩
  | .hbm, ⟨1, _⟩ => ⟨S262144x14, .f32⟩
  | .hbm, ⟨2, _⟩ => ⟨S147x300, .f32⟩
  | .hbm, ⟨3, _⟩ => ⟨S300x300, .f32⟩
  | .hbm, ⟨4, _⟩ => ⟨S433x300, .f32⟩
  | .hbm, ⟨5, _⟩ => ⟨S300, .f32⟩
  | .hbm, ⟨6, _⟩ => ⟨S2x262144, .i32⟩
  | .hbm, ⟨7, _⟩ => ⟨S131072, .i32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S1, .i32⟩
  | .hbm, ⟨21, _⟩ => ⟨S_, .i32⟩
  | .hbm, ⟨22, _⟩ => ⟨S262144x1, .i32⟩
  | .hbm, ⟨23, _⟩ => ⟨S262144x1, .i1⟩
  | .hbm, ⟨24, _⟩ => ⟨S1x1, .i32⟩
  | .hbm, ⟨25, _⟩ => ⟨S262144x1, .i32⟩
  | .hbm, ⟨26, _⟩ => ⟨S262144x1, .i1⟩
  | .hbm, ⟨27, _⟩ => ⟨S262144x1, .i1⟩
  | .hbm, ⟨28, _⟩ => ⟨S_, .i1⟩
  | .hbm, ⟨29, _⟩ => ⟨S262144, .i1⟩
  | .hbm, ⟨30, _⟩ => ⟨S262144x133, .f32⟩
  | .hbm, ⟨31, _⟩ => ⟨S262144x133, .i1⟩
  | .hbm, ⟨32, _⟩ => ⟨S_, .f32⟩
  | .hbm, ⟨33, _⟩ => ⟨S262144x133, .f32⟩
  | .hbm, ⟨34, _⟩ => ⟨S262144x133, .f32⟩
  | .hbm, ⟨35, _⟩ => ⟨S133x300, .f32⟩
  | .hbm, ⟨36, _⟩ => ⟨S14x300, .f32⟩
  | .hbm, ⟨37, _⟩ => ⟨S262144x300, .f32⟩
  | .hbm, ⟨38, _⟩ => ⟨S_, .f32⟩
  | .hbm, ⟨39, _⟩ => ⟨S131072x300, .f32⟩
  | .hbm, ⟨40, _⟩ => ⟨S262144x1, .i32⟩
  | .hbm, ⟨41, _⟩ => ⟨S131072x300, .f32⟩
  | .hbm, ⟨42, _⟩ => ⟨S_, .i32⟩
  | .hbm, ⟨43, _⟩ => ⟨S262144, .i32⟩
  | .hbm, ⟨44, _⟩ => ⟨S262144, .i1⟩
  | .hbm, ⟨45, _⟩ => ⟨S_, .i32⟩
  | .hbm, ⟨46, _⟩ => ⟨S262144, .i32⟩
  | .hbm, ⟨47, _⟩ => ⟨S262144, .i32⟩
  | .hbm, ⟨48, _⟩ => ⟨S262144, .i32⟩
  | .hbm, ⟨49, _⟩ => ⟨S262144x1, .i32⟩
  | .hbm, ⟨50, _⟩ => ⟨S1, .i32⟩
  | .hbm, ⟨51, _⟩ => ⟨S_, .i32⟩
  | .hbm, ⟨52, _⟩ => ⟨S262144x1, .i32⟩
  | .hbm, ⟨53, _⟩ => ⟨S262144x1, .i1⟩
  | .hbm, ⟨54, _⟩ => ⟨S1x1, .i32⟩
  | .hbm, ⟨55, _⟩ => ⟨S262144x1, .i32⟩
  | .hbm, ⟨56, _⟩ => ⟨S262144x1, .i1⟩
  | .hbm, ⟨57, _⟩ => ⟨S262144x1, .i1⟩
  | .hbm, ⟨58, _⟩ => ⟨S_, .i1⟩
  | .hbm, ⟨59, _⟩ => ⟨S262144, .i1⟩
  | .hbm, ⟨60, _⟩ => ⟨S262144x300, .f32⟩
  | .hbm, ⟨61, _⟩ => ⟨S262144x300, .i1⟩
  | .hbm, ⟨62, _⟩ => ⟨S_, .f32⟩
  | .hbm, ⟨63, _⟩ => ⟨S262144x300, .f32⟩
  | .hbm, ⟨64, _⟩ => ⟨S262144x300, .f32⟩
  | .hbm, ⟨65, _⟩ => ⟨S262144x300, .f32⟩
  | .hbm, ⟨66, _⟩ => ⟨S_, .f32⟩
  | .hbm, ⟨67, _⟩ => ⟨S131072x300, .f32⟩
  | .hbm, ⟨68, _⟩ => ⟨S262144x1, .i32⟩
  | .hbm, ⟨69, _⟩ => ⟨S131072x300, .f32⟩
  | .hbm, ⟨70, _⟩ => ⟨S_, .i32⟩
  | .hbm, ⟨71, _⟩ => ⟨S262144, .i32⟩
  | .hbm, ⟨72, _⟩ => ⟨S262144, .i1⟩
  | .hbm, ⟨73, _⟩ => ⟨S_, .i32⟩
  | .hbm, ⟨74, _⟩ => ⟨S262144, .i32⟩
  | .hbm, ⟨75, _⟩ => ⟨S262144, .i32⟩
  | .hbm, ⟨76, _⟩ => ⟨S262144, .i32⟩
  | .hbm, ⟨77, _⟩ => ⟨S262144x1, .i32⟩
  | .hbm, ⟨78, _⟩ => ⟨S1, .i32⟩
  | .hbm, ⟨79, _⟩ => ⟨S_, .i32⟩
  | .hbm, ⟨80, _⟩ => ⟨S262144x1, .i32⟩
  | .hbm, ⟨81, _⟩ => ⟨S262144x1, .i1⟩
  | .hbm, ⟨82, _⟩ => ⟨S1x1, .i32⟩
  | .hbm, ⟨83, _⟩ => ⟨S262144x1, .i32⟩
  | .hbm, ⟨84, _⟩ => ⟨S262144x1, .i1⟩
  | .hbm, ⟨85, _⟩ => ⟨S262144x1, .i1⟩
  | .hbm, ⟨86, _⟩ => ⟨S_, .i1⟩
  | .hbm, ⟨87, _⟩ => ⟨S262144, .i1⟩
  | .hbm, ⟨88, _⟩ => ⟨S262144x300, .f32⟩
  | .hbm, ⟨89, _⟩ => ⟨S262144x300, .i1⟩
  | .hbm, ⟨90, _⟩ => ⟨S_, .f32⟩
  | .hbm, ⟨91, _⟩ => ⟨S262144x300, .f32⟩
  | .hbm, ⟨92, _⟩ => ⟨S262144x300, .f32⟩
  | .hbm, ⟨93, _⟩ => ⟨S262144x300, .f32⟩
  | .hbm, ⟨94, _⟩ => ⟨S_, .f32⟩
  | .hbm, ⟨95, _⟩ => ⟨S131072x300, .f32⟩
  | .hbm, ⟨96, _⟩ => ⟨S262144x1, .i32⟩
  | .hbm, ⟨97, _⟩ => ⟨S131072x300, .f32⟩
  | .hbm, ⟨98, _⟩ => ⟨S133x300, .f32⟩
  | .hbm, ⟨99, _⟩ => ⟨S300x300, .f32⟩
  | .hbm, ⟨100, _⟩ => ⟨S1x300, .f32⟩
  | .hbm, ⟨101, _⟩ => ⟨S131072x300, .f32⟩
  | .hbm, ⟨102, _⟩ => ⟨S_, .f32⟩
  | .hbm, ⟨103, _⟩ => ⟨S4096x300, .f32⟩
  | .hbm, ⟨104, _⟩ => ⟨S131072x1, .i32⟩
  | .hbm, ⟨105, _⟩ => ⟨S4096x300, .f32⟩
  | .local _ .vmem, ⟨0, _⟩ => ⟨S4096x133, .f32⟩
  | .local _ .vmem, ⟨1, _⟩ => ⟨S4096x133, .f32⟩
  | .local _ .vmem, ⟨2, _⟩ => ⟨S4096x14, .f32⟩
  | .local _ .vmem, ⟨3, _⟩ => ⟨S4096x14, .f32⟩
  | .local _ .vmem, ⟨4, _⟩ => ⟨S133x300, .f32⟩
  | .local _ .vmem, ⟨5, _⟩ => ⟨S14x300, .f32⟩
  | .local _ .vmem, ⟨6, _⟩ => ⟨S4096x300, .f32⟩
  | .local _ .vmem, ⟨7, _⟩ => ⟨S4096x300, .f32⟩
  | .local _ .vmem, ⟨8, _⟩ => ⟨S2048x300, .f32⟩
  | .local _ .vmem, ⟨9, _⟩ => ⟨S2048x300, .f32⟩
  | .local _ .vmem, ⟨10, _⟩ => ⟨S2048x300, .f32⟩
  | .local _ .vmem, ⟨11, _⟩ => ⟨S2048x300, .f32⟩
  | .local _ .vmem, ⟨12, _⟩ => ⟨S300x300, .f32⟩
  | .local _ .vmem, ⟨13, _⟩ => ⟨S2048x300, .f32⟩
  | .local _ .vmem, ⟨14, _⟩ => ⟨S2048x300, .f32⟩
  | .local _ .vmem, ⟨15, _⟩ => ⟨S2048x300, .f32⟩
  | .local _ .vmem, ⟨16, _⟩ => ⟨S2048x300, .f32⟩
  | .local _ .vmem, ⟨17, _⟩ => ⟨S2048x300, .f32⟩
  | .local _ .vmem, ⟨18, _⟩ => ⟨S2048x300, .f32⟩
  | .local _ .vmem, ⟨19, _⟩ => ⟨S300x300, .f32⟩
  | .local _ .vmem, ⟨20, _⟩ => ⟨S2048x300, .f32⟩
  | .local _ .vmem, ⟨21, _⟩ => ⟨S2048x300, .f32⟩
  | .local _ .vmem, ⟨22, _⟩ => ⟨S2048x133, .f32⟩
  | .local _ .vmem, ⟨23, _⟩ => ⟨S2048x133, .f32⟩
  | .local _ .vmem, ⟨24, _⟩ => ⟨S2048x300, .f32⟩
  | .local _ .vmem, ⟨25, _⟩ => ⟨S2048x300, .f32⟩
  | .local _ .vmem, ⟨26, _⟩ => ⟨S133x300, .f32⟩
  | .local _ .vmem, ⟨27, _⟩ => ⟨S300x300, .f32⟩
  | .local _ .vmem, ⟨28, _⟩ => ⟨S1x300, .f32⟩
  | .local _ .vmem, ⟨29, _⟩ => ⟨S2048x300, .f32⟩
  | .local _ .vmem, ⟨30, _⟩ => ⟨S2048x300, .f32⟩
  | _, _ => ⟨S131072x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v11 : Ref sig .tc := ⟨.hbm, 64, rfl⟩
abbrev main_v12 : Ref sig .tc := ⟨.hbm, 65, rfl⟩
abbrev main_cst_0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v16 : Ref sig .tc := ⟨.hbm, 92, rfl⟩
abbrev main_v17 : Ref sig .tc := ⟨.hbm, 93, rfl⟩
abbrev main_cst_1 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_cst_2 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem5_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x133 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x14 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S133x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S14x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x300 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x300 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S300x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x300 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x300 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S133x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S300x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x300 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x300 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S262144x133_0 : S262144.BroadcastsInDim S262144x133 (![0] : Fin 1 → Fin S262144x133.rank)
  bcast_S_S262144x133 : S_.BroadcastsInDim S262144x133 (![] : Fin 0 → Fin S262144x133.rank)
  slices_S147x300_S133x300_0_0 : S147x300.Slices ![0, 0] S133x300
  slices_S147x300_S14x300_133_0 : S147x300.Slices ![133, 0] S14x300
  inb_S4096x133_S4096x133_0_0 : ∀ a, (![0, 0] : Fin 2 → Nat) a + S4096x133.size a ≤ S4096x133.size a
  h_S4096x133 : 0 < S4096x133.numel
  shapeCasts_S4096x133_S4096x133 : S4096x133.ShapeCasts S4096x133
  bitsLt_bf16_f32 : FTy.bits .bf16 < FTy.bits .f32
  inb_S4096x14_S4096x14_0_0 : ∀ a, (![0, 0] : Fin 2 → Nat) a + S4096x14.size a ≤ S4096x14.size a
  h_S4096x14 : 0 < S4096x14.numel
  inb_S133x300_S133x300_0_0 : ∀ a, (![0, 0] : Fin 2 → Nat) a + S133x300.size a ≤ S133x300.size a
  h_S133x300 : 0 < S133x300.numel
  shapeCasts_S133x300_S133x300 : S133x300.ShapeCasts S133x300
  inb_S14x300_S14x300_0_0 : ∀ a, (![0, 0] : Fin 2 → Nat) a + S14x300.size a ≤ S14x300.size a
  h_S14x300 : 0 < S14x300.numel
  shapeCasts_S14x300_S14x300 : S14x300.ShapeCasts S14x300
  inb_S4096x300_S4096x300_0_0 : ∀ a, (![0, 0] : Fin 2 → Nat) a + S4096x300.size a ≤ S4096x300.size a
  h_S4096x300 : 0 < S4096x300.numel
  bcast_S_S131072x300 : S_.BroadcastsInDim S131072x300 (![] : Fin 0 → Fin S131072x300.rank)
  bcast_S262144_S262144x300_0 : S262144.BroadcastsInDim S262144x300 (![0] : Fin 1 → Fin S262144x300.rank)
  bcast_S_S262144x300 : S_.BroadcastsInDim S262144x300 (![] : Fin 0 → Fin S262144x300.rank)
  inb_S2048x300_S2048x300_0_0 : ∀ a, (![0, 0] : Fin 2 → Nat) a + S2048x300.size a ≤ S2048x300.size a
  h_S2048x300 : 0 < S2048x300.numel
  shapeCasts_S2048x300_S2048x300 : S2048x300.ShapeCasts S2048x300
  inb_S300x300_S300x300_0_0 : ∀ a, (![0, 0] : Fin 2 → Nat) a + S300x300.size a ≤ S300x300.size a
  h_S300x300 : 0 < S300x300.numel
  slices_S433x300_S133x300_0_0 : S433x300.Slices ![0, 0] S133x300
  slices_S433x300_S300x300_133_0 : S433x300.Slices ![133, 0] S300x300
  shapeCasts_S300_S1x300 : S300.ShapeCasts S1x300
  inb_S2048x133_S2048x133_0_0 : ∀ a, (![0, 0] : Fin 2 → Nat) a + S2048x133.size a ≤ S2048x133.size a
  h_S2048x133 : 0 < S2048x133.numel
  shapeCasts_S300x300_S300x300 : S300x300.ShapeCasts S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2048x300 : S1x300.Broadcasts S2048x300
  bcast_S_S4096x300 : S_.BroadcastsInDim S4096x300 (![] : Fin 0 → Fin S4096x300.rank)
  bcast_S131072_S131072x1_0 : S131072.BroadcastsInDim S131072x1 (![0] : Fin 1 → Fin S131072x1.rank)
  gather_S131072x133_S262144x1_S262144x133_1_0_n_n_0_1_1133_wf : GatherDims.WF S131072x133 S262144x1 S262144x133 [1] [0] [] [0] [] 1 ![1, 133]
  dot_S4096x133_S133x300_S4096x300_1_0_0_1_n_n_wf : DotDims.WF S4096x133 S133x300 S4096x300 [1] [0] [0] [1] [] []
  dot_S4096x14_S14x300_S4096x300_1_0_0_1_n_n_wf : DotDims.WF S4096x14 S14x300 S4096x300 [1] [0] [0] [1] [] []
  scatter_S131072x300_S262144x1_S262144x300_1_0_0_1_wf : ScatterDims.WF S131072x300 S262144x1 S262144x300 [1] [0] [0] 1
  gather_S131072x300_S262144x1_S262144x300_1_0_n_n_0_1_1300_wf : GatherDims.WF S131072x300 S262144x1 S262144x300 [1] [0] [] [0] [] 1 ![1, 300]
  dot_S2048x300_S300x300_S2048x300_1_0_0_1_n_n_wf : DotDims.WF S2048x300 S300x300 S2048x300 [1] [0] [0] [1] [] []
  dot_S2048x133_S133x300_S2048x300_1_0_0_1_n_n_wf : DotDims.WF S2048x133 S133x300 S2048x300 [1] [0] [0] [1] [] []
  scatter_S4096x300_S131072x1_S131072x300_1_0_0_1_wf : ScatterDims.WF S4096x300 S131072x1 S131072x300 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x133.size a ≤ S262144x133.size a
  hwx0_0 : ∀ i : grid0.Coords, EltTy.bits .f32 = 32 ∨ (Rect.block (s := S262144x133) S4096x133.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x14.size a ≤ S262144x14.size a
  hwx0_1 : ∀ i : grid0.Coords, EltTy.bits .f32 = 32 ∨ (Rect.block (s := S262144x14) S4096x14.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S133x300.size a ≤ S133x300.size a
  hwx0_2 : ∀ i : grid0.Coords, EltTy.bits .f32 = 32 ∨ (Rect.block (s := S133x300) S133x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S14x300.size a ≤ S14x300.size a
  hwx0_3 : ∀ i : grid0.Coords, EltTy.bits .f32 = 32 ∨ (Rect.block (s := S14x300) S14x300.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x300.size a ≤ S262144x300.size a
  hwx0_4 : ∀ i : grid0.Coords, EltTy.bits .f32 = 32 ∨ (Rect.block (s := S262144x300) S4096x300.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x300.size a ≤ S262144x300.size a
  hwx1_0 : ∀ i : grid1.Coords, EltTy.bits .f32 = 32 ∨ (Rect.block (s := S262144x300) S2048x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x300.size a ≤ S262144x300.size a
  hwx1_1 : ∀ i : grid1.Coords, EltTy.bits .f32 = 32 ∨ (Rect.block (s := S262144x300) S2048x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x300.size a ≤ S300x300.size a
  hwx1_2 : ∀ i : grid1.Coords, EltTy.bits .f32 = 32 ∨ (Rect.block (s := S300x300) S300x300.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x300.size a ≤ S262144x300.size a
  hwx1_3 : ∀ i : grid1.Coords, EltTy.bits .f32 = 32 ∨ (Rect.block (s := S262144x300) S2048x300.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x300.size a ≤ S262144x300.size a
  hwx2_0 : ∀ i : grid2.Coords, EltTy.bits .f32 = 32 ∨ (Rect.block (s := S262144x300) S2048x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x300.size a ≤ S262144x300.size a
  hwx2_1 : ∀ i : grid2.Coords, EltTy.bits .f32 = 32 ∨ (Rect.block (s := S262144x300) S2048x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S300x300.size a ≤ S300x300.size a
  hwx2_2 : ∀ i : grid2.Coords, EltTy.bits .f32 = 32 ∨ (Rect.block (s := S300x300) S300x300.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x300.size a ≤ S262144x300.size a
  hwx2_3 : ∀ i : grid2.Coords, EltTy.bits .f32 = 32 ∨ (Rect.block (s := S262144x300) S2048x300.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x133.size a ≤ S131072x133.size a
  hwx3_0 : ∀ i : grid3.Coords, EltTy.bits .f32 = 32 ∨ (Rect.block (s := S131072x133) S2048x133.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x300.size a ≤ S131072x300.size a
  hwx3_1 : ∀ i : grid3.Coords, EltTy.bits .f32 = 32 ∨ (Rect.block (s := S131072x300) S2048x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S133x300.size a ≤ S133x300.size a
  hwx3_2 : ∀ i : grid3.Coords, EltTy.bits .f32 = 32 ∨ (Rect.block (s := S133x300) S133x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S300x300.size a ≤ S300x300.size a
  hwx3_3 : ∀ i : grid3.Coords, EltTy.bits .f32 = 32 ∨ (Rect.block (s := S300x300) S300x300.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x300.size a ≤ S1x300.size a
  hwx3_4 : ∀ i : grid3.Coords, EltTy.bits .f32 = 32 ∨ (Rect.block (s := S1x300) S1x300.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x300.size a ≤ S131072x300.size a
  hwx3_5 : ∀ i : grid3.Coords, EltTy.bits .f32 = 32 ∨ (Rect.block (s := S131072x300) S2048x300.size (cc3_transform_5 i) (hinb3_5 i)).WholeWords (EltTy.packing .f32)

variable [Facts₀]

def gather_S131072x133_S262144x1_S262144x133_1_0_n_n_0_1_1133 : GatherDims S131072x133 S262144x1 S262144x133 where
  offsetDims := [1]
  collapsedSliceDims := [0]
  operandBatchingDims := []
  startIndicesBatchingDims := []
  startIndexMap := [0]
  indexVectorDim := 1
  sliceSizes := ![1, 133]
  wf := gather_S131072x133_S262144x1_S262144x133_1_0_n_n_0_1_1133_wf
def dot_S4096x133_S133x300_S4096x300_1_0_0_1_n_n : DotDims S4096x133 S133x300 S4096x300 where
  lhsContracting := [1]
  rhsContracting := [0]
  lhsNonContracting := [0]
  rhsNonContracting := [1]
  lhsBatch := []
  rhsBatch := []
  wf := dot_S4096x133_S133x300_S4096x300_1_0_0_1_n_n_wf
def dot_S4096x14_S14x300_S4096x300_1_0_0_1_n_n : DotDims S4096x14 S14x300 S4096x300 where
  lhsContracting := [1]
  rhsContracting := [0]
  lhsNonContracting := [0]
  rhsNonContracting := [1]
  lhsBatch := []
  rhsBatch := []
  wf := dot_S4096x14_S14x300_S4096x300_1_0_0_1_n_n_wf
def scatter_S131072x300_S262144x1_S262144x300_1_0_0_1 : ScatterDims S131072x300 S262144x1 S262144x300 where
  updateWindowDims := [1]
  insertedWindowDims := [0]
  scatterDimsToOperandDims := [0]
  indexVectorDim := 1
  wf := scatter_S131072x300_S262144x1_S262144x300_1_0_0_1_wf
def gather_S131072x300_S262144x1_S262144x300_1_0_n_n_0_1_1300 : GatherDims S131072x300 S262144x1 S262144x300 where
  offsetDims := [1]
  collapsedSliceDims := [0]
  operandBatchingDims := []
  startIndicesBatchingDims := []
  startIndexMap := [0]
  indexVectorDim := 1
  sliceSizes := ![1, 300]
  wf := gather_S131072x300_S262144x1_S262144x300_1_0_n_n_0_1_1300_wf
def dot_S2048x300_S300x300_S2048x300_1_0_0_1_n_n : DotDims S2048x300 S300x300 S2048x300 where
  lhsContracting := [1]
  rhsContracting := [0]
  lhsNonContracting := [0]
  rhsNonContracting := [1]
  lhsBatch := []
  rhsBatch := []
  wf := dot_S2048x300_S300x300_S2048x300_1_0_0_1_n_n_wf
def dot_S2048x133_S133x300_S2048x300_1_0_0_1_n_n : DotDims S2048x133 S133x300 S2048x300 where
  lhsContracting := [1]
  rhsContracting := [0]
  lhsNonContracting := [0]
  rhsNonContracting := [1]
  lhsBatch := []
  rhsBatch := []
  wf := dot_S2048x133_S133x300_S2048x300_1_0_0_1_n_n_wf
def scatter_S4096x300_S131072x1_S131072x300_1_0_0_1 : ScatterDims S4096x300 S131072x1 S131072x300 where
  updateWindowDims := [1]
  insertedWindowDims := [0]
  scatterDimsToOperandDims := [0]
  indexVectorDim := 1
  wf := scatter_S4096x300_S131072x1_S131072x300_1_0_0_1_wf

abbrev win0_0 : Pipeline.Window sig grid0 :=
  Pipeline.Window.ofSpec (Memref.whole main_v4) S4096x133.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x14.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S133x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S14x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S4096x300.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v7) S2048x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2048x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S300x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2048x300.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S2048x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2048x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S300x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S2048x300.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S2048x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S2048x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S133x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v22) S300x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v23) S1x300.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v24) S2048x300.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S131072x133 : Shape := ⟨2, ![131072, 133]⟩
abbrev S262144x14 : Shape := ⟨2, ![262144, 14]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S2x262144 : Shape := ⟨2, ![2, 262144]⟩
abbrev S131072 : Shape := ⟨1, ![131072]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x133 : Shape := ⟨2, ![262144, 133]⟩
abbrev S262144x147 : Shape := ⟨2, ![262144, 147]⟩
abbrev S262144x300 : Shape := ⟨2, ![262144, 300]⟩
abbrev S131072x300 : Shape := ⟨2, ![131072, 300]⟩
abbrev S131072x433 : Shape := ⟨2, ![131072, 433]⟩
abbrev S1x300 : Shape := ⟨2, ![1, 300]⟩
abbrev S4096x300 : Shape := ⟨2, ![4096, 300]⟩
abbrev S131072x1 : Shape := ⟨2, ![131072, 1]⟩

abbrev nBuf : Space → Nat
  | .hbm => 78
  | .vmem => 0
  | .smem => 0
  | _ => 0

abbrev bufTy : (tb : Table) → Fin (tcTables nBuf tb) → BufTy
  | .hbm, ⟨0, _⟩ => ⟨S131072x133, .f32⟩
  | .hbm, ⟨1, _⟩ => ⟨S262144x14, .f32⟩
  | .hbm, ⟨2, _⟩ => ⟨S147x300, .f32⟩
  | .hbm, ⟨3, _⟩ => ⟨S300x300, .f32⟩
  | .hbm, ⟨4, _⟩ => ⟨S433x300, .f32⟩
  | .hbm, ⟨5, _⟩ => ⟨S300, .f32⟩
  | .hbm, ⟨6, _⟩ => ⟨S2x262144, .i32⟩
  | .hbm, ⟨7, _⟩ => ⟨S131072, .i32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S262144x1, .i32⟩
  | .hbm, ⟨20, _⟩ => ⟨S262144x133, .f32⟩
  | .hbm, ⟨21, _⟩ => ⟨S262144x147, .f32⟩
  | .hbm, ⟨22, _⟩ => ⟨S262144x300, .f32⟩
  | .hbm, ⟨23, _⟩ => ⟨S_, .f32⟩
  | .hbm, ⟨24, _⟩ => ⟨S262144x300, .f32⟩
  | .hbm, ⟨25, _⟩ => ⟨S262144x300, .f32⟩
  | .hbm, ⟨26, _⟩ => ⟨S_, .f32⟩
  | .hbm, ⟨27, _⟩ => ⟨S131072x300, .f32⟩
  | .hbm, ⟨28, _⟩ => ⟨S262144x1, .i32⟩
  | .hbm, ⟨29, _⟩ => ⟨S131072x300, .f32⟩
  | .hbm, ⟨30, _⟩ => ⟨S_, .i32⟩
  | .hbm, ⟨31, _⟩ => ⟨S262144, .i32⟩
  | .hbm, ⟨32, _⟩ => ⟨S262144, .i1⟩
  | .hbm, ⟨33, _⟩ => ⟨S_, .i32⟩
  | .hbm, ⟨34, _⟩ => ⟨S262144, .i32⟩
  | .hbm, ⟨35, _⟩ => ⟨S262144, .i32⟩
  | .hbm, ⟨36, _⟩ => ⟨S262144, .i32⟩
  | .hbm, ⟨37, _⟩ => ⟨S262144x1, .i32⟩
  | .hbm, ⟨38, _⟩ => ⟨S262144x300, .f32⟩
  | .hbm, ⟨39, _⟩ => ⟨S262144x300, .f32⟩
  | .hbm, ⟨40, _⟩ => ⟨S262144x300, .f32⟩
  | .hbm, ⟨41, _⟩ => ⟨S_, .f32⟩
  | .hbm, ⟨42, _⟩ => ⟨S262144x300, .f32⟩
  | .hbm, ⟨43, _⟩ => ⟨S262144x300, .f32⟩
  | .hbm, ⟨44, _⟩ => ⟨S_, .f32⟩
  | .hbm, ⟨45, _⟩ => ⟨S131072x300, .f32⟩
  | .hbm, ⟨46, _⟩ => ⟨S262144x1, .i32⟩
  | .hbm, ⟨47, _⟩ => ⟨S131072x300, .f32⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S262144, .i32⟩
  | .hbm, ⟨55, _⟩ => ⟨S262144x1, .i32⟩
  | .hbm, ⟨56, _⟩ => ⟨S262144x300, .f32⟩
  | .hbm, ⟨57, _⟩ => ⟨S262144x300, .f32⟩
  | .hbm, ⟨58, _⟩ => ⟨S262144x300, .f32⟩
  | .hbm, ⟨59, _⟩ => ⟨S_, .f32⟩
  | .hbm, ⟨60, _⟩ => ⟨S262144x300, .f32⟩
  | .hbm, ⟨61, _⟩ => ⟨S262144x300, .f32⟩
  | .hbm, ⟨62, _⟩ => ⟨S_, .f32⟩
  | .hbm, ⟨63, _⟩ => ⟨S131072x300, .f32⟩
  | .hbm, ⟨64, _⟩ => ⟨S262144x1, .i32⟩
  | .hbm, ⟨65, _⟩ => ⟨S131072x300, .f32⟩
  | .hbm, ⟨66, _⟩ => ⟨S131072x433, .f32⟩
  | .hbm, ⟨67, _⟩ => ⟨S131072x300, .f32⟩
  | .hbm, ⟨68, _⟩ => ⟨S1x300, .f32⟩
  | .hbm, ⟨69, _⟩ => ⟨S131072x300, .f32⟩
  | .hbm, ⟨70, _⟩ => ⟨S131072x300, .f32⟩
  | .hbm, ⟨71, _⟩ => ⟨S_, .f32⟩
  | .hbm, ⟨72, _⟩ => ⟨S131072x300, .f32⟩
  | .hbm, ⟨73, _⟩ => ⟨S131072x300, .f32⟩
  | .hbm, ⟨74, _⟩ => ⟨S_, .f32⟩
  | .hbm, ⟨75, _⟩ => ⟨S4096x300, .f32⟩
  | .hbm, ⟨76, _⟩ => ⟨S131072x1, .i32⟩
  | .hbm, ⟨77, _⟩ => ⟨S4096x300, .f32⟩
  | _, _ => ⟨S131072x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call1_cst : Ref sig .tc := ⟨.hbm, 41, rfl⟩
abbrev main_call1_v0 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call2_cst : Ref sig .tc := ⟨.hbm, 59, rfl⟩
abbrev main_call2_v0 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call3_cst : Ref sig .tc := ⟨.hbm, 71, rfl⟩
abbrev main_call3_v0 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x133_S262144x14_S262144x147_d1 : Shape.Concatenates [S262144x133, S262144x14] S262144x147 1
  bcast_S_S262144x300 : S_.BroadcastsInDim S262144x300 (![] : Fin 0 → Fin S262144x300.rank)
  bcast_S_S131072x300 : S_.BroadcastsInDim S131072x300 (![] : Fin 0 → Fin S131072x300.rank)
  concatenates_S131072x133_S131072x300_S131072x433_d1 : Shape.Concatenates [S131072x133, S131072x300] S131072x433 1
  bcast_S300_S1x300_1 : S300.BroadcastsInDim S1x300 (![1] : Fin 1 → Fin S1x300.rank)
  bcast_S1x300_S131072x300_0_1 : S1x300.BroadcastsInDim S131072x300 (![0, 1] : Fin 2 → Fin S131072x300.rank)
  bcast_S_S4096x300 : S_.BroadcastsInDim S4096x300 (![] : Fin 0 → Fin S4096x300.rank)
  bcast_S131072_S131072x1_0 : S131072.BroadcastsInDim S131072x1 (![0] : Fin 1 → Fin S131072x1.rank)
  gather_S131072x133_S262144x1_S262144x133_1_0_n_n_0_1_1133_wf : GatherDims.WF S131072x133 S262144x1 S262144x133 [1] [0] [] [0] [] 1 ![1, 133]
  dot_S262144x147_S147x300_S262144x300_1_0_0_1_n_n_wf : DotDims.WF S262144x147 S147x300 S262144x300 [1] [0] [0] [1] [] []
  scatter_S131072x300_S262144x1_S262144x300_1_0_0_1_wf : ScatterDims.WF S131072x300 S262144x1 S262144x300 [1] [0] [0] 1
  gather_S131072x300_S262144x1_S262144x300_1_0_n_n_0_1_1300_wf : GatherDims.WF S131072x300 S262144x1 S262144x300 [1] [0] [] [0] [] 1 ![1, 300]
  dot_S262144x300_S300x300_S262144x300_1_0_0_1_n_n_wf : DotDims.WF S262144x300 S300x300 S262144x300 [1] [0] [0] [1] [] []
  dot_S131072x433_S433x300_S131072x300_1_0_0_1_n_n_wf : DotDims.WF S131072x433 S433x300 S131072x300 [1] [0] [0] [1] [] []
  scatter_S4096x300_S131072x1_S131072x300_1_0_0_1_wf : ScatterDims.WF S4096x300 S131072x1 S131072x300 [1] [0] [0] 1

variable [Facts₀]

def gather_S131072x133_S262144x1_S262144x133_1_0_n_n_0_1_1133 : GatherDims S131072x133 S262144x1 S262144x133 where
  offsetDims := [1]
  collapsedSliceDims := [0]
  operandBatchingDims := []
  startIndicesBatchingDims := []
  startIndexMap := [0]
  indexVectorDim := 1
  sliceSizes := ![1, 133]
  wf := gather_S131072x133_S262144x1_S262144x133_1_0_n_n_0_1_1133_wf
def dot_S262144x147_S147x300_S262144x300_1_0_0_1_n_n : DotDims S262144x147 S147x300 S262144x300 where
  lhsContracting := [1]
  rhsContracting := [0]
  lhsNonContracting := [0]
  rhsNonContracting := [1]
  lhsBatch := []
  rhsBatch := []
  wf := dot_S262144x147_S147x300_S262144x300_1_0_0_1_n_n_wf
def scatter_S131072x300_S262144x1_S262144x300_1_0_0_1 : ScatterDims S131072x300 S262144x1 S262144x300 where
  updateWindowDims := [1]
  insertedWindowDims := [0]
  scatterDimsToOperandDims := [0]
  indexVectorDim := 1
  wf := scatter_S131072x300_S262144x1_S262144x300_1_0_0_1_wf
def gather_S131072x300_S262144x1_S262144x300_1_0_n_n_0_1_1300 : GatherDims S131072x300 S262144x1 S262144x300 where
  offsetDims := [1]
  collapsedSliceDims := [0]
  operandBatchingDims := []
  startIndicesBatchingDims := []
  startIndexMap := [0]
  indexVectorDim := 1
  sliceSizes := ![1, 300]
  wf := gather_S131072x300_S262144x1_S262144x300_1_0_n_n_0_1_1300_wf
def dot_S262144x300_S300x300_S262144x300_1_0_0_1_n_n : DotDims S262144x300 S300x300 S262144x300 where
  lhsContracting := [1]
  rhsContracting := [0]
  lhsNonContracting := [0]
  rhsNonContracting := [1]
  lhsBatch := []
  rhsBatch := []
  wf := dot_S262144x300_S300x300_S262144x300_1_0_0_1_n_n_wf
def dot_S131072x433_S433x300_S131072x300_1_0_0_1_n_n : DotDims S131072x433 S433x300 S131072x300 where
  lhsContracting := [1]
  rhsContracting := [0]
  lhsNonContracting := [0]
  rhsNonContracting := [1]
  lhsBatch := []
  rhsBatch := []
  wf := dot_S131072x433_S433x300_S131072x300_1_0_0_1_n_n_wf
def scatter_S4096x300_S131072x1_S131072x300_1_0_0_1 : ScatterDims S4096x300 S131072x1 S131072x300 where
  updateWindowDims := [1]
  insertedWindowDims := [0]
  scatterDimsToOperandDims := [0]
  indexVectorDim := 1
  wf := scatter_S4096x300_S131072x1_S131072x300_1_0_0_1_wf

class Facts : Prop extends Facts₀ where

variable [Facts]
-- ==== Proof.Spec.lean ====
/-
  The message-passing network both programs compute, stage by stage, as functions on arrays of extended reals.

  Every stage is a row-wise linear map followed by a clamp at zero:
  * the initial edge message of edge `e` is `max (xg e · W[0:133] + ea e · W[133:147]) 0`, the weight matrix's first
    133 rows meeting the gathered atom features and its last 14 rows the bond features;
  * one update of the messages is `max (msg e + ng e · W) 0`;
  * the atom output of atom `n` is `max (x n · W[0:133] + am n · W[133:433] + b) 0`.
  A product of a row with a block of rows of a matrix is the finite sum over the block; nothing here needs the
  entries to be finite, only that addition of extended reals is commutative and associative.
-/
import Idealize.ShloMosaic.PureOps.Ideal
import Idealize.ShloMosaic.Lib.ValueIdx

noncomputable section

namespace Cert.Spec

open Idealize.ShloMosaic Idealize.ShloMosaic.ValueIdx

/-- A matrix of extended reals with `r` rows and `c` columns, indexed as the programs index a rank-2 array. -/
abbrev Mat (r c : Nat) : Type := (⟨2, ![r, c]⟩ : Shape).Idx → EReal

/-- Rows `off, …, off + n - 1` of a matrix. -/
def rows {R C : Nat} (off n : Nat) (h : off + n ≤ R) (w : Mat R C) : Mat n C :=
  fun j => w (ix2 ⟨off + (j 0).val, by have := idx2_lt0 j; omega⟩ ⟨(j 1).val, idx2_lt1 j⟩)

theorem rows_ix2 {R C : Nat} (off n : Nat) (h : off + n ≤ R) (w : Mat R C) (p : Fin n) (q : Fin C) :
    rows off n h w (ix2 p q) = w (ix2 ⟨off + p.val, by omega⟩ q) := rfl

/-- Entry `(e, h)` of the initial edge messages from four arrays: gathered atom rows, bond rows, and the two
    blocks of the weight matrix. -/
def initMsgAt (xg : Mat 262144 133) (ea : Mat 262144 14) (wx : Mat 133 300) (we : Mat 14 300)
    (e : Fin 262144) (h : Fin 300) : EReal :=
  max ((∑ k : Fin 133, xg (ix2 e k) * wx (ix2 k h)) + ∑ k : Fin 14, ea (ix2 e k) * we (ix2 k h)) 0

/-- The initial edge messages. -/
def initMsg4 (xg : Mat 262144 133) (ea : Mat 262144 14) (wx : Mat 133 300) (we : Mat 14 300) : Mat 262144 300 :=
  fun i => initMsgAt xg ea wx we ⟨(i 0).val, idx2_lt0 i⟩ ⟨(i 1).val, idx2_lt1 i⟩

/-- The initial edge messages from the whole 147-row weight matrix. -/
def initMsg (xg : Mat 262144 133) (ea : Mat 262144 14) (wi : Mat 147 300) : Mat 262144 300 :=
  initMsg4 xg ea (rows 0 133 (by omega) wi) (rows 133 14 (by omega) wi)

/-- Entry `(e, h)` of one message update. -/
def stepMsgAt (msg ng : Mat 262144 300) (wh : Mat 300 300) (e : Fin 262144) (h : Fin 300) : EReal :=
  max (msg (ix2 e h) + ∑ k : Fin 300, ng (ix2 e k) * wh (ix2 k h)) 0

/-- One message update: the old message plus the gathered neighbourhood sum through the hidden weights, clamped. -/
def stepMsg (msg ng : Mat 262144 300) (wh : Mat 300 300) : Mat 262144 300 :=
  fun i => stepMsgAt msg ng wh ⟨(i 0).val, idx2_lt0 i⟩ ⟨(i 1).val, idx2_lt1 i⟩

/-- Entry `(n, h)` of the atom output from five arrays; the bias is a `1 × 300` row. -/
def atomOutAt (x : Mat 131072 133) (am : Mat 131072 300) (wx : Mat 133 300) (wa : Mat 300 300) (b : Mat 1 300)
    (n : Fin 131072) (h : Fin 300) : EReal :=
  max (((∑ k : Fin 133, x (ix2 n k) * wx (ix2 k h)) + ∑ k : Fin 300, am (ix2 n k) * wa (ix2 k h)) + b (ix2 0 h)) 0

/-- The atom output. -/
def atomOut5 (x : Mat 131072 133) (am : Mat 131072 300) (wx : Mat 133 300) (wa : Mat 300 300) (b : Mat 1 300) :
    Mat 131072 300 :=
  fun i => atomOutAt x am wx wa b ⟨(i 0).val, idx2_lt0 i⟩ ⟨(i 1).val, idx2_lt1 i⟩

/-- The atom output from the whole 433-row weight matrix and a bias vector of length 300. -/
def atomOut (x : Mat 131072 133) (am : Mat 131072 300) (wo : Mat 433 300) (bo : (⟨1, ![300]⟩ : Shape).Idx → EReal) :
    Mat 131072 300 :=
  atomOut5 x am (rows 0 133 (by omega) wo) (rows 133 300 (by omega) wo) (fun j => bo (ix1 ⟨(j 1).val, idx2_lt1 j⟩))

theorem initMsg4_ix2 (xg : Mat 262144 133) (ea : Mat 262144 14) (wx : Mat 133 300) (we : Mat 14 300)
    (e : Fin 262144) (h : Fin 300) : initMsg4 xg ea wx we (ix2 e h) = initMsgAt xg ea wx we e h := rfl

theorem stepMsg_ix2 (msg ng : Mat 262144 300) (wh : Mat 300 300) (e : Fin 262144) (h : Fin 300) :
    stepMsg msg ng wh (ix2 e h) = stepMsgAt msg ng wh e h := rfl

theorem atomOut5_ix2 (x : Mat 131072 133) (am : Mat 131072 300) (wx : Mat 133 300) (wa : Mat 300 300) (b : Mat 1 300)
    (n : Fin 131072) (h : Fin 300) : atomOut5 x am wx wa b (ix2 n h) = atomOutAt x am wx wa b n h := rfl

end Cert.Spec

end
-- ==== Proof.TakeRange.lean ====
/-
  The kernel's row gather. It wraps a negative index by the number of rows, gathers, and then replaces every row
  whose wrapped index is outside `[0, 131071]` by a fixed fill pattern; the reference only wraps and gathers.
  Where every index lies in `[0, 131072)` the wrap is the identity, the range test passes on every row, and the
  fill is never selected: the two agree. The precondition's two added conjuncts say exactly that of the first
  row of the edge index.
-/
import proofs.«411490_j65558380806592_1_alg».proof.Proof.Gen.KernelIdeal
import proofs.«411490_j65558380806592_1_alg».proof.Pre_finite_inputs
import proofs.«411490_j65558380806592_1_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.KernelIdeal.Take

open Cert.KernelIdeal Cert.KernelIdeal.Gen Idealize.ShloMosaic Idealize.ShloMosaic.TcCoe
open Idealize.ShloMosaic.ValueIdx

variable {F : FTy → Type} [FloatOps F]

/-- The source atoms of the edges: row 0 of the edge index, as a vector. -/
def srcOf (a6 : IVec S2x262144 32) : IVec S262144 32 :=
  shapeCast S262144 (extractStridedSlice S1x262144 ![0, 0] a6 slices_S2x262144_S1x262144_0_0) shapeCasts_S1x262144_S262144

/-- The target atoms of the edges: row 1 of the edge index, as a vector. -/
def tgtOf (a6 : IVec S2x262144 32) : IVec S262144 32 :=
  shapeCast S262144 (extractStridedSlice S1x262144 ![1, 0] a6 slices_S2x262144_S1x262144_1_0) shapeCasts_S1x262144_S262144

/-- A negative index wrapped by the number of rows, as a column of start indices. -/
def wrapIdx (s : IVec S262144 32) : IVec S262144x1 32 :=
  broadcastInDim S262144x1 ![0] bcast_S262144_S262144x1_0
    (select (cmpi .slt s (broadcastInDim S262144 ![] bcast_S_S262144 (constantI S_ 32 0#32)))
      (addi s (broadcastInDim S262144 ![] bcast_S_S262144 (constantI S_ 32 131072#32))) s)

/-- Per row: is the start index inside `[0, 131071]`? -/
def inRows (i : IVec S262144x1 32) : IVec S262144 1 :=
  Host.reduce IntOp.andi
    (andi (cmpi .sge i (broadcastInDim S262144x1 ![] bcast_S_S262144x1 (constantI S_ 32 0#32)))
      (cmpi .sle i (broadcastInDim S262144x1 ![0, 1] bcast_S1x1_S262144x1_0_1
        (broadcastInDim S1x1 ![1] bcast_S1_S1x1_1 (constantI S1 32 131071#32)))))
    (constantI S_ 1 1#1) reducesTo_S262144x1_S262144_d1 h_S_

/-- The kernel's gather of 133-wide rows: out-of-range rows filled. -/
def take133 (x : FVec F S131072x133 .f32) (s : IVec S262144 32) : FVec F S262144x133 .f32 :=
  select (broadcastInDim S262144x133 ![0] bcast_S262144_S262144x133_0 (inRows (wrapIdx s)))
    (Host.gather gather_S131072x133_S262144x1_S262144x133_1_0_n_n_0_1_1133 x (wrapIdx s))
    (broadcastInDim S262144x133 ![] bcast_S_S262144x133 (constant S_ .f32 0x7FC00000#32))

/-- The kernel's gather of 300-wide rows: out-of-range rows filled. -/
def take300 (x : FVec F S131072x300 .f32) (s : IVec S262144 32) : FVec F S262144x300 .f32 :=
  select (broadcastInDim S262144x300 ![0] bcast_S262144_S262144x300_0 (inRows (wrapIdx s)))
    (Host.gather gather_S131072x300_S262144x1_S262144x300_1_0_n_n_0_1_1300 x (wrapIdx s))
    (broadcastInDim S262144x300 ![] bcast_S_S262144x300 (constant S_ .f32 0x7FC00000#32))

/-- Every index is a row number of a 131072-row array, read as a signed integer. -/
def SrcOk (s : IVec S262144 32) : Prop :=
  ∀ i : S262144.Idx, 0 ≤ (s i).toInt ∧ (s i).toInt < 131072

/-! ### Words: the three signed compares of an index already in range -/

theorem toInt_zero32 : (0#32 : BitVec 32).toInt = 0 := by decide
theorem toInt_131071 : (131071#32 : BitVec 32).toInt = 131071 := by decide
theorem toInt_131072 : (131072#32 : BitVec 32).toInt = 131072 := by decide

/-- A non-negative word is not below zero. -/
theorem slt_zero_eq_zero (v : BitVec 32) (h0 : 0 ≤ v.toInt) : IntOp.cmpi .slt v 0#32 = 0#1 := by
  have e : v.slt 0#32 = false := by
    simp only [BitVec.slt, toInt_zero32, decide_eq_false_iff_not]; omega
  simp only [IntOp.cmpi, e]; rfl

/-- A non-negative word is at least zero. -/
theorem sge_zero_eq_one (v : BitVec 32) (h0 : 0 ≤ v.toInt) : IntOp.cmpi .sge v 0#32 = 1#1 := by
  have e : (0#32 : BitVec 32).sle v = true := by
    simp only [BitVec.sle, toInt_zero32, decide_eq_true_eq]; exact h0
  simp only [IntOp.cmpi, e]; rfl

/-- A word below 131072 is at most 131071. -/
theorem sle_top_eq_one (v : BitVec 32) (h1 : v.toInt < 131072) : IntOp.cmpi .sle v 131071#32 = 1#1 := by
  have e : v.sle 131071#32 = true := by
    simp only [BitVec.sle, toInt_131071, decide_eq_true_eq]; omega
  simp only [IntOp.cmpi, e]; rfl

/-- The compare "at least zero" read back. -/
theorem of_sge_zero (v : BitVec 32) (h : IntOp.cmpi .sge v 0#32 = 1#1) : 0 ≤ v.toInt := by
  simp only [IntOp.cmpi, StableHlo.Predicate.ofBool_eq_one_iff, BitVec.sle, toInt_zero32, decide_eq_true_eq] at h
  exact h

/-- The compare "below 131072" read back. -/
theorem of_slt_top (v : BitVec 32) (h : IntOp.cmpi .slt v 131072#32 = 1#1) : v.toInt < 131072 := by
  simp only [IntOp.cmpi, StableHlo.Predicate.ofBool_eq_one_iff, BitVec.slt, toInt_131072, decide_eq_true_eq] at h
  exact h

/-- Wrapping a non-negative index by the number of rows leaves it as it is. -/
theorem wrap_word (v : BitVec 32) (h0 : 0 ≤ v.toInt) :
    Scalar.select (IntOp.cmpi .slt v 0#32) (IntOp.addi v 131072#32) v = v := by
  rw [slt_zero_eq_zero v h0, select_zero]

/-- The range test of an index in `[0, 131072)` passes. -/
theorem range_word (v : BitVec 32) (h0 : 0 ≤ v.toInt) (h1 : v.toInt < 131072) :
    IntOp.andi (IntOp.cmpi .sge v 0#32) (IntOp.cmpi .sle v 131071#32) = 1#1 := by
  rw [sge_zero_eq_one v h0, sle_top_eq_one v h1]; decide

/-! ### A conjunction of bits that are all 1 -/

/-- A left fold by `and` from 1 over bits that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_one f hf l

/-- A reduction by `and` from 1 of an array of bits that are all 1 is 1 at every result index, whatever the axes. -/
theorem reduce_andi_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-! ### The wrapped indices and the range mask -/

/-- In range, the wrap's select picks the index itself at every position. -/
theorem wrap_at (s : IVec S262144 32) (h : SrcOk s) (k : S262144.Idx) :
    (select (cmpi .slt s (broadcastInDim S262144 ![] bcast_S_S262144 (constantI S_ 32 0#32)))
      (addi s (broadcastInDim S262144 ![] bcast_S_S262144 (constantI S_ 32 131072#32))) s) k = s k := by
  rw [select_apply]
  exact wrap_word (s k) (h k).1

/-- In range, every entry of the column of wrapped indices is an entry of the index vector. -/
theorem wrapIdx_apply (s : IVec S262144 32) (h : SrcOk s) (i : S262144x1.Idx) : ∃ k : S262144.Idx, wrapIdx s i = s k := by
  unfold wrapIdx
  rw [broadcastInDim]
  exact ⟨_, wrap_at s h _⟩

/-- So every wrapped index is again in `[0, 131072)`. -/
theorem wrapIdx_ok (s : IVec S262144 32) (h : SrcOk s) (i : S262144x1.Idx) :
    0 ≤ (wrapIdx s i).toInt ∧ (wrapIdx s i).toInt < 131072 := by
  obtain ⟨k, hk⟩ := wrapIdx_apply s h i
  rw [hk]; exact h k

/-- The range test's bit at every position of a column of indices in `[0, 131072)` is 1. -/
theorem range_bits (I : IVec S262144x1 32) (hI : ∀ i, 0 ≤ (I i).toInt ∧ (I i).toInt < 131072) (i : S262144x1.Idx) :
    (andi (cmpi .sge I (broadcastInDim S262144x1 ![] bcast_S_S262144x1 (constantI S_ 32 0#32)))
      (cmpi .sle I (broadcastInDim S262144x1 ![0, 1] bcast_S1x1_S262144x1_0_1
        (broadcastInDim S1x1 ![1] bcast_S1_S1x1_1 (constantI S1 32 131071#32))))) i = 1#1 :=
  range_word (I i) (hI i).1 (hI i).2

/-- So the per-row mask is 1 on every row. -/
theorem inRows_one (I : IVec S262144x1 32) (hI : ∀ i, 0 ≤ (I i).toInt ∧ (I i).toInt < 131072) (j : S262144.Idx) :
    inRows I j = 1#1 := by
  unfold inRows
  exact reduce_andi_one _ _ _ _ (range_bits I hI) rfl j

/-- The precondition's last two conjuncts: every source atom is in range. -/
theorem srcOk_of_pre (a0 : FVec F S131072x133 .f32) (a1 : FVec F S262144x14 .f32) (a2 : FVec F S147x300 .f32)
    (a3 : FVec F S300x300 .f32) (a4 : FVec F S433x300 .f32) (a5 : FVec F S300 .f32) (a6 : IVec S2x262144 32)
    (a7 : IVec S131072 32)
    (h : Cert.Pre_finite_inputs.fn (F := F) a0 a1 a2 a3 a4 a5 a6 a7 = fun _ => 1#1) : SrcOk (srcOf a6) := by
  have h0 : Cert.Pre_finite_inputs.fn (F := F) a0 a1 a2 a3 a4 a5 a6 a7 ValueIdx.ix0 = 1#1 := congrFun h _
  dsimp only [Cert.Pre_finite_inputs.fn, Cert.Pre_finite_inputs.fn_part1, Cert.Pre_finite_inputs.fn_part2] at h0
  -- the result is (finiteness ∧ all (src ≥ 0)) ∧ all (src < 131072)
  obtain ⟨h1, hlt⟩ := IntOp.andi_eq_one.1 h0
  obtain ⟨-, hge⟩ := IntOp.andi_eq_one.1 h1
  haveI : Subsingleton (⟨0, ![]⟩ : Shape).Idx := ⟨fun a b => funext fun d => d.elim0⟩
  intro i
  exact ⟨of_sge_zero _ (Host.reduce_andi_all _ _ _ _ _ hge i), of_slt_top _ (Host.reduce_andi_all _ _ _ _ _ hlt i)⟩

/-- In range, the filled gather is the plain gather at the wrapped indices. -/
theorem take133_eq (x : FVec F S131072x133 .f32) (s : IVec S262144 32) (h : SrcOk s) :
    take133 x s = Host.gather gather_S131072x133_S262144x1_S262144x133_1_0_n_n_0_1_1133 x (wrapIdx s) := by
  funext j
  have hm : broadcastInDim S262144x133 ![0] bcast_S262144_S262144x133_0 (inRows (wrapIdx s)) j = 1#1 := by
    rw [broadcastInDim]
    exact inRows_one (wrapIdx s) (wrapIdx_ok s h) _
  unfold take133
  rw [select_apply, hm, select_one]

/-- In range, the filled gather is the plain gather at the wrapped indices. -/
theorem take300_eq (x : FVec F S131072x300 .f32) (s : IVec S262144 32) (h : SrcOk s) :
    take300 x s = Host.gather gather_S131072x300_S262144x1_S262144x300_1_0_n_n_0_1_1300 x (wrapIdx s) := by
  funext j
  have hm : broadcastInDim S262144x300 ![0] bcast_S262144_S262144x300_0 (inRows (wrapIdx s)) j = 1#1 := by
    rw [broadcastInDim]
    exact inRows_one (wrapIdx s) (wrapIdx_ok s h) _
  unfold take300
  rw [select_apply, hm, select_one]

end Cert.KernelIdeal.Take

end
-- ==== Proof.Region0.lean ====
/-
  Region 0 (the initial edge messages): the output array after the last grid point, as one function of the four arrays the region finds at entry.

  At grid point `t` the body loads rows `4096 t … 4096 t + 4095` of the gathered atom features and of the bond
  features and the two weight blocks whole, forms the two products row block × weight block (each a finite sum over
  the shared axis, 133 and 14 terms), adds them and clamps at zero. On extended reals the changes of float format
  are the identity and the zero accumulator adds nothing, so entry `(p, q)` of the stored block is entry
  `(4096 t + p, q)` of `Cert.Spec.initMsg4` of the four entry arrays. Row `r` lies in the block of point
  `r / 4096`, so the 64 blocks cover the 262144 rows and the array ends holding `initMsg4`.
-/
import proofs.«411490_j65558380806592_1_alg».proof.Proof.Gen.KernelIdeal.Frame
import proofs.«411490_j65558380806592_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The two products of the body, read at an index

For a product of a row block with a weight block, at output entry `i` and shared coordinate `q` the left factor is
read at `(i₀, q)` and the right factor at `(q, i₁)`: the four coordinate equations below, first for the 133 atom
features, then for the 14 bond features. -/

theorem lhsX_0 (i : S4096x300.Idx) (q : dot_S4096x133_S133x300_S4096x300_1_0_0_1_n_n.contr.Idx) :
    (dot_S4096x133_S133x300_S4096x300_1_0_0_1_n_n.lhsIdx i q 0).val = (i 0).val := by
  unfold DotDims.lhsIdx
  rw [dif_neg (show ¬(0 : Fin S4096x133.rank) ∈ dot_S4096x133_S133x300_S4096x300_1_0_0_1_n_n.lhsBatch by decide), dif_pos (show (0 : Fin S4096x133.rank) ∈ dot_S4096x133_S133x300_S4096x300_1_0_0_1_n_n.lhsNonContracting by decide)]
  rfl
theorem lhsX_1 (i : S4096x300.Idx) (q : dot_S4096x133_S133x300_S4096x300_1_0_0_1_n_n.contr.Idx) :
    (dot_S4096x133_S133x300_S4096x300_1_0_0_1_n_n.lhsIdx i q 1).val = (q ⟨0, by decide⟩).val :=
  dot_S4096x133_S133x300_S4096x300_1_0_0_1_n_n.lhsIdx_val_of_single rfl i q
theorem rhsX_0 (i : S4096x300.Idx) (q : dot_S4096x133_S133x300_S4096x300_1_0_0_1_n_n.contr.Idx) :
    (dot_S4096x133_S133x300_S4096x300_1_0_0_1_n_n.rhsIdx i q 0).val = (q ⟨0, by decide⟩).val :=
  dot_S4096x133_S133x300_S4096x300_1_0_0_1_n_n.rhsIdx_val_of_single rfl i q
theorem rhsX_1 (i : S4096x300.Idx) (q : dot_S4096x133_S133x300_S4096x300_1_0_0_1_n_n.contr.Idx) :
    (dot_S4096x133_S133x300_S4096x300_1_0_0_1_n_n.rhsIdx i q 1).val = (i 1).val := by
  unfold DotDims.rhsIdx
  rw [dif_neg (show ¬(1 : Fin S133x300.rank) ∈ dot_S4096x133_S133x300_S4096x300_1_0_0_1_n_n.rhsBatch by decide), dif_pos (show (1 : Fin S133x300.rank) ∈ dot_S4096x133_S133x300_S4096x300_1_0_0_1_n_n.rhsNonContracting by decide)]
  rfl

/-- The product of a 4096 × 133 block of rows with the 133 × 300 weight block, into a zero accumulator, at entry
    `(p, q)`: the sum over the 133 shared coordinates. -/
theorem matmulX_apply (a : FVec Ideal S4096x133 .bf16) (b : FVec Ideal S133x300 .bf16) (p : Fin 4096) (q : Fin 300) :
    matmul (F := Ideal) dot_S4096x133_S133x300_S4096x300_1_0_0_1_n_n none a b (constant (F := Ideal) S4096x300 .f32 0x00000000#32) (ix2 p q)
      = ∑ k : Fin 133, a (ix2 p k) * b (ix2 k q) := by
  simp only [matmul]
  rw [Ideal.matmul_constant_zero_apply, ← Equiv.sum_comp (ValueIdx.contrEquiv1 dot_S4096x133_S133x300_S4096x300_1_0_0_1_n_n 133 rfl rfl).symm]
  refine Finset.sum_congr rfl fun k _ => ?_
  have hk := ValueIdx.contrEquiv1_symm_val dot_S4096x133_S133x300_S4096x300_1_0_0_1_n_n 133 rfl rfl k
  have el : dot_S4096x133_S133x300_S4096x300_1_0_0_1_n_n.lhsIdx (ix2 p q) ((ValueIdx.contrEquiv1 dot_S4096x133_S133x300_S4096x300_1_0_0_1_n_n 133 rfl rfl).symm k) = ix2 p k := funext fun a => Fin.ext (by
    match a with
    | ⟨0, _⟩ => exact lhsX_0 _ _
    | ⟨1, _⟩ => exact (lhsX_1 _ _).trans hk)
  have er : dot_S4096x133_S133x300_S4096x300_1_0_0_1_n_n.rhsIdx (ix2 p q) ((ValueIdx.contrEquiv1 dot_S4096x133_S133x300_S4096x300_1_0_0_1_n_n 133 rfl rfl).symm k) = ix2 k q := funext fun a => Fin.ext (by
    match a with
    | ⟨0, _⟩ => exact (rhsX_0 _ _).trans hk
    | ⟨1, _⟩ => exact rhsX_1 _ _)
  rw [el, er]

theorem lhsE_0 (i : S4096x300.Idx) (q : dot_S4096x14_S14x300_S4096x300_1_0_0_1_n_n.contr.Idx) :
    (dot_S4096x14_S14x300_S4096x300_1_0_0_1_n_n.lhsIdx i q 0).val = (i 0).val := by
  unfold DotDims.lhsIdx
  rw [dif_neg (show ¬(0 : Fin S4096x14.rank) ∈ dot_S4096x14_S14x300_S4096x300_1_0_0_1_n_n.lhsBatch by decide), dif_pos (show (0 : Fin S4096x14.rank) ∈ dot_S4096x14_S14x300_S4096x300_1_0_0_1_n_n.lhsNonContracting by decide)]
  rfl
theorem lhsE_1 (i : S4096x300.Idx) (q : dot_S4096x14_S14x300_S4096x300_1_0_0_1_n_n.contr.Idx) :
    (dot_S4096x14_S14x300_S4096x300_1_0_0_1_n_n.lhsIdx i q 1).val = (q ⟨0, by decide⟩).val :=
  dot_S4096x14_S14x300_S4096x300_1_0_0_1_n_n.lhsIdx_val_of_single rfl i q
theorem rhsE_0 (i : S4096x300.Idx) (q : dot_S4096x14_S14x300_S4096x300_1_0_0_1_n_n.contr.Idx) :
    (dot_S4096x14_S14x300_S4096x300_1_0_0_1_n_n.rhsIdx i q 0).val = (q ⟨0, by decide⟩).val :=
  dot_S4096x14_S14x300_S4096x300_1_0_0_1_n_n.rhsIdx_val_of_single rfl i q
theorem rhsE_1 (i : S4096x300.Idx) (q : dot_S4096x14_S14x300_S4096x300_1_0_0_1_n_n.contr.Idx) :
    (dot_S4096x14_S14x300_S4096x300_1_0_0_1_n_n.rhsIdx i q 1).val = (i 1).val := by
  unfold DotDims.rhsIdx
  rw [dif_neg (show ¬(1 : Fin S14x300.rank) ∈ dot_S4096x14_S14x300_S4096x300_1_0_0_1_n_n.rhsBatch by decide), dif_pos (show (1 : Fin S14x300.rank) ∈ dot_S4096x14_S14x300_S4096x300_1_0_0_1_n_n.rhsNonContracting by decide)]
  rfl

/-- The product of a 4096 × 14 block of bond rows with the 14 × 300 weight block, into a zero accumulator, at entry
    `(p, q)`: the sum over the 14 shared coordinates. -/
theorem matmulE_apply (a : FVec Ideal S4096x14 .bf16) (b : FVec Ideal S14x300 .bf16) (p : Fin 4096) (q : Fin 300) :
    matmul (F := Ideal) dot_S4096x14_S14x300_S4096x300_1_0_0_1_n_n none a b (constant (F := Ideal) S4096x300 .f32 0x00000000#32) (ix2 p q)
      = ∑ k : Fin 14, a (ix2 p k) * b (ix2 k q) := by
  simp only [matmul]
  rw [Ideal.matmul_constant_zero_apply, ← Equiv.sum_comp (ValueIdx.contrEquiv1 dot_S4096x14_S14x300_S4096x300_1_0_0_1_n_n 14 rfl rfl).symm]
  refine Finset.sum_congr rfl fun k _ => ?_
  have hk := ValueIdx.contrEquiv1_symm_val dot_S4096x14_S14x300_S4096x300_1_0_0_1_n_n 14 rfl rfl k
  have el : dot_S4096x14_S14x300_S4096x300_1_0_0_1_n_n.lhsIdx (ix2 p q) ((ValueIdx.contrEquiv1 dot_S4096x14_S14x300_S4096x300_1_0_0_1_n_n 14 rfl rfl).symm k) = ix2 p k := funext fun a => Fin.ext (by
    match a with
    | ⟨0, _⟩ => exact lhsE_0 _ _
    | ⟨1, _⟩ => exact (lhsE_1 _ _).trans hk)
  have er : dot_S4096x14_S14x300_S4096x300_1_0_0_1_n_n.rhsIdx (ix2 p q) ((ValueIdx.contrEquiv1 dot_S4096x14_S14x300_S4096x300_1_0_0_1_n_n 14 rfl rfl).symm k) = ix2 k q := funext fun a => Fin.ext (by
    match a with
    | ⟨0, _⟩ => exact (rhsE_0 _ _).trans hk
    | ⟨1, _⟩ => exact rhsE_1 _ _)
  rw [el, er]

/-! ## The body's payload at an index -/

/-- Entry `(p, q)` of what the body stores: the two products of the loaded row blocks with the loaded weight
    blocks, added, clamped at zero. The float-format changes are the identity on extended reals, and the zero word is
    the real zero. -/
theorem pay_apply (x0 : Vec Ideal S4096x133 .f32) (x1 : Vec Ideal S4096x14 .f32) (x2 : Vec Ideal S133x300 .f32)
    (x3 : Vec Ideal S14x300 .f32) (p : Fin 4096) (q : Fin 300) :
    k0_pay1 (F := Ideal) x0 x1 x2 x3 (ix2 p q)
      = max ((∑ k : Fin 133, x0 (ix2 p k) * x2 (ix2 k q)) + ∑ k : Fin 14, x1 (ix2 p k) * x3 (ix2 k q)) 0 := by
  unfold k0_pay1
  simp only [shapeCast_self]
  rw [maximumf_apply, addf_apply, broadcast_apply]
  refine congrArg₂ max (congrArg₂ (· + ·) ?_ ?_) ?_
  · exact matmulX_apply _ _ p q
  · exact matmulE_apply _ _ p q
  · exact Ideal.ofBits_zero_f32

/-! ## One block of the output as rows of the specification -/

/-- Entry `j` of the block stored at a grid point, when the loaded blocks are rows `4096 T …` of the two row arrays
    and the two weight blocks whole, is entry `(4096 T + j₀, j₁)` of the initial edge messages. -/
theorem block_entry (xg : Cert.Spec.Mat 262144 133) (ea : Cert.Spec.Mat 262144 14) (wx : Cert.Spec.Mat 133 300)
    (we : Cert.Spec.Mat 14 300)
    (x0 : Vec Ideal S4096x133 .f32) (x1 : Vec Ideal S4096x14 .f32) (x2 : Vec Ideal S133x300 .f32)
    (x3 : Vec Ideal S14x300 .f32) (T : Nat) (hT : T < 64)
    (h0 : ∀ (p : Fin 4096) (k : Fin 133), x0 (ix2 p k) = xg (ix2 ⟨4096 * T + p.val, by omega⟩ k))
    (h1 : ∀ (p : Fin 4096) (k : Fin 14), x1 (ix2 p k) = ea (ix2 ⟨4096 * T + p.val, by omega⟩ k))
    (h2 : ∀ (k : Fin 133) (q : Fin 300), x2 (ix2 k q) = wx (ix2 k q))
    (h3 : ∀ (k : Fin 14) (q : Fin 300), x3 (ix2 k q) = we (ix2 k q))
    (j : S4096x300.Idx) (i : S262144x300.Idx)
    (hi0 : (i 0).val = 4096 * T + (j 0).val) (hi1 : (i 1).val = (j 1).val) :
    k0_pay1 (F := Ideal) x0 x1 x2 x3 j = Cert.Spec.initMsg4 xg ea wx we i := by
  obtain ⟨p, q, rfl⟩ : ∃ (p : Fin 4096) (q : Fin 300), j = ix2 p q := ⟨j 0, j 1, eq_ix2 j⟩
  have hi : i = ix2 ⟨4096 * T + p.val, by omega⟩ q := by
    funext a; apply Fin.ext
    match a with
    | ⟨0, _⟩ => exact hi0
    | ⟨1, _⟩ => exact hi1
  rw [pay_apply, hi, Cert.Spec.initMsg4_ix2]
  unfold Cert.Spec.initMsgAt
  simp only [h0, h1, h2, h3]

/-- The zero offsets of a whole-block access, as the constant function. -/
theorem hz : (![0, 0] : Fin 2 → Nat) = fun _ => 0 := funext fun a => by fin_cases a <;> rfl

/-- The block indices of the five windows at every grid point: the row-blocked windows are at block `(t, 0)`, the two
    weight windows at block `(0, 0)`. Decided over the 64 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The grid has 64 points. -/
theorem point_lt (t : Fin cfg0.N) : t.val < 64 := by
  have h := t.isLt
  have hN : cfg0.N = 64 := N_0
  omega

/-- The gathered atom rows' block at point `t` is rows `4096 t … 4096 t + 4095` of the array. -/
theorem atomRows_apply (c : Dev nD) (t : Fin cfg0.N) (p : Fin 4096) (k : Fin 133) :
    (iblk0 V c 0 t : Vec Ideal S4096x133 .f32) (ix2 p k)
      = (V c main_v4 : S262144x133.Idx → Elt Ideal .f32) (ix2 ⟨4096 * t.val + p.val, by have := point_lt t; omega⟩ k) := by
  obtain ⟨e0, e1, -⟩ := idx_facts t
  unfold iblk0
  rw [View.read_apply]
  show V c main_v4 _ = V c main_v4 _
  congr 1
  funext a; apply Fin.ext
  match a with
  | ⟨0, _⟩ => show win0_0.index t (0 : Fin 2) * 4096 + 1 * p.val = 4096 * t.val + p.val; rw [e0]; omega
  | ⟨1, _⟩ => show win0_0.index t (1 : Fin 2) * 133 + 1 * k.val = k.val; rw [e1]; omega

/-- The bond rows' block at point `t` is rows `4096 t … 4096 t + 4095` of the array. -/
theorem bondRows_apply (c : Dev nD) (t : Fin cfg0.N) (p : Fin 4096) (k : Fin 14) :
    (iblk0 V c 1 t : Vec Ideal S4096x14 .f32) (ix2 p k)
      = (V c main_arg1 : S262144x14.Idx → Elt Ideal .f32) (ix2 ⟨4096 * t.val + p.val, by have := point_lt t; omega⟩ k) := by
  obtain ⟨-, -, e0, e1, -⟩ := idx_facts t
  unfold iblk0
  rw [View.read_apply]
  show V c main_arg1 _ = V c main_arg1 _
  congr 1
  funext a; apply Fin.ext
  match a with
  | ⟨0, _⟩ => show win0_1.index t (0 : Fin 2) * 4096 + 1 * p.val = 4096 * t.val + p.val; rw [e0]; omega
  | ⟨1, _⟩ => show win0_1.index t (1 : Fin 2) * 14 + 1 * k.val = k.val; rw [e1]; omega

/-- The first weight block is loaded whole at every point. -/
theorem atomWeights_apply (c : Dev nD) (t : Fin cfg0.N) (k : Fin 133) (q : Fin 300) :
    (iblk0 V c 2 t : Vec Ideal S133x300 .f32) (ix2 k q) = (V c main_v5 : S133x300.Idx → Elt Ideal .f32) (ix2 k q) := by
  obtain ⟨-, -, -, -, e0, e1, -⟩ := idx_facts t
  unfold iblk0
  rw [View.read_apply]
  show V c main_v5 _ = V c main_v5 _
  congr 1
  funext a; apply Fin.ext
  match a with
  | ⟨0, _⟩ => show win0_2.index t (0 : Fin 2) * 133 + 1 * k.val = k.val; rw [e0]; omega
  | ⟨1, _⟩ => show win0_2.index t (1 : Fin 2) * 300 + 1 * q.val = q.val; rw [e1]; omega

/-- The second weight block is loaded whole at every point. -/
theorem bondWeights_apply (c : Dev nD) (t : Fin cfg0.N) (k : Fin 14) (q : Fin 300) :
    (iblk0 V c 3 t : Vec Ideal S14x300 .f32) (ix2 k q) = (V c main_v6 : S14x300.Idx → Elt Ideal .f32) (ix2 k q) := by
  obtain ⟨-, -, -, -, -, -, e0, e1, -⟩ := idx_facts t
  unfold iblk0
  rw [View.read_apply]
  show V c main_v6 _ = V c main_v6 _
  congr 1
  funext a; apply Fin.ext
  match a with
  | ⟨0, _⟩ => show win0_3.index t (0 : Fin 2) * 14 + 1 * k.val = k.val; rw [e0]; omega
  | ⟨1, _⟩ => show win0_3.index t (1 : Fin 2) * 300 + 1 * q.val = q.val; rw [e1]; omega

/-! ## From the blocks to the array -/

/-- The initial edge messages of the four arrays the region finds at entry. -/
abbrev entryMsg (c : Dev nD) : S262144x300.Idx → Elt Ideal .f32 :=
  Cert.Spec.initMsg4 (V c main_v4) (V c main_arg1) (V c main_v5) (V c main_v6)

/-- What point `t` writes back is block `t` of the initial edge messages: the one whole-block store of the payload,
    whose loaded blocks are the rows and weights above. -/
theorem flushed_eq (c : Dev nD) (t : Fin cfg0.N) :
    (dat0 (F := Ideal) V c).flushed 4 t = ((cfg0.win 4).blk t).view.read (Elt Ideal) (entryMsg V c) := by
  obtain ⟨-, -, -, -, -, -, -, -, e0, e1⟩ := idx_facts t
  show (cfg0.win 4).cut (grid0.coords t) ((dat0 V c).after 4 t) = _
  rw [after0_4]
  unfold out0_4
  rw [View.canon_unit_zero hz]
  simp only [View.ld_unit_zero (S := S4096x133) hz, View.ld_unit_zero (S := S4096x14) hz,
    View.ld_unit_zero (S := S133x300) hz, View.ld_unit_zero (S := S14x300) hz]
  funext j
  show k0_pay1 (F := Ideal) (iblk0 V c 0 t) (iblk0 V c 1 t) (iblk0 V c 2 t) (iblk0 V c 3 t) j
    = Cert.Spec.initMsg4 (V c main_v4) (V c main_arg1) (V c main_v5) (V c main_v6) (((cfg0.win 4).blk t).view.emb j)
  refine block_entry (V c main_v4) (V c main_arg1) (V c main_v5) (V c main_v6)
    (iblk0 V c 0 t) (iblk0 V c 1 t) (iblk0 V c 2 t) (iblk0 V c 3 t) t.val (point_lt t)
    (atomRows_apply V c t) (bondRows_apply V c t) (atomWeights_apply V c t) (bondWeights_apply V c t)
    j (((cfg0.win 4).blk t).view.emb j) ?_ ?_
  · show win0_4.index t (0 : Fin 2) * 4096 + 1 * (j 0).val = 4096 * t.val + (j 0).val
    rw [e0]; omega
  · show win0_4.index t (1 : Fin 2) * 300 + 1 * (j 1).val = (j 1).val
    rw [e1]; omega

/-- A row index of the array is in point `t`'s output block iff each coordinate is in the block's range on its axis. -/
theorem mem_blk (t : Fin cfg0.N) (i : S262144x300.Idx) :
    i ∈ ((cfg0.win 4).blk t).view.set ↔ ∀ a : Fin 2, win0_4.index t a * S4096x300.size a ≤ (i a).val
      ∧ (i a).val < win0_4.index t a * S4096x300.size a + S4096x300.size a := by
  show i ∈ ((View.whole main_v7).slice (win0_4.rect t)).set ↔ _
  rw [View.set_slice_whole, Rect.mem_set_unit]
  exact Iff.rfl

/-- Every entry of the array is written back by some point: row `r` lies in the block of point `r / 4096`. -/
theorem cover (i : S262144x300.Idx) :
    ∃ t : Fin cfg0.N, (cfg0.win 4).flush t = true ∧ i ∈ ((cfg0.win 4).blk t).view.set := by
  have hi0 : (i 0).val < 262144 := (i 0).isLt
  have hi1 : (i 1).val < 300 := (i 1).isLt
  have hN : cfg0.N = 64 := N_0
  have hlt : (i 0).val / 4096 < cfg0.N := by omega
  obtain ⟨-, -, -, -, -, -, -, -, e0, e1⟩ := idx_facts ⟨(i 0).val / 4096, hlt⟩
  have e0' : win0_4.index ⟨(i 0).val / 4096, hlt⟩ (0 : Fin 2) = (i 0).val / 4096 := e0
  refine ⟨⟨(i 0).val / 4096, hlt⟩, flush0_4 _, ?_⟩
  rw [mem_blk]
  intro a
  match a with
  | ⟨0, _⟩ =>
    show win0_4.index ⟨(i 0).val / 4096, hlt⟩ (0 : Fin 2) * 4096 ≤ (i 0).val
      ∧ (i 0).val < win0_4.index ⟨(i 0).val / 4096, hlt⟩ (0 : Fin 2) * 4096 + 4096
    rw [e0']; omega
  | ⟨1, _⟩ =>
    show win0_4.index ⟨(i 0).val / 4096, hlt⟩ (1 : Fin 2) * 300 ≤ (i 1).val
      ∧ (i 1).val < win0_4.index ⟨(i 0).val / 4096, hlt⟩ (1 : Fin 2) * 300 + 300
    rw [e1]; omega

/-- Rows `4096 t … 4096 t + 4095` of the output are written at grid point `t` from the same rows of the two row-blocked
    inputs and the two whole weight blocks; the 64 blocks tile the 262144 rows, so the array ends at `initMsg4`. -/
theorem out_eq (c : Dev nD) :
    (dat0 (F := Ideal) V c).arrAt 4 cfg0.N
      = Cert.Spec.initMsg4 (V c main_v4) (V c main_arg1) (V c main_v5) (V c main_v6) :=
  (dat0 (F := Ideal) V c).arrAt_eq_of_cover 4 (entryMsg V c) (fun t _ => flushed_eq V c t) cover

end Cert.KernelIdeal.Region0

end
-- ==== Proof.Region1.lean ====
/-
  Region 1 (the first message update): the output array after the last grid point, as one function of the three arrays the region finds at entry.
-/
import proofs.«411490_j65558380806592_1_alg».proof.Proof.Gen.KernelIdeal.Frame
import proofs.«411490_j65558380806592_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-! ## The body's stored value at an entry of the block -/

/-- The contraction's operand indices: the left operand is read at (row of the output, contracted index), -/
theorem lhs_row (i : S2048x300.Idx) (r : dot_S2048x300_S300x300_S2048x300_1_0_0_1_n_n.contr.Idx) :
    (dot_S2048x300_S300x300_S2048x300_1_0_0_1_n_n.lhsIdx i r 0).val = (i 0).val := by
  unfold DotDims.lhsIdx
  rw [dif_neg (show ¬(0 : Fin S2048x300.rank) ∈ dot_S2048x300_S300x300_S2048x300_1_0_0_1_n_n.lhsBatch by decide), dif_pos (show (0 : Fin S2048x300.rank) ∈ dot_S2048x300_S300x300_S2048x300_1_0_0_1_n_n.lhsNonContracting by decide)]
  rfl
theorem lhs_col (i : S2048x300.Idx) (r : dot_S2048x300_S300x300_S2048x300_1_0_0_1_n_n.contr.Idx) :
    (dot_S2048x300_S300x300_S2048x300_1_0_0_1_n_n.lhsIdx i r 1).val = (r ⟨0, by decide⟩).val :=
  dot_S2048x300_S300x300_S2048x300_1_0_0_1_n_n.lhsIdx_val_of_single rfl i r
/-- and the right operand at (contracted index, column of the output). -/
theorem rhs_row (i : S2048x300.Idx) (r : dot_S2048x300_S300x300_S2048x300_1_0_0_1_n_n.contr.Idx) :
    (dot_S2048x300_S300x300_S2048x300_1_0_0_1_n_n.rhsIdx i r 0).val = (r ⟨0, by decide⟩).val :=
  dot_S2048x300_S300x300_S2048x300_1_0_0_1_n_n.rhsIdx_val_of_single rfl i r
theorem rhs_col (i : S2048x300.Idx) (r : dot_S2048x300_S300x300_S2048x300_1_0_0_1_n_n.contr.Idx) :
    (dot_S2048x300_S300x300_S2048x300_1_0_0_1_n_n.rhsIdx i r 1).val = (i 1).val := by
  unfold DotDims.rhsIdx
  rw [dif_neg (show ¬(1 : Fin S300x300.rank) ∈ dot_S2048x300_S300x300_S2048x300_1_0_0_1_n_n.rhsBatch by decide), dif_pos (show (1 : Fin S300x300.rank) ∈ dot_S2048x300_S300x300_S2048x300_1_0_0_1_n_n.rhsNonContracting by decide)]
  rfl

/-- The product of a 2048×300 block with a 300×300 matrix into a zero accumulator, at entry `(p, q)`: row `p` of
    the block against column `q` of the matrix. -/
theorem matmul_zero_apply (a : FVec Ideal S2048x300 .bf16) (b : FVec Ideal S300x300 .bf16) (p : Fin 2048) (q : Fin 300) :
    matmul dot_S2048x300_S300x300_S2048x300_1_0_0_1_n_n none a b (constant (F := Ideal) S2048x300 .f32 0x00000000#32) (ix2 p q)
      = ∑ k : Fin 300, a (ix2 p k) * b (ix2 k q) := by
  simp only [matmul]
  rw [Ideal.matmul_constant_zero_apply, ← Equiv.sum_comp (contrEquiv1 dot_S2048x300_S300x300_S2048x300_1_0_0_1_n_n 300 rfl rfl).symm]
  refine Finset.sum_congr rfl fun k _ => ?_
  have hk := contrEquiv1_symm_val dot_S2048x300_S300x300_S2048x300_1_0_0_1_n_n 300 rfl rfl k
  have el : dot_S2048x300_S300x300_S2048x300_1_0_0_1_n_n.lhsIdx (ix2 p q) ((contrEquiv1 dot_S2048x300_S300x300_S2048x300_1_0_0_1_n_n 300 rfl rfl).symm k) = ix2 p k := funext fun a => Fin.ext (by
    match a with
    | ⟨0, _⟩ => exact lhs_row _ _
    | ⟨1, _⟩ => exact (lhs_col _ _).trans hk)
  have er : dot_S2048x300_S300x300_S2048x300_1_0_0_1_n_n.rhsIdx (ix2 p q) ((contrEquiv1 dot_S2048x300_S300x300_S2048x300_1_0_0_1_n_n 300 rfl rfl).symm k) = ix2 k q := funext fun a => Fin.ext (by
    match a with
    | ⟨0, _⟩ => exact (rhs_row _ _).trans hk
    | ⟨1, _⟩ => exact rhs_col _ _)
  rw [el, er]

/-- The stored value at entry `(p, q)` of the block: the message entry plus row `p` of the gathered sums against
    column `q` of the hidden weights, clamped at zero. The format changes on the way into the product are the identity
    on extended reals, and the zero word is the real zero. -/
theorem pay_apply (x0 x1 : Vec Ideal S2048x300 .f32) (x2 : Vec Ideal S300x300 .f32) (p : Fin 2048) (q : Fin 300) :
    k1_pay1 (F := Ideal) x0 x1 x2 (ix2 p q) = max (x0 (ix2 p q) + ∑ k : Fin 300, x1 (ix2 p k) * x2 (ix2 k q)) 0 := by
  unfold k1_pay1
  rw [maximumf_apply, addf_apply, broadcast_apply, matmul_zero_apply]
  simp only [shapeCast_self, truncf_apply]
  show max _ (Ideal.ofBits .f32 0x00000000#32) = _
  rw [Ideal.ofBits_zero_f32]

/-- The stored value at entry `(p, q)` of a block whose loaded inputs are row `e` of the messages, row `e` of the
    gathered sums and the whole weight matrix: entry `(e, q)` of the updated messages. -/
theorem pay_eq_step (msg ng : Cert.Spec.Mat 262144 300) (wh : Cert.Spec.Mat 300 300)
    (x0 x1 : Vec Ideal S2048x300 .f32) (x2 : Vec Ideal S300x300 .f32) (e : Fin 262144) (p : Fin 2048) (q : Fin 300)
    (h0 : x0 (ix2 p q) = msg (ix2 e q)) (h1 : ∀ k : Fin 300, x1 (ix2 p k) = ng (ix2 e k))
    (h2 : ∀ k : Fin 300, x2 (ix2 k q) = wh (ix2 k q)) :
    k1_pay1 (F := Ideal) x0 x1 x2 (ix2 p q) = Cert.Spec.stepMsgAt msg ng wh e q := by
  rw [pay_apply, h0]
  unfold Cert.Spec.stepMsgAt
  exact congrArg (fun s => max (msg (ix2 e q) + s) 0) (Finset.sum_congr rfl fun k _ => by rw [h1 k, h2 k])

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point `t` the two row-blocked inputs and the output are at block
    `(t, 0)`, the weights at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The messages' block at point `t` is rows `2048 t …` of the messages. -/
theorem msg_blk_apply (c : Dev nD) (t : Fin cfg1.N) (p : Fin 2048) (q : Fin 300) (e : Fin 262144)
    (he : e.val = 2048 * t.val + p.val) :
    (iblk1 (F := Ideal) V c 0 t : Vec Ideal S2048x300 .f32) (ix2 p q) = (V c main_v7 : Cert.Spec.Mat 262144 300) (ix2 e q) := by
  obtain ⟨e0, e1, -⟩ := idx_facts t
  unfold iblk1
  rw [View.read_apply]
  show V c main_v7 _ = V c main_v7 _
  congr 1
  funext a
  apply Fin.ext
  match a with
  | ⟨0, _⟩ => show win1_0.index t (0 : Fin 2) * 2048 + 1 * p.val = e.val; rw [e0, he]; omega
  | ⟨1, _⟩ => show win1_0.index t (1 : Fin 2) * 300 + 1 * q.val = q.val; rw [e1]; omega

/-- The gathered sums' block at point `t` is rows `2048 t …` of the gathered sums. -/
theorem ng_blk_apply (c : Dev nD) (t : Fin cfg1.N) (p : Fin 2048) (q : Fin 300) (e : Fin 262144)
    (he : e.val = 2048 * t.val + p.val) :
    (iblk1 (F := Ideal) V c 1 t : Vec Ideal S2048x300 .f32) (ix2 p q) = (V c main_v11 : Cert.Spec.Mat 262144 300) (ix2 e q) := by
  obtain ⟨-, -, e0, e1, -⟩ := idx_facts t
  unfold iblk1
  rw [View.read_apply]
  show V c main_v11 _ = V c main_v11 _
  congr 1
  funext a
  apply Fin.ext
  match a with
  | ⟨0, _⟩ => show win1_1.index t (0 : Fin 2) * 2048 + 1 * p.val = e.val; rw [e0, he]; omega
  | ⟨1, _⟩ => show win1_1.index t (1 : Fin 2) * 300 + 1 * q.val = q.val; rw [e1]; omega

/-- The weights' block at every point is the whole weight matrix. -/
theorem wh_blk_apply (c : Dev nD) (t : Fin cfg1.N) (k q : Fin 300) :
    (iblk1 (F := Ideal) V c 2 t : Vec Ideal S300x300 .f32) (ix2 k q) = (V c main_arg3 : Cert.Spec.Mat 300 300) (ix2 k q) := by
  obtain ⟨-, -, -, -, e0, e1, -⟩ := idx_facts t
  unfold iblk1
  rw [View.read_apply]
  show V c main_arg3 _ = V c main_arg3 _
  congr 1
  funext a
  apply Fin.ext
  match a with
  | ⟨0, _⟩ => show win1_2.index t (0 : Fin 2) * 300 + 1 * k.val = k.val; rw [e0]; omega
  | ⟨1, _⟩ => show win1_2.index t (1 : Fin 2) * 300 + 1 * q.val = q.val; rw [e1]; omega

/-- What point `t` writes back is rows `2048 t …` of the updated messages of the arrays at entry. -/
theorem flushed_eq (c : Dev nD) (t : Fin cfg1.N) :
    (dat1 (F := Ideal) V c).flushed 3 t
      = ((cfg1.win 3).blk t).view.read (Elt Ideal) (Cert.Spec.stepMsg (V c main_v7) (V c main_v11) (V c main_arg3)) := by
  show (cfg1.win 3).cut (grid1.coords t) ((dat1 V c).after 3 t) = _
  rw [after1_3]
  unfold out1_3
  rw [View.canon_unit_zero hz]
  simp only [View.ld_unit_zero (S := S2048x300) hz, View.ld_unit_zero (S := S300x300) hz]
  obtain ⟨-, -, -, -, -, -, e0, e1⟩ := idx_facts t
  have hN : t.val < 128 := Nat.lt_of_lt_of_eq t.isLt N_1
  funext j
  obtain ⟨p, q, rfl⟩ : ∃ (p : Fin 2048) (q : Fin 300), j = ix2 p q := ⟨j 0, j 1, eq_ix2 j⟩
  have hp := p.isLt
  refine (pay_eq_step (V c main_v7) (V c main_v11) (V c main_arg3) _ _ _ ⟨2048 * t.val + p.val, by omega⟩ p q
    (msg_blk_apply V c t p q _ rfl) (fun k => ng_blk_apply V c t p k _ rfl) (fun k => wh_blk_apply V c t k q)).trans ?_
  rw [← Cert.Spec.stepMsg_ix2, View.read_apply]
  congr 1
  funext a
  apply Fin.ext
  match a with
  | ⟨0, _⟩ => show 2048 * t.val + p.val = win1_3.index t (0 : Fin 2) * 2048 + 1 * p.val; rw [e0]; omega
  | ⟨1, _⟩ => show q.val = win1_3.index t (1 : Fin 2) * 300 + 1 * q.val; rw [e1]; omega

/-- An entry of the output array is in point `t`'s block iff each coordinate is in the block's range on its axis. -/
theorem mem_blk (t : Fin cfg1.N) (i : S262144x300.Idx) :
    i ∈ ((cfg1.win 3).blk t).view.set ↔ ∀ a : Fin 2, win1_3.index t a * S2048x300.size a ≤ (i a).val ∧ (i a).val < win1_3.index t a * S2048x300.size a + S2048x300.size a := by
  show i ∈ ((View.whole main_v12).slice (win1_3.rect t)).set ↔ _
  rw [View.set_slice_whole, Rect.mem_set_unit]
  exact Iff.rfl

/-- Row `r` of the output lies in the block of point `r / 2048`: the 128 blocks tile the 262144 rows. -/
theorem cover (i : S262144x300.Idx) :
    ∃ t : Fin cfg1.N, (cfg1.win 3).flush t = true ∧ i ∈ ((cfg1.win 3).blk t).view.set := by
  have h0 : (i 0).val < 262144 := (i 0).isLt
  have h1 : (i 1).val < 300 := (i 1).isLt
  have hN : cfg1.N = 128 := N_1
  obtain ⟨t, ht⟩ : ∃ t : Fin cfg1.N, t.val = (i 0).val / 2048 := ⟨⟨(i 0).val / 2048, by rw [hN]; omega⟩, rfl⟩
  obtain ⟨-, -, -, -, -, -, e0, e1⟩ := idx_facts t
  refine ⟨t, flush1_3 t, ?_⟩
  rw [mem_blk]
  intro a
  match a with
  | ⟨0, _⟩ => show win1_3.index t (0 : Fin 2) * 2048 ≤ (i 0).val ∧ (i 0).val < win1_3.index t (0 : Fin 2) * 2048 + 2048; rw [e0, ht]; omega
  | ⟨1, _⟩ => show win1_3.index t (1 : Fin 2) * 300 ≤ (i 1).val ∧ (i 1).val < win1_3.index t (1 : Fin 2) * 300 + 300; rw [e1]; omega

/-- Rows `2048 t … 2048 t + 2047` of the output are written at grid point `t` from the same rows of the messages and of
    the gathered neighbourhood sums and the whole hidden weight matrix; the 128 blocks tile the 262144 rows. -/
theorem out_eq (c : Dev nD) :
    (dat1 (F := Ideal) V c).arrAt 3 cfg1.N
      = Cert.Spec.stepMsg (V c main_v7) (V c main_v11) (V c main_arg3) :=
  (dat1 (F := Ideal) V c).arrAt_eq_of_cover 3 (Cert.Spec.stepMsg (V c main_v7) (V c main_v11) (V c main_arg3))
    (fun t _ => flushed_eq V c t) cover

end Cert.KernelIdeal.Region1

end
-- ==== Proof.Region2.lean ====
/-
  Region 2 (the second message update): the output array after the last grid point, as one function of the three arrays the region finds at entry.
-/
import proofs.«411490_j65558380806592_1_alg».proof.Proof.Gen.KernelIdeal.Frame
import proofs.«411490_j65558380806592_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-! ## The body's stored value at an entry of the block -/

/-- The contraction's operand indices: the left operand is read at (row of the output, contracted index), -/
theorem lhs_row (i : S2048x300.Idx) (r : dot_S2048x300_S300x300_S2048x300_1_0_0_1_n_n.contr.Idx) :
    (dot_S2048x300_S300x300_S2048x300_1_0_0_1_n_n.lhsIdx i r 0).val = (i 0).val := by
  unfold DotDims.lhsIdx
  rw [dif_neg (show ¬(0 : Fin S2048x300.rank) ∈ dot_S2048x300_S300x300_S2048x300_1_0_0_1_n_n.lhsBatch by decide), dif_pos (show (0 : Fin S2048x300.rank) ∈ dot_S2048x300_S300x300_S2048x300_1_0_0_1_n_n.lhsNonContracting by decide)]
  rfl
theorem lhs_col (i : S2048x300.Idx) (r : dot_S2048x300_S300x300_S2048x300_1_0_0_1_n_n.contr.Idx) :
    (dot_S2048x300_S300x300_S2048x300_1_0_0_1_n_n.lhsIdx i r 1).val = (r ⟨0, by decide⟩).val :=
  dot_S2048x300_S300x300_S2048x300_1_0_0_1_n_n.lhsIdx_val_of_single rfl i r
/-- and the right operand at (contracted index, column of the output). -/
theorem rhs_row (i : S2048x300.Idx) (r : dot_S2048x300_S300x300_S2048x300_1_0_0_1_n_n.contr.Idx) :
    (dot_S2048x300_S300x300_S2048x300_1_0_0_1_n_n.rhsIdx i r 0).val = (r ⟨0, by decide⟩).val :=
  dot_S2048x300_S300x300_S2048x300_1_0_0_1_n_n.rhsIdx_val_of_single rfl i r
theorem rhs_col (i : S2048x300.Idx) (r : dot_S2048x300_S300x300_S2048x300_1_0_0_1_n_n.contr.Idx) :
    (dot_S2048x300_S300x300_S2048x300_1_0_0_1_n_n.rhsIdx i r 1).val = (i 1).val := by
  unfold DotDims.rhsIdx
  rw [dif_neg (show ¬(1 : Fin S300x300.rank) ∈ dot_S2048x300_S300x300_S2048x300_1_0_0_1_n_n.rhsBatch by decide), dif_pos (show (1 : Fin S300x300.rank) ∈ dot_S2048x300_S300x300_S2048x300_1_0_0_1_n_n.rhsNonContracting by decide)]
  rfl

/-- The product of a 2048×300 block with a 300×300 matrix into a zero accumulator, at entry `(p, q)`: row `p` of
    the block against column `q` of the matrix. -/
theorem matmul_zero_apply (a : FVec Ideal S2048x300 .bf16) (b : FVec Ideal S300x300 .bf16) (p : Fin 2048) (q : Fin 300) :
    matmul dot_S2048x300_S300x300_S2048x300_1_0_0_1_n_n none a b (constant (F := Ideal) S2048x300 .f32 0x00000000#32) (ix2 p q)
      = ∑ k : Fin 300, a (ix2 p k) * b (ix2 k q) := by
  simp only [matmul]
  rw [Ideal.matmul_constant_zero_apply, ← Equiv.sum_comp (contrEquiv1 dot_S2048x300_S300x300_S2048x300_1_0_0_1_n_n 300 rfl rfl).symm]
  refine Finset.sum_congr rfl fun k _ => ?_
  have hk := contrEquiv1_symm_val dot_S2048x300_S300x300_S2048x300_1_0_0_1_n_n 300 rfl rfl k
  have el : dot_S2048x300_S300x300_S2048x300_1_0_0_1_n_n.lhsIdx (ix2 p q) ((contrEquiv1 dot_S2048x300_S300x300_S2048x300_1_0_0_1_n_n 300 rfl rfl).symm k) = ix2 p k := funext fun a => Fin.ext (by
    match a with
    | ⟨0, _⟩ => exact lhs_row _ _
    | ⟨1, _⟩ => exact (lhs_col _ _).trans hk)
  have er : dot_S2048x300_S300x300_S2048x300_1_0_0_1_n_n.rhsIdx (ix2 p q) ((contrEquiv1 dot_S2048x300_S300x300_S2048x300_1_0_0_1_n_n 300 rfl rfl).symm k) = ix2 k q := funext fun a => Fin.ext (by
    match a with
    | ⟨0, _⟩ => exact (rhs_row _ _).trans hk
    | ⟨1, _⟩ => exact rhs_col _ _)
  rw [el, er]

/-- The stored value at entry `(p, q)` of the block: the message entry plus row `p` of the gathered sums against
    column `q` of the hidden weights, clamped at zero. The format changes on the way into the product are the identity
    on extended reals, and the zero word is the real zero. -/
theorem pay_apply (x0 x1 : Vec Ideal S2048x300 .f32) (x2 : Vec Ideal S300x300 .f32) (p : Fin 2048) (q : Fin 300) :
    k2_pay1 (F := Ideal) x0 x1 x2 (ix2 p q) = max (x0 (ix2 p q) + ∑ k : Fin 300, x1 (ix2 p k) * x2 (ix2 k q)) 0 := by
  unfold k2_pay1
  rw [maximumf_apply, addf_apply, broadcast_apply, matmul_zero_apply]
  simp only [shapeCast_self, truncf_apply]
  show max _ (Ideal.ofBits .f32 0x00000000#32) = _
  rw [Ideal.ofBits_zero_f32]

/-- The stored value at entry `(p, q)` of a block whose loaded inputs are row `e` of the messages, row `e` of the
    gathered sums and the whole weight matrix: entry `(e, q)` of the updated messages. -/
theorem pay_eq_step (msg ng : Cert.Spec.Mat 262144 300) (wh : Cert.Spec.Mat 300 300)
    (x0 x1 : Vec Ideal S2048x300 .f32) (x2 : Vec Ideal S300x300 .f32) (e : Fin 262144) (p : Fin 2048) (q : Fin 300)
    (h0 : x0 (ix2 p q) = msg (ix2 e q)) (h1 : ∀ k : Fin 300, x1 (ix2 p k) = ng (ix2 e k))
    (h2 : ∀ k : Fin 300, x2 (ix2 k q) = wh (ix2 k q)) :
    k2_pay1 (F := Ideal) x0 x1 x2 (ix2 p q) = Cert.Spec.stepMsgAt msg ng wh e q := by
  rw [pay_apply, h0]
  unfold Cert.Spec.stepMsgAt
  exact congrArg (fun s => max (msg (ix2 e q) + s) 0) (Finset.sum_congr rfl fun k _ => by rw [h1 k, h2 k])

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point `t` the two row-blocked inputs and the output are at block
    `(t, 0)`, the weights at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The messages' block at point `t` is rows `2048 t …` of the messages. -/
theorem msg_blk_apply (c : Dev nD) (t : Fin cfg2.N) (p : Fin 2048) (q : Fin 300) (e : Fin 262144)
    (he : e.val = 2048 * t.val + p.val) :
    (iblk2 (F := Ideal) V c 0 t : Vec Ideal S2048x300 .f32) (ix2 p q) = (V c main_v12 : Cert.Spec.Mat 262144 300) (ix2 e q) := by
  obtain ⟨e0, e1, -⟩ := idx_facts t
  unfold iblk2
  rw [View.read_apply]
  show V c main_v12 _ = V c main_v12 _
  congr 1
  funext a
  apply Fin.ext
  match a with
  | ⟨0, _⟩ => show win2_0.index t (0 : Fin 2) * 2048 + 1 * p.val = e.val; rw [e0, he]; omega
  | ⟨1, _⟩ => show win2_0.index t (1 : Fin 2) * 300 + 1 * q.val = q.val; rw [e1]; omega

/-- The gathered sums' block at point `t` is rows `2048 t …` of the gathered sums. -/
theorem ng_blk_apply (c : Dev nD) (t : Fin cfg2.N) (p : Fin 2048) (q : Fin 300) (e : Fin 262144)
    (he : e.val = 2048 * t.val + p.val) :
    (iblk2 (F := Ideal) V c 1 t : Vec Ideal S2048x300 .f32) (ix2 p q) = (V c main_v16 : Cert.Spec.Mat 262144 300) (ix2 e q) := by
  obtain ⟨-, -, e0, e1, -⟩ := idx_facts t
  unfold iblk2
  rw [View.read_apply]
  show V c main_v16 _ = V c main_v16 _
  congr 1
  funext a
  apply Fin.ext
  match a with
  | ⟨0, _⟩ => show win2_1.index t (0 : Fin 2) * 2048 + 1 * p.val = e.val; rw [e0, he]; omega
  | ⟨1, _⟩ => show win2_1.index t (1 : Fin 2) * 300 + 1 * q.val = q.val; rw [e1]; omega

/-- The weights' block at every point is the whole weight matrix. -/
theorem wh_blk_apply (c : Dev nD) (t : Fin cfg2.N) (k q : Fin 300) :
    (iblk2 (F := Ideal) V c 2 t : Vec Ideal S300x300 .f32) (ix2 k q) = (V c main_arg3 : Cert.Spec.Mat 300 300) (ix2 k q) := by
  obtain ⟨-, -, -, -, e0, e1, -⟩ := idx_facts t
  unfold iblk2
  rw [View.read_apply]
  show V c main_arg3 _ = V c main_arg3 _
  congr 1
  funext a
  apply Fin.ext
  match a with
  | ⟨0, _⟩ => show win2_2.index t (0 : Fin 2) * 300 + 1 * k.val = k.val; rw [e0]; omega
  | ⟨1, _⟩ => show win2_2.index t (1 : Fin 2) * 300 + 1 * q.val = q.val; rw [e1]; omega

/-- What point `t` writes back is rows `2048 t …` of the updated messages of the arrays at entry. -/
theorem flushed_eq (c : Dev nD) (t : Fin cfg2.N) :
    (dat2 (F := Ideal) V c).flushed 3 t
      = ((cfg2.win 3).blk t).view.read (Elt Ideal) (Cert.Spec.stepMsg (V c main_v12) (V c main_v16) (V c main_arg3)) := by
  show (cfg2.win 3).cut (grid2.coords t) ((dat2 V c).after 3 t) = _
  rw [after2_3]
  unfold out2_3
  rw [View.canon_unit_zero hz]
  simp only [View.ld_unit_zero (S := S2048x300) hz, View.ld_unit_zero (S := S300x300) hz]
  obtain ⟨-, -, -, -, -, -, e0, e1⟩ := idx_facts t
  have hN : t.val < 128 := Nat.lt_of_lt_of_eq t.isLt N_2
  funext j
  obtain ⟨p, q, rfl⟩ : ∃ (p : Fin 2048) (q : Fin 300), j = ix2 p q := ⟨j 0, j 1, eq_ix2 j⟩
  have hp := p.isLt
  refine (pay_eq_step (V c main_v12) (V c main_v16) (V c main_arg3) _ _ _ ⟨2048 * t.val + p.val, by omega⟩ p q
    (msg_blk_apply V c t p q _ rfl) (fun k => ng_blk_apply V c t p k _ rfl) (fun k => wh_blk_apply V c t k q)).trans ?_
  rw [← Cert.Spec.stepMsg_ix2, View.read_apply]
  congr 1
  funext a
  apply Fin.ext
  match a with
  | ⟨0, _⟩ => show 2048 * t.val + p.val = win2_3.index t (0 : Fin 2) * 2048 + 1 * p.val; rw [e0]; omega
  | ⟨1, _⟩ => show q.val = win2_3.index t (1 : Fin 2) * 300 + 1 * q.val; rw [e1]; omega

/-- An entry of the output array is in point `t`'s block iff each coordinate is in the block's range on its axis. -/
theorem mem_blk (t : Fin cfg2.N) (i : S262144x300.Idx) :
    i ∈ ((cfg2.win 3).blk t).view.set ↔ ∀ a : Fin 2, win2_3.index t a * S2048x300.size a ≤ (i a).val ∧ (i a).val < win2_3.index t a * S2048x300.size a + S2048x300.size a := by
  show i ∈ ((View.whole main_v17).slice (win2_3.rect t)).set ↔ _
  rw [View.set_slice_whole, Rect.mem_set_unit]
  exact Iff.rfl

/-- Row `r` of the output lies in the block of point `r / 2048`: the 128 blocks tile the 262144 rows. -/
theorem cover (i : S262144x300.Idx) :
    ∃ t : Fin cfg2.N, (cfg2.win 3).flush t = true ∧ i ∈ ((cfg2.win 3).blk t).view.set := by
  have h0 : (i 0).val < 262144 := (i 0).isLt
  have h1 : (i 1).val < 300 := (i 1).isLt
  have hN : cfg2.N = 128 := N_2
  obtain ⟨t, ht⟩ : ∃ t : Fin cfg2.N, t.val = (i 0).val / 2048 := ⟨⟨(i 0).val / 2048, by rw [hN]; omega⟩, rfl⟩
  obtain ⟨-, -, -, -, -, -, e0, e1⟩ := idx_facts t
  refine ⟨t, flush2_3 t, ?_⟩
  rw [mem_blk]
  intro a
  match a with
  | ⟨0, _⟩ => show win2_3.index t (0 : Fin 2) * 2048 ≤ (i 0).val ∧ (i 0).val < win2_3.index t (0 : Fin 2) * 2048 + 2048; rw [e0, ht]; omega
  | ⟨1, _⟩ => show win2_3.index t (1 : Fin 2) * 300 ≤ (i 1).val ∧ (i 1).val < win2_3.index t (1 : Fin 2) * 300 + 300; rw [e1]; omega

/-- Rows `2048 t … 2048 t + 2047` of the output are written at grid point `t` from the same rows of the messages and of
    the gathered neighbourhood sums and the whole hidden weight matrix; the 128 blocks tile the 262144 rows. -/
theorem out_eq (c : Dev nD) :
    (dat2 (F := Ideal) V c).arrAt 3 cfg2.N
      = Cert.Spec.stepMsg (V c main_v12) (V c main_v16) (V c main_arg3) :=
  (dat2 (F := Ideal) V c).arrAt_eq_of_cover 3 (Cert.Spec.stepMsg (V c main_v12) (V c main_v16) (V c main_arg3))
    (fun t _ => flushed_eq V c t) cover

end Cert.KernelIdeal.Region2

end
-- ==== Proof.Region3.lean ====
/-
  Region 3 (the atom output): the output array after the last grid point, as one function of the five arrays the region finds at entry.

  The body multiplies a 2048-row block of atom features by the first 133 weight rows and the same rows of the summed
  messages by the last 300 weight rows, adds the two products and the bias row, and clamps at zero. Read at an entry
  (p, q) of the block this is the atom-output formula of the specification over the blocks; block t of the row-blocked
  arrays is rows 2048 t … 2048 t + 2047, the weight blocks and the bias row are their whole arrays; and the 64 output
  blocks tile the 131072 rows, so the array ends holding the specification's function everywhere.
-/
import proofs.«411490_j65558380806592_1_alg».proof.Proof.Gen.KernelIdeal.Frame
import proofs.«411490_j65558380806592_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The two products at an entry

Both products contract the left operand's column axis with the right operand's row axis: at the output entry (p, q) and
the contraction coordinate k the left operand is read at (p, k) and the right one at (k, q). The four coordinate
facts are stated per product, then the product itself as a finite sum. -/

/-- Features times weights: the left operand's row is the output's row. -/
theorem featDot_lhs0 (i : S2048x300.Idx) (q : dot_S2048x133_S133x300_S2048x300_1_0_0_1_n_n.contr.Idx) :
    (dot_S2048x133_S133x300_S2048x300_1_0_0_1_n_n.lhsIdx i q 0).val = (i 0).val := by
  unfold DotDims.lhsIdx
  rw [dif_neg (show ¬(0 : Fin S2048x133.rank) ∈ dot_S2048x133_S133x300_S2048x300_1_0_0_1_n_n.lhsBatch by decide), dif_pos (show (0 : Fin S2048x133.rank) ∈ dot_S2048x133_S133x300_S2048x300_1_0_0_1_n_n.lhsNonContracting by decide)]
  rfl
/-- Features times weights: the left operand's column is the contraction coordinate. -/
theorem featDot_lhs1 (i : S2048x300.Idx) (q : dot_S2048x133_S133x300_S2048x300_1_0_0_1_n_n.contr.Idx) :
    (dot_S2048x133_S133x300_S2048x300_1_0_0_1_n_n.lhsIdx i q 1).val = (q ⟨0, by decide⟩).val :=
  dot_S2048x133_S133x300_S2048x300_1_0_0_1_n_n.lhsIdx_val_of_single rfl i q
/-- Features times weights: the right operand's row is the contraction coordinate. -/
theorem featDot_rhs0 (i : S2048x300.Idx) (q : dot_S2048x133_S133x300_S2048x300_1_0_0_1_n_n.contr.Idx) :
    (dot_S2048x133_S133x300_S2048x300_1_0_0_1_n_n.rhsIdx i q 0).val = (q ⟨0, by decide⟩).val :=
  dot_S2048x133_S133x300_S2048x300_1_0_0_1_n_n.rhsIdx_val_of_single rfl i q
/-- Features times weights: the right operand's column is the output's column. -/
theorem featDot_rhs1 (i : S2048x300.Idx) (q : dot_S2048x133_S133x300_S2048x300_1_0_0_1_n_n.contr.Idx) :
    (dot_S2048x133_S133x300_S2048x300_1_0_0_1_n_n.rhsIdx i q 1).val = (i 1).val := by
  unfold DotDims.rhsIdx
  rw [dif_neg (show ¬(1 : Fin S133x300.rank) ∈ dot_S2048x133_S133x300_S2048x300_1_0_0_1_n_n.rhsBatch by decide), dif_pos (show (1 : Fin S133x300.rank) ∈ dot_S2048x133_S133x300_S2048x300_1_0_0_1_n_n.rhsNonContracting by decide)]
  rfl

/-- Messages times weights: the left operand's row is the output's row. -/
theorem msgDot_lhs0 (i : S2048x300.Idx) (q : dot_S2048x300_S300x300_S2048x300_1_0_0_1_n_n.contr.Idx) :
    (dot_S2048x300_S300x300_S2048x300_1_0_0_1_n_n.lhsIdx i q 0).val = (i 0).val := by
  unfold DotDims.lhsIdx
  rw [dif_neg (show ¬(0 : Fin S2048x300.rank) ∈ dot_S2048x300_S300x300_S2048x300_1_0_0_1_n_n.lhsBatch by decide), dif_pos (show (0 : Fin S2048x300.rank) ∈ dot_S2048x300_S300x300_S2048x300_1_0_0_1_n_n.lhsNonContracting by decide)]
  rfl
/-- Messages times weights: the left operand's column is the contraction coordinate. -/
theorem msgDot_lhs1 (i : S2048x300.Idx) (q : dot_S2048x300_S300x300_S2048x300_1_0_0_1_n_n.contr.Idx) :
    (dot_S2048x300_S300x300_S2048x300_1_0_0_1_n_n.lhsIdx i q 1).val = (q ⟨0, by decide⟩).val :=
  dot_S2048x300_S300x300_S2048x300_1_0_0_1_n_n.lhsIdx_val_of_single rfl i q
/-- Messages times weights: the right operand's row is the contraction coordinate. -/
theorem msgDot_rhs0 (i : S2048x300.Idx) (q : dot_S2048x300_S300x300_S2048x300_1_0_0_1_n_n.contr.Idx) :
    (dot_S2048x300_S300x300_S2048x300_1_0_0_1_n_n.rhsIdx i q 0).val = (q ⟨0, by decide⟩).val :=
  dot_S2048x300_S300x300_S2048x300_1_0_0_1_n_n.rhsIdx_val_of_single rfl i q
/-- Messages times weights: the right operand's column is the output's column. -/
theorem msgDot_rhs1 (i : S2048x300.Idx) (q : dot_S2048x300_S300x300_S2048x300_1_0_0_1_n_n.contr.Idx) :
    (dot_S2048x300_S300x300_S2048x300_1_0_0_1_n_n.rhsIdx i q 1).val = (i 1).val := by
  unfold DotDims.rhsIdx
  rw [dif_neg (show ¬(1 : Fin S300x300.rank) ∈ dot_S2048x300_S300x300_S2048x300_1_0_0_1_n_n.rhsBatch by decide), dif_pos (show (1 : Fin S300x300.rank) ∈ dot_S2048x300_S300x300_S2048x300_1_0_0_1_n_n.rhsNonContracting by decide)]
  rfl

/-- Entry (p, q) of a 2048 × 133 block times a 133 × 300 block, added to zero: the sum over the 133 feature columns. -/
theorem featDot_apply (a : FVec Ideal S2048x133 .bf16) (b : FVec Ideal S133x300 .bf16) (p : Fin 2048) (q : Fin 300) :
    matmul dot_S2048x133_S133x300_S2048x300_1_0_0_1_n_n none a b (constant (F := Ideal) S2048x300 .f32 0x00000000#32) (ix2 p q)
      = ∑ k : Fin 133, a (ix2 p k) * b (ix2 k q) := by
  simp only [matmul]
  rw [Ideal.matmul_constant_zero_apply, ← Equiv.sum_comp (contrEquiv1 dot_S2048x133_S133x300_S2048x300_1_0_0_1_n_n 133 rfl rfl).symm]
  refine Finset.sum_congr rfl fun k _ => ?_
  have hk := contrEquiv1_symm_val dot_S2048x133_S133x300_S2048x300_1_0_0_1_n_n 133 rfl rfl k
  have el : dot_S2048x133_S133x300_S2048x300_1_0_0_1_n_n.lhsIdx (ix2 p q) ((contrEquiv1 dot_S2048x133_S133x300_S2048x300_1_0_0_1_n_n 133 rfl rfl).symm k) = ix2 p k := funext fun a => Fin.ext (by
    match a with
    | ⟨0, _⟩ => exact featDot_lhs0 _ _
    | ⟨1, _⟩ => exact (featDot_lhs1 _ _).trans hk)
  have er : dot_S2048x133_S133x300_S2048x300_1_0_0_1_n_n.rhsIdx (ix2 p q) ((contrEquiv1 dot_S2048x133_S133x300_S2048x300_1_0_0_1_n_n 133 rfl rfl).symm k) = ix2 k q := funext fun a => Fin.ext (by
    match a with
    | ⟨0, _⟩ => exact (featDot_rhs0 _ _).trans hk
    | ⟨1, _⟩ => exact featDot_rhs1 _ _)
  rw [el, er]

/-- Entry (p, q) of a 2048 × 300 block times a 300 × 300 block, added to zero: the sum over the 300 message columns. -/
theorem msgDot_apply (a : FVec Ideal S2048x300 .bf16) (b : FVec Ideal S300x300 .bf16) (p : Fin 2048) (q : Fin 300) :
    matmul dot_S2048x300_S300x300_S2048x300_1_0_0_1_n_n none a b (constant (F := Ideal) S2048x300 .f32 0x00000000#32) (ix2 p q)
      = ∑ k : Fin 300, a (ix2 p k) * b (ix2 k q) := by
  simp only [matmul]
  rw [Ideal.matmul_constant_zero_apply, ← Equiv.sum_comp (contrEquiv1 dot_S2048x300_S300x300_S2048x300_1_0_0_1_n_n 300 rfl rfl).symm]
  refine Finset.sum_congr rfl fun k _ => ?_
  have hk := contrEquiv1_symm_val dot_S2048x300_S300x300_S2048x300_1_0_0_1_n_n 300 rfl rfl k
  have el : dot_S2048x300_S300x300_S2048x300_1_0_0_1_n_n.lhsIdx (ix2 p q) ((contrEquiv1 dot_S2048x300_S300x300_S2048x300_1_0_0_1_n_n 300 rfl rfl).symm k) = ix2 p k := funext fun a => Fin.ext (by
    match a with
    | ⟨0, _⟩ => exact msgDot_lhs0 _ _
    | ⟨1, _⟩ => exact (msgDot_lhs1 _ _).trans hk)
  have er : dot_S2048x300_S300x300_S2048x300_1_0_0_1_n_n.rhsIdx (ix2 p q) ((contrEquiv1 dot_S2048x300_S300x300_S2048x300_1_0_0_1_n_n 300 rfl rfl).symm k) = ix2 k q := funext fun a => Fin.ext (by
    match a with
    | ⟨0, _⟩ => exact (msgDot_rhs0 _ _).trans hk
    | ⟨1, _⟩ => exact msgDot_rhs1 _ _)
  rw [el, er]

/-! ## The stored block at an entry -/

/-- Entry (p, q) of the block the body stores, from the five blocks it loads: the feature row p through the first
    weight block plus the message row p through the second, plus the bias at column q (the one bias row is repeated
    down the 2048 rows), clamped at zero. The changes of float format and the casts to the same shape are the identity
    on extended reals, and the zero the clamp compares with is the real 0. -/
theorem pay_apply (x : Vec Ideal S2048x133 .f32) (am : Vec Ideal S2048x300 .f32) (wx : Vec Ideal S133x300 .f32)
    (wa : Vec Ideal S300x300 .f32) (b : Vec Ideal S1x300 .f32) (p : Fin 2048) (q : Fin 300) :
    k3_pay1 (F := Ideal) x am wx wa b (ix2 p q)
      = max (((∑ k : Fin 133, x (ix2 p k) * wx (ix2 k q)) + ∑ k : Fin 300, am (ix2 p k) * wa (ix2 k q))
          + b (ix2 (0 : Fin 1) q)) 0 := by
  unfold k3_pay1
  simp only [shapeCast_self]
  rw [maximumf_apply, addf_apply, addf_apply, broadcast_apply, featDot_apply, msgDot_apply, broadcastTo_1b_ab_apply]
  simp only [truncf_apply]
  exact congrArg (max _) Ideal.ofBits_zero_f32

/-! ## Blocks of the arrays

The grid has 64 points. At point t the atom features, the summed messages and the output sit at block (t, 0) of their
arrays, blocks of 2048 rows; the two weight blocks and the bias row sit at block (0, 0) and are their whole arrays. An
entry of a block lies in its array, axis by axis, at block index × block size + its coordinate in the block. -/

/-- Offsets written as the literal pair of zeros are zero on every axis. -/
theorem zero_offsets : (![0, 0] : Fin 2 → Nat) = fun _ => 0 := funext fun a => by fin_cases a <;> rfl

/-- The six windows' block indices at every grid point, decided over the 64 points. -/
theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- A grid point is below 64. -/
theorem point_lt (t : Fin cfg3.N) : t.val < 64 := lt_of_lt_of_eq t.isLt N_3

/-- Row p of block t is atom 2048 t + p. -/
def atomRow (t : Fin cfg3.N) (p : Fin 2048) : Fin 131072 := ⟨2048 * t.val + p.val, by have := point_lt t; omega⟩

/-- The five loaded blocks at point t, each at its literal shape. -/
abbrev featBlk (c : Dev nD) (t : Fin cfg3.N) : Vec Ideal S2048x133 .f32 := iblk3 V c 0 t
abbrev msgBlk (c : Dev nD) (t : Fin cfg3.N) : Vec Ideal S2048x300 .f32 := iblk3 V c 1 t
abbrev wxBlk (c : Dev nD) (t : Fin cfg3.N) : Vec Ideal S133x300 .f32 := iblk3 V c 2 t
abbrev waBlk (c : Dev nD) (t : Fin cfg3.N) : Vec Ideal S300x300 .f32 := iblk3 V c 3 t
abbrev biasBlk (c : Dev nD) (t : Fin cfg3.N) : Vec Ideal S1x300 .f32 := iblk3 V c 4 t

/-- The five arrays as the region finds them, as matrices of extended reals. -/
abbrev featArr (c : Dev nD) : Cert.Spec.Mat 131072 133 := V c main_arg0
abbrev msgArr (c : Dev nD) : Cert.Spec.Mat 131072 300 := V c main_v20
abbrev wxArr (c : Dev nD) : Cert.Spec.Mat 133 300 := V c main_v21
abbrev waArr (c : Dev nD) : Cert.Spec.Mat 300 300 := V c main_v22
abbrev biasArr (c : Dev nD) : Cert.Spec.Mat 1 300 := V c main_v23

/-- Row p of the feature block at point t is row 2048 t + p of the atom features. -/
theorem featBlk_apply (c : Dev nD) (t : Fin cfg3.N) (p : Fin 2048) (k : Fin 133) :
    featBlk V c t (ix2 p k) = featArr V c (ix2 (atomRow t p) k) := by
  obtain ⟨e0, e1, -⟩ := block_indices t
  show V c main_arg0 (((cfg3.win 0).blk t).view.emb (ix2 p k)) = V c main_arg0 (ix2 (atomRow t p) k)
  refine congrArg _ (funext fun a => Fin.ext ?_)
  match a with
  | ⟨0, _⟩ => show win3_0.index t (0 : Fin 2) * 2048 + 1 * p.val = 2048 * t.val + p.val; omega
  | ⟨1, _⟩ => show win3_0.index t (1 : Fin 2) * 133 + 1 * k.val = k.val; omega

/-- Row p of the message block at point t is row 2048 t + p of the summed messages. -/
theorem msgBlk_apply (c : Dev nD) (t : Fin cfg3.N) (p : Fin 2048) (k : Fin 300) :
    msgBlk V c t (ix2 p k) = msgArr V c (ix2 (atomRow t p) k) := by
  obtain ⟨-, -, e0, e1, -⟩ := block_indices t
  show V c main_v20 (((cfg3.win 1).blk t).view.emb (ix2 p k)) = V c main_v20 (ix2 (atomRow t p) k)
  refine congrArg _ (funext fun a => Fin.ext ?_)
  match a with
  | ⟨0, _⟩ => show win3_1.index t (0 : Fin 2) * 2048 + 1 * p.val = 2048 * t.val + p.val; omega
  | ⟨1, _⟩ => show win3_1.index t (1 : Fin 2) * 300 + 1 * k.val = k.val; omega

/-- The first weight block is the whole 133 × 300 array at every point. -/
theorem wxBlk_apply (c : Dev nD) (t : Fin cfg3.N) (k : Fin 133) (q : Fin 300) :
    wxBlk V c t (ix2 k q) = wxArr V c (ix2 k q) := by
  obtain ⟨-, -, -, -, e0, e1, -⟩ := block_indices t
  show V c main_v21 (((cfg3.win 2).blk t).view.emb (ix2 k q)) = V c main_v21 (ix2 k q)
  refine congrArg _ (funext fun a => Fin.ext ?_)
  match a with
  | ⟨0, _⟩ => show win3_2.index t (0 : Fin 2) * 133 + 1 * k.val = k.val; omega
  | ⟨1, _⟩ => show win3_2.index t (1 : Fin 2) * 300 + 1 * q.val = q.val; omega

/-- The second weight block is the whole 300 × 300 array at every point. -/
theorem waBlk_apply (c : Dev nD) (t : Fin cfg3.N) (k : Fin 300) (q : Fin 300) :
    waBlk V c t (ix2 k q) = waArr V c (ix2 k q) := by
  obtain ⟨-, -, -, -, -, -, e0, e1, -⟩ := block_indices t
  show V c main_v22 (((cfg3.win 3).blk t).view.emb (ix2 k q)) = V c main_v22 (ix2 k q)
  refine congrArg _ (funext fun a => Fin.ext ?_)
  match a with
  | ⟨0, _⟩ => show win3_3.index t (0 : Fin 2) * 300 + 1 * k.val = k.val; omega
  | ⟨1, _⟩ => show win3_3.index t (1 : Fin 2) * 300 + 1 * q.val = q.val; omega

/-- The bias block is the whole bias row at every point. -/
theorem biasBlk_apply (c : Dev nD) (t : Fin cfg3.N) (q : Fin 300) :
    biasBlk V c t (ix2 (0 : Fin 1) q) = biasArr V c (ix2 (0 : Fin 1) q) := by
  obtain ⟨-, -, -, -, -, -, -, -, e0, e1, -⟩ := block_indices t
  show V c main_v23 (((cfg3.win 4).blk t).view.emb (ix2 (0 : Fin 1) q)) = V c main_v23 (ix2 (0 : Fin 1) q)
  refine congrArg _ (funext fun a => Fin.ext ?_)
  match a with
  | ⟨0, _⟩ => show win3_4.index t (0 : Fin 2) * 1 + 1 * (0 : Fin 1).val = (0 : Fin 1).val; omega
  | ⟨1, _⟩ => show win3_4.index t (1 : Fin 2) * 300 + 1 * q.val = q.val; omega

/-- Entry (p, q) of the output block at point t is entry (2048 t + p, q) of the output array. -/
theorem outBlk_entry (t : Fin cfg3.N) (p : Fin 2048) (q : Fin 300) :
    ((cfg3.win 5).blk t).view.emb (ix2 p q) = (ix2 (atomRow t p) q : S131072x300.Idx) := by
  obtain ⟨-, -, -, -, -, -, -, -, -, -, e0, e1⟩ := block_indices t
  refine funext fun a => Fin.ext ?_
  match a with
  | ⟨0, _⟩ => show win3_5.index t (0 : Fin 2) * 2048 + 1 * p.val = 2048 * t.val + p.val; omega
  | ⟨1, _⟩ => show win3_5.index t (1 : Fin 2) * 300 + 1 * q.val = q.val; omega

/-! ## From the blocks to the array -/

/-- What point t writes back is block t of the atom output of the five entry arrays: the one store of the body covers
    the whole staging block, its entry (p, q) is the formula over the loaded blocks, and each loaded block is read where
    the output's rows are. -/
theorem point_writes_rows (c : Dev nD) (t : Fin cfg3.N) :
    (dat3 (F := Ideal) V c).flushed 5 t
      = ((cfg3.win 5).blk t).view.read (Elt Ideal)
          (Cert.Spec.atomOut5 (featArr V c) (msgArr V c) (wxArr V c) (waArr V c) (biasArr V c)) := by
  show (cfg3.win 5).cut (grid3.coords t) ((dat3 V c).after 5 t) = _
  rw [after3_5]
  unfold out3_5
  rw [View.canon_unit_zero zero_offsets]
  simp only [View.ld_unit_zero (S := S2048x133) zero_offsets, View.ld_unit_zero (S := S2048x300) zero_offsets,
    View.ld_unit_zero (S := S133x300) zero_offsets, View.ld_unit_zero (S := S300x300) zero_offsets,
    View.ld_unit_zero (S := S1x300) zero_offsets]
  funext j
  obtain ⟨p, q, rfl⟩ : ∃ (p : Fin 2048) (q : Fin 300), j = ix2 p q := ⟨j 0, j 1, eq_ix2 j⟩
  show k3_pay1 (F := Ideal) (featBlk V c t) (msgBlk V c t) (wxBlk V c t) (waBlk V c t) (biasBlk V c t) (ix2 p q)
      = Cert.Spec.atomOut5 (featArr V c) (msgArr V c) (wxArr V c) (waArr V c) (biasArr V c)
          (((cfg3.win 5).blk t).view.emb (ix2 p q))
  rw [outBlk_entry, Cert.Spec.atomOut5_ix2, pay_apply]
  unfold Cert.Spec.atomOutAt
  simp only [featBlk_apply, msgBlk_apply, wxBlk_apply, waBlk_apply, biasBlk_apply]

/-- An entry of the output array is in point t's block iff each coordinate is in the block's range on its axis. -/
theorem mem_outBlk (t : Fin cfg3.N) (i : S131072x300.Idx) :
    i ∈ ((cfg3.win 5).blk t).view.set ↔ ∀ a : Fin 2, win3_5.index t a * S2048x300.size a ≤ (i a).val ∧ (i a).val < win3_5.index t a * S2048x300.size a + S2048x300.size a := by
  show i ∈ ((View.whole main_v24).slice (win3_5.rect t)).set ↔ _
  rw [View.set_slice_whole, Rect.mem_set_unit]
  exact Iff.rfl

/-- Every entry of the output array is written: row r lies in the block of point r / 2048, and every point writes back. -/
theorem rows_covered (i : S131072x300.Idx) :
    ∃ t : Fin cfg3.N, (cfg3.win 5).flush t = true ∧ i ∈ ((cfg3.win 5).blk t).view.set := by
  have hi0 : (i 0).val < 131072 := (i 0).isLt
  have hi1 : (i 1).val < 300 := (i 1).isLt
  let t : Fin cfg3.N := ⟨(i 0).val / 2048, by show (i 0).val / 2048 < grid3.N; rw [N_3]; omega⟩
  obtain ⟨-, -, -, -, -, -, -, -, -, -, e0, e1⟩ := block_indices t
  refine ⟨t, flush3_5 t, ?_⟩
  rw [mem_outBlk]
  intro a
  match a with
  | ⟨0, _⟩ => show win3_5.index t (0 : Fin 2) * 2048 ≤ (i 0).val ∧ (i 0).val < win3_5.index t (0 : Fin 2) * 2048 + 2048
              rw [e0]; show (i 0).val / 2048 * 2048 ≤ (i 0).val ∧ (i 0).val < (i 0).val / 2048 * 2048 + 2048; omega
  | ⟨1, _⟩ => show win3_5.index t (1 : Fin 2) * 300 ≤ (i 1).val ∧ (i 1).val < win3_5.index t (1 : Fin 2) * 300 + 300
              rw [e1]; omega

/-- Rows `2048 t … 2048 t + 2047` of the output are written at grid point `t` from the same rows of the atom features and
    of the summed messages, the two whole weight blocks and the bias row; the 64 blocks tile the 131072 rows. -/
theorem out_eq (c : Dev nD) :
    (dat3 (F := Ideal) V c).arrAt 5 cfg3.N
      = Cert.Spec.atomOut5 (V c main_arg0) (V c main_v20) (V c main_v21) (V c main_v22) (V c main_v23) :=
  (dat3 (F := Ideal) V c).arrAt_eq_of_cover 5
    (Cert.Spec.atomOut5 (featArr V c) (msgArr V c) (wxArr V c) (waArr V c) (biasArr V c))
    (fun t _ => point_writes_rows V c t) rows_covered

end Cert.KernelIdeal.Region3

end
-- ==== Proof.KernelChain.lean ====
/-
  The kernel program's result, read through the run. Between the launch and the return the buffers' contents
  pass thirteen boundaries: a stretch of host operations maps the contents through its operations, a region
  replaces its output array by what its grid points wrote and leaves every other buffer alone. Reading the
  result buffer back through these boundaries gives a composition of the stages: gather the source atoms'
  rows, form the initial messages, twice sum the messages into their target atoms, gather at the sources and
  update, sum once more, form the atom outputs, and sum them per graph.
-/
import proofs.«411490_j65558380806592_1_alg».proof.Proof.Gen.KernelIdeal.Frame
import proofs.«411490_j65558380806592_1_alg».proof.Proof.Spec
import proofs.«411490_j65558380806592_1_alg».proof.Proof.TakeRange
import proofs.«411490_j65558380806592_1_alg».proof.Proof.Region0
import proofs.«411490_j65558380806592_1_alg».proof.Proof.Region1
import proofs.«411490_j65558380806592_1_alg».proof.Proof.Region2
import proofs.«411490_j65558380806592_1_alg».proof.Proof.Region3
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx

/-- The messages summed into their target atoms. -/
def nbrSum (msg : FVec Ideal S262144x300 .f32) (x6 : IVec S2x262144 32) : FVec Ideal S131072x300 .f32 :=
  Host.scatterAdd scatter_S131072x300_S262144x1_S262144x300_1_0_0_1
    (broadcastInDim S131072x300 ![] bcast_S_S131072x300 (constant S_ .f32 0x00000000#32))
    (broadcastInDim S262144x1 ![0] bcast_S262144_S262144x1_0 (Take.tgtOf x6)) msg

/-- The initial edge messages. -/
def msg0 (x0 : FVec Ideal S131072x133 .f32) (x1 : FVec Ideal S262144x14 .f32) (x2 : FVec Ideal S147x300 .f32)
    (x6 : IVec S2x262144 32) : FVec Ideal S262144x300 .f32 :=
  Cert.Spec.initMsg4 (Take.take133 x0 (Take.srcOf x6)) x1
    (extractStridedSlice S133x300 ![0, 0] x2 slices_S147x300_S133x300_0_0)
    (extractStridedSlice S14x300 ![133, 0] x2 slices_S147x300_S14x300_133_0)

/-- One update of the messages. -/
def msgNext (msg : FVec Ideal S262144x300 .f32) (x3 : FVec Ideal S300x300 .f32) (x6 : IVec S2x262144 32) :
    FVec Ideal S262144x300 .f32 :=
  Cert.Spec.stepMsg msg (Take.take300 (nbrSum msg x6) (Take.srcOf x6)) x3

/-- The atom outputs from the last messages. -/
def atomH (x0 : FVec Ideal S131072x133 .f32) (msg : FVec Ideal S262144x300 .f32) (x4 : FVec Ideal S433x300 .f32)
    (x5 : FVec Ideal S300 .f32) (x6 : IVec S2x262144 32) : FVec Ideal S131072x300 .f32 :=
  Cert.Spec.atomOut5 x0 (nbrSum msg x6)
    (extractStridedSlice S133x300 ![0, 0] x4 slices_S433x300_S133x300_0_0)
    (extractStridedSlice S300x300 ![133, 0] x4 slices_S433x300_S300x300_133_0)
    (shapeCast S1x300 x5 shapeCasts_S300_S1x300)

/-- The program's result: the atom outputs summed per graph. -/
def kOut (x0 : FVec Ideal S131072x133 .f32) (x1 : FVec Ideal S262144x14 .f32) (x2 : FVec Ideal S147x300 .f32)
    (x3 : FVec Ideal S300x300 .f32) (x4 : FVec Ideal S433x300 .f32) (x5 : FVec Ideal S300 .f32)
    (x6 : IVec S2x262144 32) (x7 : IVec S131072 32) : FVec Ideal S4096x300 .f32 :=
  Host.scatterAdd scatter_S4096x300_S131072x1_S131072x300_1_0_0_1
    (broadcastInDim S4096x300 ![] bcast_S_S4096x300 (constant S_ .f32 0x00000000#32))
    (broadcastInDim S131072x1 ![0] bcast_S131072_S131072x1_0 x7)
    (atomH x0 (msgNext (msgNext (msg0 x0 x1 x2 x6) x3 x6) x3 x6) x4 x5 x6)

namespace Walk

/-! ## The host stretches, over any contents

For each stretch of host operations: the references it writes (so every other buffer is kept), and the value it
leaves in each buffer that is read later, as the operations' composition of the contents before the stretch. -/

section Stretches

variable (V : Valuation τ sig (Elt Ideal))

/-- Rows summed into the atoms a vector of indices names, starting from zero. -/
def sumAt (t : IVec S262144 32) (msg : FVec Ideal S262144x300 .f32) : FVec Ideal S131072x300 .f32 :=
  Host.scatterAdd scatter_S131072x300_S262144x1_S262144x300_1_0_0_1
    (broadcastInDim S131072x300 ![] bcast_S_S131072x300 (constant S_ .f32 0x00000000#32))
    (broadcastInDim S262144x1 ![0] bcast_S262144_S262144x1_0 t) msg

/-- Each operation of the stretch writes a reference of the list: the result references are read off one by one. -/
macro "writes_in_list" ops:ident : tactic => `(tactic|
  (simp only [$ops:ident, List.Forall, StableHlo.nullary_writes, StableHlo.unary_writes, StableHlo.binary_writes,
      StableHlo.ternary_writes, StableHlo.quaternary_writes, StableHlo.reshape_writes, StableHlo.binaryIndexed_writes]
   repeat' apply And.intro
   all_goals exact Finset.singleton_subset_iff.mpr (List.mem_toFinset.mpr (List.mem_map.mpr ⟨_, by decide, rfl⟩))))

/-- The references each stretch writes. -/
abbrev wr0 : List (Ref sig .tc) := [main_v0, main_v1, main_v2, main_v3]
abbrev wr0_1 : List (Ref sig .tc) :=
  [main_call0_c, main_call0_v0, main_call0_v1, main_call0_c_0, main_call0_v2, main_call0_v3,
    main_call0_v4, main_call0_v5, main_call0_c_1, main_call0_c_2, main_call0_v6, main_call0_v7, main_call0_v8,
    main_call0_v9, main_call0_v10, main_call0_v11, main_call0_c_3, main_call0_v12, main_call0_v13, main_call0_v14,
    main_call0_cst, main_call0_v15, main_v4]
abbrev wr0_2 : List (Ref sig .tc) := [main_v5, main_v6]
abbrev wr1 : List (Ref sig .tc) := [main_cst, main_v8, main_v9, main_v10]
abbrev wr1_1 : List (Ref sig .tc) :=
  [main_call1_c, main_call1_v0, main_call1_v1, main_call1_c_0, main_call1_v2, main_call1_v3,
    main_call1_v4, main_call1_v5, main_call1_c_1, main_call1_c_2, main_call1_v6, main_call1_v7, main_call1_v8,
    main_call1_v9, main_call1_v10, main_call1_v11, main_call1_c_3, main_call1_v12, main_call1_v13, main_call1_v14,
    main_call1_cst, main_call1_v15, main_v11]
abbrev wr2 : List (Ref sig .tc) := [main_cst_0, main_v13, main_v14, main_v15]
abbrev wr2_1 : List (Ref sig .tc) :=
  [main_call2_c, main_call2_v0, main_call2_v1, main_call2_c_0, main_call2_v2, main_call2_v3,
    main_call2_v4, main_call2_v5, main_call2_c_1, main_call2_c_2, main_call2_v6, main_call2_v7, main_call2_v8,
    main_call2_v9, main_call2_v10, main_call2_v11, main_call2_c_3, main_call2_v12, main_call2_v13, main_call2_v14,
    main_call2_cst, main_call2_v15, main_v16]
abbrev wr3 : List (Ref sig .tc) := [main_cst_1, main_v18, main_v19, main_v20, main_v21, main_v22, main_v23]
abbrev wr4 : List (Ref sig .tc) := [main_cst_2, main_v25, main_v26, main_v27]

theorem ops0_writes : (hostOps0 (F := Ideal)).Forall fun op =>
    op.writes ⊆ (wr0.map (Proc.devRef (τ := τ) .tc)).toFinset := by writes_in_list hostOps0
theorem ops0_1_writes : (hostOps0_1 (F := Ideal)).Forall fun op =>
    op.writes ⊆ (wr0_1.map (Proc.devRef (τ := τ) .tc)).toFinset := by writes_in_list hostOps0_1
theorem ops0_2_writes : (hostOps0_2 (F := Ideal)).Forall fun op =>
    op.writes ⊆ (wr0_2.map (Proc.devRef (τ := τ) .tc)).toFinset := by writes_in_list hostOps0_2
theorem ops1_writes : (hostOps1 (F := Ideal)).Forall fun op =>
    op.writes ⊆ (wr1.map (Proc.devRef (τ := τ) .tc)).toFinset := by writes_in_list hostOps1
theorem ops1_1_writes : (hostOps1_1 (F := Ideal)).Forall fun op =>
    op.writes ⊆ (wr1_1.map (Proc.devRef (τ := τ) .tc)).toFinset := by writes_in_list hostOps1_1
theorem ops2_writes : (hostOps2 (F := Ideal)).Forall fun op =>
    op.writes ⊆ (wr2.map (Proc.devRef (τ := τ) .tc)).toFinset := by writes_in_list hostOps2
theorem ops2_1_writes : (hostOps2_1 (F := Ideal)).Forall fun op =>
    op.writes ⊆ (wr2_1.map (Proc.devRef (τ := τ) .tc)).toFinset := by writes_in_list hostOps2_1
theorem ops3_writes : (hostOps3 (F := Ideal)).Forall fun op =>
    op.writes ⊆ (wr3.map (Proc.devRef (τ := τ) .tc)).toFinset := by writes_in_list hostOps3
theorem ops4_writes : (hostOps4 (F := Ideal)).Forall fun op =>
    op.writes ⊆ (wr4.map (Proc.devRef (τ := τ) .tc)).toFinset := by writes_in_list hostOps4

/-! ### The values the stretches write -/

/-- The slices and reshapes of the edge index: the source atoms … -/
theorem ops0_v1 : (StableHlo.after hostOps0 V (Proc.devRef .tc main_v1) : IVec S262144 32)
    = Take.srcOf (V (Proc.devRef .tc main_arg6)) := by
  after_results <;> rfl
/-- … and the target atoms. -/
theorem ops0_v3 : (StableHlo.after hostOps0 V (Proc.devRef .tc main_v3) : IVec S262144 32)
    = Take.tgtOf (V (Proc.devRef .tc main_arg6)) := by
  after_results <;> rfl

/-- The first gather: rows of the atom features at the source atoms. -/
theorem ops0_1_v4 : (StableHlo.after hostOps0_1 V (Proc.devRef .tc main_v4) : FVec Ideal S262144x133 .f32)
    = Take.take133 (F := Ideal) (V (Proc.devRef .tc main_arg0)) (V (Proc.devRef .tc main_v1)) := by
  after_results_simp
  simp only [StableHlo.TRef.ofBuf, StableHlo.TRef.toBuf, cast_eq]
  rfl

/-- The two blocks of rows of the input weights. -/
theorem ops0_2_v5 : (StableHlo.after hostOps0_2 V (Proc.devRef .tc main_v5) : FVec Ideal S133x300 .f32)
    = extractStridedSlice S133x300 ![0, 0] (V (Proc.devRef .tc main_arg2)) slices_S147x300_S133x300_0_0 := by
  after_results <;> rfl
theorem ops0_2_v6 : (StableHlo.after hostOps0_2 V (Proc.devRef .tc main_v6) : FVec Ideal S14x300 .f32)
    = extractStridedSlice S14x300 ![133, 0] (V (Proc.devRef .tc main_arg2)) slices_S147x300_S14x300_133_0 := by
  after_results <;> rfl

/-- The three sums of messages into their target atoms. -/
theorem ops1_v10 : (StableHlo.after hostOps1 V (Proc.devRef .tc main_v10) : FVec Ideal S131072x300 .f32)
    = sumAt (V (Proc.devRef .tc main_v3)) (V (Proc.devRef .tc main_v7)) := by
  after_results <;> rfl
theorem ops2_v15 : (StableHlo.after hostOps2 V (Proc.devRef .tc main_v15) : FVec Ideal S131072x300 .f32)
    = sumAt (V (Proc.devRef .tc main_v3)) (V (Proc.devRef .tc main_v12)) := by
  after_results <;> rfl
theorem ops3_v20 : (StableHlo.after hostOps3 V (Proc.devRef .tc main_v20) : FVec Ideal S131072x300 .f32)
    = sumAt (V (Proc.devRef .tc main_v3)) (V (Proc.devRef .tc main_v17)) := by
  after_results <;> rfl

/-- The two gathers of the summed messages at the source atoms. -/
theorem ops1_1_v11 : (StableHlo.after hostOps1_1 V (Proc.devRef .tc main_v11) : FVec Ideal S262144x300 .f32)
    = Take.take300 (F := Ideal) (V (Proc.devRef .tc main_v10)) (V (Proc.devRef .tc main_v1)) := by
  after_results_simp
  simp only [StableHlo.TRef.ofBuf, StableHlo.TRef.toBuf, cast_eq]
  rfl
theorem ops2_1_v16 : (StableHlo.after hostOps2_1 V (Proc.devRef .tc main_v16) : FVec Ideal S262144x300 .f32)
    = Take.take300 (F := Ideal) (V (Proc.devRef .tc main_v15)) (V (Proc.devRef .tc main_v1)) := by
  after_results_simp
  simp only [StableHlo.TRef.ofBuf, StableHlo.TRef.toBuf, cast_eq]
  rfl

/-- The two blocks of rows of the output weights and the bias as a row. -/
theorem ops3_v21 : (StableHlo.after hostOps3 V (Proc.devRef .tc main_v21) : FVec Ideal S133x300 .f32)
    = extractStridedSlice S133x300 ![0, 0] (V (Proc.devRef .tc main_arg4)) slices_S433x300_S133x300_0_0 := by
  after_results <;> rfl
theorem ops3_v22 : (StableHlo.after hostOps3 V (Proc.devRef .tc main_v22) : FVec Ideal S300x300 .f32)
    = extractStridedSlice S300x300 ![133, 0] (V (Proc.devRef .tc main_arg4)) slices_S433x300_S300x300_133_0 := by
  after_results <;> rfl
theorem ops3_v23 : (StableHlo.after hostOps3 V (Proc.devRef .tc main_v23) : FVec Ideal S1x300 .f32)
    = shapeCast S1x300 (V (Proc.devRef .tc main_arg5)) shapeCasts_S300_S1x300 := by
  after_results <;> rfl

/-- The sum of the atom outputs per graph. -/
theorem ops4_v27 : (StableHlo.after hostOps4 V (Proc.devRef .tc main_v27) : FVec Ideal S4096x300 .f32)
    = Host.scatterAdd (F := Ideal) scatter_S4096x300_S131072x1_S131072x300_1_0_0_1
        (broadcastInDim S4096x300 ![] bcast_S_S4096x300 (constant (F := Ideal) S_ .f32 0x00000000#32))
        (broadcastInDim S131072x1 ![0] bcast_S131072_S131072x1_0 (V (Proc.devRef .tc main_arg7)))
        (V (Proc.devRef .tc main_v24)) := by
  after_results <;> rfl

end Stretches

variable (m : (ℓ : Loc nD τ sig) → Buf (Elt Ideal) ℓ) (ρ : Dev nD → PrngReg)

/-! ## The boundaries

The launch memory's eight arguments, and the messages after the initial stage and after each update. -/

section Boundaries

variable (c : Dev nD)

abbrev x0 : FVec Ideal S131072x133 .f32 := m ((c.tc : Thread nD τ).loc main_arg0)
abbrev x1 : FVec Ideal S262144x14 .f32 := m ((c.tc : Thread nD τ).loc main_arg1)
abbrev x2 : FVec Ideal S147x300 .f32 := m ((c.tc : Thread nD τ).loc main_arg2)
abbrev x3 : FVec Ideal S300x300 .f32 := m ((c.tc : Thread nD τ).loc main_arg3)
abbrev x4 : FVec Ideal S433x300 .f32 := m ((c.tc : Thread nD τ).loc main_arg4)
abbrev x5 : FVec Ideal S300 .f32 := m ((c.tc : Thread nD τ).loc main_arg5)
abbrev x6 : IVec S2x262144 32 := m ((c.tc : Thread nD τ).loc main_arg6)
abbrev x7 : IVec S131072 32 := m ((c.tc : Thread nD τ).loc main_arg7)
abbrev M0 : FVec Ideal S262144x300 .f32 := msg0 (x0 m c) (x1 m c) (x2 m c) (x6 m c)
abbrev M1 : FVec Ideal S262144x300 .f32 := msgNext (M0 m c) (x3 m c) (x6 m c)
abbrev M2 : FVec Ideal S262144x300 .f32 := msgNext (M1 m c) (x3 m c) (x6 m c)

/-! ### One step back: a buffer the stretch does not write, or that is no array of the region, is as it was at
    the boundary before -/

theorem s1 (b : Ref sig .tc) (hb : b ∉ wr0) :
    W1 (F := Ideal) m ρ c (Proc.devRef .tc b) = W0 (F := Ideal) m ρ c (Proc.devRef .tc b) :=
  StableHlo.after_of_writes_sub _ _ ops0_writes hb
theorem s2 (b : Ref sig .tc) (hb : b ∉ wr0_1) :
    W2 (F := Ideal) m ρ c (Proc.devRef .tc b) = W1 (F := Ideal) m ρ c (Proc.devRef .tc b) :=
  StableHlo.after_of_writes_sub _ _ ops0_1_writes hb
theorem s3 (b : Ref sig .tc) (hb : b ∉ wr0_2) :
    W3 (F := Ideal) m ρ c (Proc.devRef .tc b) = W2 (F := Ideal) m ρ c (Proc.devRef .tc b) :=
  StableHlo.after_of_writes_sub _ _ ops0_2_writes hb
theorem s4 (b : Ref sig .tc) (hb : ∀ w, Pipeline.arrRef spec0 w ≠ b) :
    W4 (F := Ideal) m ρ c (Proc.devRef .tc b) = W3 (F := Ideal) m ρ c (Proc.devRef .tc b) :=
  W4_of_ne m ρ c b hb
theorem s5 (b : Ref sig .tc) (hb : b ∉ wr1) :
    W5 (F := Ideal) m ρ c (Proc.devRef .tc b) = W4 (F := Ideal) m ρ c (Proc.devRef .tc b) :=
  StableHlo.after_of_writes_sub _ _ ops1_writes hb
theorem s6 (b : Ref sig .tc) (hb : b ∉ wr1_1) :
    W6 (F := Ideal) m ρ c (Proc.devRef .tc b) = W5 (F := Ideal) m ρ c (Proc.devRef .tc b) :=
  StableHlo.after_of_writes_sub _ _ ops1_1_writes hb
theorem s7 (b : Ref sig .tc) (hb : ∀ w, Pipeline.arrRef spec1 w ≠ b) :
    W7 (F := Ideal) m ρ c (Proc.devRef .tc b) = W6 (F := Ideal) m ρ c (Proc.devRef .tc b) :=
  W7_of_ne m ρ c b hb
theorem s8 (b : Ref sig .tc) (hb : b ∉ wr2) :
    W8 (F := Ideal) m ρ c (Proc.devRef .tc b) = W7 (F := Ideal) m ρ c (Proc.devRef .tc b) :=
  StableHlo.after_of_writes_sub _ _ ops2_writes hb
theorem s9 (b : Ref sig .tc) (hb : b ∉ wr2_1) :
    W9 (F := Ideal) m ρ c (Proc.devRef .tc b) = W8 (F := Ideal) m ρ c (Proc.devRef .tc b) :=
  StableHlo.after_of_writes_sub _ _ ops2_1_writes hb
theorem s10 (b : Ref sig .tc) (hb : ∀ w, Pipeline.arrRef spec2 w ≠ b) :
    W10 (F := Ideal) m ρ c (Proc.devRef .tc b) = W9 (F := Ideal) m ρ c (Proc.devRef .tc b) :=
  W10_of_ne m ρ c b hb
theorem s11 (b : Ref sig .tc) (hb : b ∉ wr3) :
    W11 (F := Ideal) m ρ c (Proc.devRef .tc b) = W10 (F := Ideal) m ρ c (Proc.devRef .tc b) :=
  StableHlo.after_of_writes_sub _ _ ops3_writes hb
theorem s12 (b : Ref sig .tc) (hb : ∀ w, Pipeline.arrRef spec3 w ≠ b) :
    W12 (F := Ideal) m ρ c (Proc.devRef .tc b) = W11 (F := Ideal) m ρ c (Proc.devRef .tc b) :=
  W12_of_ne m ρ c b hb
/-- The hidden weights are an input array of the first update: the region leaves an input as it found it. -/
theorem s7_arg3 :
    W7 (F := Ideal) m ρ c (Proc.devRef .tc main_arg3) = W6 (F := Ideal) m ρ c (Proc.devRef .tc main_arg3) :=
  (W7_arr m ρ c 2).trans (((dat1 (V6 m ρ) c).arrAt_in 2 rfl _).trans (A_eq1 (V6 m ρ) c 2))

/-! ### Up to the initial messages -/

theorem W1_v1 : W1 (F := Ideal) m ρ c (Proc.devRef .tc main_v1) = Take.srcOf (x6 m c) := ops0_v1 _
theorem W1_v3 : W1 (F := Ideal) m ρ c (Proc.devRef .tc main_v3) = Take.tgtOf (x6 m c) := ops0_v3 _
theorem W1_arg0 : W1 (F := Ideal) m ρ c (Proc.devRef .tc main_arg0) = x0 m c := s1 m ρ c main_arg0 (by decide)
theorem W2_arg2 : W2 (F := Ideal) m ρ c (Proc.devRef .tc main_arg2) = x2 m c :=
  (s2 m ρ c main_arg2 (by decide)).trans (s1 m ρ c main_arg2 (by decide))
theorem W2_v4 : W2 (F := Ideal) m ρ c (Proc.devRef .tc main_v4) = Take.take133 (x0 m c) (Take.srcOf (x6 m c)) :=
  (ops0_1_v4 _).trans (by rw [W1_arg0 m ρ c, W1_v1 m ρ c])
theorem W3_v4 : W3 (F := Ideal) m ρ c (Proc.devRef .tc main_v4) = Take.take133 (x0 m c) (Take.srcOf (x6 m c)) :=
  (s3 m ρ c main_v4 (by decide)).trans (W2_v4 m ρ c)
theorem W3_arg1 : W3 (F := Ideal) m ρ c (Proc.devRef .tc main_arg1) = x1 m c :=
  (s3 m ρ c main_arg1 (by decide)).trans <| (s2 m ρ c main_arg1 (by decide)).trans (s1 m ρ c main_arg1 (by decide))
theorem W3_v5 : W3 (F := Ideal) m ρ c (Proc.devRef .tc main_v5)
    = extractStridedSlice S133x300 ![0, 0] (x2 m c) slices_S147x300_S133x300_0_0 :=
  (ops0_2_v5 _).trans (by rw [W2_arg2 m ρ c])
theorem W3_v6 : W3 (F := Ideal) m ρ c (Proc.devRef .tc main_v6)
    = extractStridedSlice S14x300 ![133, 0] (x2 m c) slices_S147x300_S14x300_133_0 :=
  (ops0_2_v6 _).trans (by rw [W2_arg2 m ρ c])

/-- Region 0 leaves the initial messages in its output array. -/
theorem W4_v7 : W4 (F := Ideal) m ρ c (Proc.devRef .tc main_v7) = M0 m c :=
  (W4_arr m ρ c 4).trans <| (Region0.out_eq (V3 m ρ) c).trans <| by
    show Cert.Spec.initMsg4 (W3 (F := Ideal) m ρ c (Proc.devRef .tc main_v4))
      (W3 (F := Ideal) m ρ c (Proc.devRef .tc main_arg1)) (W3 (F := Ideal) m ρ c (Proc.devRef .tc main_v5))
      (W3 (F := Ideal) m ρ c (Proc.devRef .tc main_v6)) = _
    rw [W3_v4 m ρ c, W3_arg1 m ρ c, W3_v5 m ρ c, W3_v6 m ρ c]; rfl

/-! ### The first update -/

theorem W4_v3 : W4 (F := Ideal) m ρ c (Proc.devRef .tc main_v3) = Take.tgtOf (x6 m c) :=
  (s4 m ρ c main_v3 (by decide)).trans <| (s3 m ρ c main_v3 (by decide)).trans <|
    (s2 m ρ c main_v3 (by decide)).trans (W1_v3 m ρ c)
theorem W5_v10 : W5 (F := Ideal) m ρ c (Proc.devRef .tc main_v10) = nbrSum (M0 m c) (x6 m c) :=
  (ops1_v10 _).trans (by rw [W4_v3 m ρ c, W4_v7 m ρ c]; rfl)
theorem W5_v1 : W5 (F := Ideal) m ρ c (Proc.devRef .tc main_v1) = Take.srcOf (x6 m c) :=
  (s5 m ρ c main_v1 (by decide)).trans <| (s4 m ρ c main_v1 (by decide)).trans <|
    (s3 m ρ c main_v1 (by decide)).trans <| (s2 m ρ c main_v1 (by decide)).trans (W1_v1 m ρ c)
theorem W6_v11 : W6 (F := Ideal) m ρ c (Proc.devRef .tc main_v11)
    = Take.take300 (nbrSum (M0 m c) (x6 m c)) (Take.srcOf (x6 m c)) :=
  (ops1_1_v11 _).trans (by rw [W5_v10 m ρ c, W5_v1 m ρ c])
theorem W6_v7 : W6 (F := Ideal) m ρ c (Proc.devRef .tc main_v7) = M0 m c :=
  (s6 m ρ c main_v7 (by decide)).trans <| (s5 m ρ c main_v7 (by decide)).trans (W4_v7 m ρ c)
theorem W6_arg3 : W6 (F := Ideal) m ρ c (Proc.devRef .tc main_arg3) = x3 m c :=
  (s6 m ρ c main_arg3 (by decide)).trans <| (s5 m ρ c main_arg3 (by decide)).trans <|
    (s4 m ρ c main_arg3 (by decide)).trans <| (s3 m ρ c main_arg3 (by decide)).trans <|
    (s2 m ρ c main_arg3 (by decide)).trans (s1 m ρ c main_arg3 (by decide))

/-- Region 1 leaves the once-updated messages in its output array. -/
theorem W7_v12 : W7 (F := Ideal) m ρ c (Proc.devRef .tc main_v12) = M1 m c :=
  (W7_arr m ρ c 3).trans <| (Region1.out_eq (V6 m ρ) c).trans <| by
    show Cert.Spec.stepMsg (W6 (F := Ideal) m ρ c (Proc.devRef .tc main_v7))
      (W6 (F := Ideal) m ρ c (Proc.devRef .tc main_v11)) (W6 (F := Ideal) m ρ c (Proc.devRef .tc main_arg3)) = _
    rw [W6_v7 m ρ c, W6_v11 m ρ c, W6_arg3 m ρ c]; rfl

/-! ### The second update -/

theorem W7_v3 : W7 (F := Ideal) m ρ c (Proc.devRef .tc main_v3) = Take.tgtOf (x6 m c) :=
  (s7 m ρ c main_v3 (by decide)).trans <| (s6 m ρ c main_v3 (by decide)).trans <|
    (s5 m ρ c main_v3 (by decide)).trans (W4_v3 m ρ c)
theorem W8_v15 : W8 (F := Ideal) m ρ c (Proc.devRef .tc main_v15) = nbrSum (M1 m c) (x6 m c) :=
  (ops2_v15 _).trans (by rw [W7_v3 m ρ c, W7_v12 m ρ c]; rfl)
theorem W8_v1 : W8 (F := Ideal) m ρ c (Proc.devRef .tc main_v1) = Take.srcOf (x6 m c) :=
  (s8 m ρ c main_v1 (by decide)).trans <| (s7 m ρ c main_v1 (by decide)).trans <|
    (s6 m ρ c main_v1 (by decide)).trans (W5_v1 m ρ c)
theorem W9_v16 : W9 (F := Ideal) m ρ c (Proc.devRef .tc main_v16)
    = Take.take300 (nbrSum (M1 m c) (x6 m c)) (Take.srcOf (x6 m c)) :=
  (ops2_1_v16 _).trans (by rw [W8_v15 m ρ c, W8_v1 m ρ c])
theorem W9_v12 : W9 (F := Ideal) m ρ c (Proc.devRef .tc main_v12) = M1 m c :=
  (s9 m ρ c main_v12 (by decide)).trans <| (s8 m ρ c main_v12 (by decide)).trans (W7_v12 m ρ c)
theorem W9_arg3 : W9 (F := Ideal) m ρ c (Proc.devRef .tc main_arg3) = x3 m c :=
  (s9 m ρ c main_arg3 (by decide)).trans <| (s8 m ρ c main_arg3 (by decide)).trans <|
    (s7_arg3 m ρ c).trans (W6_arg3 m ρ c)

/-- Region 2 leaves the twice-updated messages in its output array. -/
theorem W10_v17 : W10 (F := Ideal) m ρ c (Proc.devRef .tc main_v17) = M2 m c :=
  (W10_arr m ρ c 3).trans <| (Region2.out_eq (V9 m ρ) c).trans <| by
    show Cert.Spec.stepMsg (W9 (F := Ideal) m ρ c (Proc.devRef .tc main_v12))
      (W9 (F := Ideal) m ρ c (Proc.devRef .tc main_v16)) (W9 (F := Ideal) m ρ c (Proc.devRef .tc main_arg3)) = _
    rw [W9_v12 m ρ c, W9_v16 m ρ c, W9_arg3 m ρ c]; rfl

/-! ### The atom outputs -/

theorem W10_v3 : W10 (F := Ideal) m ρ c (Proc.devRef .tc main_v3) = Take.tgtOf (x6 m c) :=
  (s10 m ρ c main_v3 (by decide)).trans <| (s9 m ρ c main_v3 (by decide)).trans <|
    (s8 m ρ c main_v3 (by decide)).trans (W7_v3 m ρ c)
theorem W10_arg4 : W10 (F := Ideal) m ρ c (Proc.devRef .tc main_arg4) = x4 m c :=
  (s10 m ρ c main_arg4 (by decide)).trans <| (s9 m ρ c main_arg4 (by decide)).trans <|
    (s8 m ρ c main_arg4 (by decide)).trans <| (s7 m ρ c main_arg4 (by decide)).trans <|
    (s6 m ρ c main_arg4 (by decide)).trans <| (s5 m ρ c main_arg4 (by decide)).trans <|
    (s4 m ρ c main_arg4 (by decide)).trans <| (s3 m ρ c main_arg4 (by decide)).trans <|
    (s2 m ρ c main_arg4 (by decide)).trans (s1 m ρ c main_arg4 (by decide))
theorem W10_arg5 : W10 (F := Ideal) m ρ c (Proc.devRef .tc main_arg5) = x5 m c :=
  (s10 m ρ c main_arg5 (by decide)).trans <| (s9 m ρ c main_arg5 (by decide)).trans <|
    (s8 m ρ c main_arg5 (by decide)).trans <| (s7 m ρ c main_arg5 (by decide)).trans <|
    (s6 m ρ c main_arg5 (by decide)).trans <| (s5 m ρ c main_arg5 (by decide)).trans <|
    (s4 m ρ c main_arg5 (by decide)).trans <| (s3 m ρ c main_arg5 (by decide)).trans <|
    (s2 m ρ c main_arg5 (by decide)).trans (s1 m ρ c main_arg5 (by decide))
theorem W11_v20 : W11 (F := Ideal) m ρ c (Proc.devRef .tc main_v20) = nbrSum (M2 m c) (x6 m c) :=
  (ops3_v20 _).trans (by rw [W10_v3 m ρ c, W10_v17 m ρ c]; rfl)
theorem W11_v21 : W11 (F := Ideal) m ρ c (Proc.devRef .tc main_v21)
    = extractStridedSlice S133x300 ![0, 0] (x4 m c) slices_S433x300_S133x300_0_0 :=
  (ops3_v21 _).trans (by rw [W10_arg4 m ρ c])
theorem W11_v22 : W11 (F := Ideal) m ρ c (Proc.devRef .tc main_v22)
    = extractStridedSlice S300x300 ![133, 0] (x4 m c) slices_S433x300_S300x300_133_0 :=
  (ops3_v22 _).trans (by rw [W10_arg4 m ρ c])
theorem W11_v23 : W11 (F := Ideal) m ρ c (Proc.devRef .tc main_v23) = shapeCast S1x300 (x5 m c) shapeCasts_S300_S1x300 :=
  (ops3_v23 _).trans (by rw [W10_arg5 m ρ c])
theorem W11_arg0 : W11 (F := Ideal) m ρ c (Proc.devRef .tc main_arg0) = x0 m c :=
  (s11 m ρ c main_arg0 (by decide)).trans <| (s10 m ρ c main_arg0 (by decide)).trans <|
    (s9 m ρ c main_arg0 (by decide)).trans <| (s8 m ρ c main_arg0 (by decide)).trans <|
    (s7 m ρ c main_arg0 (by decide)).trans <| (s6 m ρ c main_arg0 (by decide)).trans <|
    (s5 m ρ c main_arg0 (by decide)).trans <| (s4 m ρ c main_arg0 (by decide)).trans <|
    (s3 m ρ c main_arg0 (by decide)).trans <| (s2 m ρ c main_arg0 (by decide)).trans (W1_arg0 m ρ c)

/-- Region 3 leaves the atom outputs in its output array. -/
theorem W12_v24 : W12 (F := Ideal) m ρ c (Proc.devRef .tc main_v24) = atomH (x0 m c) (M2 m c) (x4 m c) (x5 m c) (x6 m c) :=
  (W12_arr m ρ c 5).trans <| (Region3.out_eq (V11 m ρ) c).trans <| by
    show Cert.Spec.atomOut5 (W11 (F := Ideal) m ρ c (Proc.devRef .tc main_arg0))
      (W11 (F := Ideal) m ρ c (Proc.devRef .tc main_v20)) (W11 (F := Ideal) m ρ c (Proc.devRef .tc main_v21))
      (W11 (F := Ideal) m ρ c (Proc.devRef .tc main_v22)) (W11 (F := Ideal) m ρ c (Proc.devRef .tc main_v23)) = _
    rw [W11_arg0 m ρ c, W11_v20 m ρ c, W11_v21 m ρ c, W11_v22 m ρ c, W11_v23 m ρ c]; rfl

theorem W12_arg7 : W12 (F := Ideal) m ρ c (Proc.devRef .tc main_arg7) = x7 m c :=
  (s12 m ρ c main_arg7 (by decide)).trans <| (s11 m ρ c main_arg7 (by decide)).trans <|
    (s10 m ρ c main_arg7 (by decide)).trans <| (s9 m ρ c main_arg7 (by decide)).trans <|
    (s8 m ρ c main_arg7 (by decide)).trans <| (s7 m ρ c main_arg7 (by decide)).trans <|
    (s6 m ρ c main_arg7 (by decide)).trans <| (s5 m ρ c main_arg7 (by decide)).trans <|
    (s4 m ρ c main_arg7 (by decide)).trans <| (s3 m ρ c main_arg7 (by decide)).trans <|
    (s2 m ρ c main_arg7 (by decide)).trans (s1 m ρ c main_arg7 (by decide))

end Boundaries

end Walk

variable (m : (ℓ : Loc nD τ sig) → Buf (Elt Ideal) ℓ) (ρ : Dev nD → PrngReg)

/-- The result buffer at the last boundary is the composition of the stages of the launch memory's arguments. -/
theorem W13_result (c : Dev nD) :
    W13 (F := Ideal) m ρ c (Proc.devRef .tc main_v27)
      = kOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (Walk.ops4_v27 _).trans (by rw [Walk.W12_arg7 m ρ c, Walk.W12_v24 m ρ c]; rfl)

end Cert.KernelIdeal.Chain

end
-- ==== Proof.RefBridge.lean ====
/-
  The reference's three kinds of stage against the specification. The reference concatenates two arrays along
  the feature axis and multiplies by the whole weight matrix; entry by entry that product is a sum over the
  joined axis, and a sum over `a + b` terms is the sum over the first `a` plus the sum over the last `b`: the first
  block meets the first `a` rows of the weights, the second block the remaining `b` rows. No entry needs to be
  finite for this: only commutativity and associativity of addition on the extended reals are used.
-/
import proofs.«411490_j65558380806592_1_alg».proof.Proof.Gen.ReferenceIdeal
import proofs.«411490_j65558380806592_1_alg».proof.Proof.Gen.ReferenceIdeal.Read
import proofs.«411490_j65558380806592_1_alg».proof.Proof.Spec
import Idealize.ShloMosaic.Lib.Pipeline.Value
import Idealize.ShloMosaic.Lib.ValueIdx
import Idealize.ShloMosaic.PureOps.Ideal.Laws
import Mathlib.Algebra.BigOperators.Fin

set_option maxRecDepth 16384

noncomputable section

namespace Cert.ReferenceIdeal.Bridge

open Cert.ReferenceIdeal Cert.ReferenceIdeal.Gen Idealize.ShloMosaic Idealize.ShloMosaic.TcCoe
open Idealize.ShloMosaic.ValueIdx
open Cert.ReferenceIdeal.Read

/-! ## A sum over a joined axis -/

/-- A sum over `n = a + b` terms is the sum over the first `a` of them plus the sum over the last `b`. -/
theorem sum_split {a b n : Nat} (hn : a + b = n) (f : Fin n → EReal) :
    ∑ k : Fin n, f k = (∑ k : Fin a, f ⟨k.val, by omega⟩) + ∑ k : Fin b, f ⟨a + k.val, by omega⟩ := by
  subst hn
  exact Fin.sum_univ_add f

/-! ## The clamp's zero array and the bias row, entry by entry -/

/-- The broadcast zero constant is the extended real `0` at every entry (edge-sized array). -/
theorem zero_edges (j : S262144x300.Idx) :
    broadcastInDim S262144x300 ![] bcast_S_S262144x300 (constant (F := Ideal) S_ .f32 0x00000000#32) j = (0 : EReal) := by
  rw [broadcastInDim_apply _ bcast_S_S262144x300 _ j ix0 (fun a => a.elim0), constant_apply, Ideal.ofBits_zero_f32]

/-- The broadcast zero constant is the extended real `0` at every entry (atom-sized array). -/
theorem zero_atoms (j : S131072x300.Idx) :
    broadcastInDim S131072x300 ![] bcast_S_S131072x300 (constant (F := Ideal) S_ .f32 0x00000000#32) j = (0 : EReal) := by
  rw [broadcastInDim_apply _ bcast_S_S131072x300 _ j ix0 (fun a => a.elim0), constant_apply, Ideal.ofBits_zero_f32]

/-- The bias vector, made a `1 × 300` row and repeated on every atom's row, reads the vector at the column. -/
theorem bias_apply (bo : FVec Ideal S300 .f32) (n : Fin 131072) (h : Fin 300) :
    broadcastInDim S131072x300 ![0, 1] bcast_S1x300_S131072x300_0_1 (broadcastInDim S1x300 ![1] bcast_S300_S1x300_1 bo) (ix2 n h)
      = bo (ix1 h) := by
  rw [broadcastInDim_apply _ bcast_S1x300_S131072x300_0_1 _ (ix2 n h) (ix2 (0 : Fin 1) h) (fun a => match a with
      | ⟨0, _⟩ => by show 0 = if (1 : Nat) = 1 then 0 else n.val; rw [if_pos rfl]
      | ⟨1, _⟩ => by show h.val = if (300 : Nat) = 1 then 0 else h.val; rw [if_neg (by decide)]),
    broadcastInDim_apply _ bcast_S300_S1x300_1 bo (ix2 (0 : Fin 1) h) (ix1 h) (fun a => match a with
      | ⟨0, _⟩ => by show h.val = if (300 : Nat) = 1 then 0 else h.val; rw [if_neg (by decide)])]

/-! ## The three matrix products, entry by entry

  Each is the plain sum over the contracted axis of the products of the left operand's row with the right operand's
  column; the contraction index has one axis, so the sum is re-indexed by that axis' coordinate. -/

/-- Entry `(e, h)` of the product of a `262144 × 147` array with a `147 × 300` matrix. -/
theorem dot_init_apply (l : FVec Ideal S262144x147 .f32) (r : FVec Ideal S147x300 .f32) (e : Fin 262144) (h : Fin 300) :
    Host.dotGeneral dot_S262144x147_S147x300_S262144x300_1_0_0_1_n_n none l r (ix2 e h)
      = ∑ k : Fin 147, l (ix2 e k) * r (ix2 k h) := by
  simp only [Host.dotGeneral]
  rw [Ideal.dotGeneral_apply, ← Equiv.sum_comp (contrEquiv1 dot_S262144x147_S147x300_S262144x300_1_0_0_1_n_n 147 rfl rfl).symm]
  refine Finset.sum_congr rfl fun k _ => ?_
  have hk := contrEquiv1_symm_val dot_S262144x147_S147x300_S262144x300_1_0_0_1_n_n 147 rfl rfl k
  have el : dot_S262144x147_S147x300_S262144x300_1_0_0_1_n_n.lhsIdx (ix2 e h)
      ((contrEquiv1 dot_S262144x147_S147x300_S262144x300_1_0_0_1_n_n 147 rfl rfl).symm k) = ix2 e k :=
    funext fun a => Fin.ext (by
      match a with
      | ⟨0, _⟩ => exact lhs_main_v12_0 _ _
      | ⟨1, _⟩ => exact (lhs_main_v12_1 _ _).trans hk)
  have er : dot_S262144x147_S147x300_S262144x300_1_0_0_1_n_n.rhsIdx (ix2 e h)
      ((contrEquiv1 dot_S262144x147_S147x300_S262144x300_1_0_0_1_n_n 147 rfl rfl).symm k) = ix2 k h :=
    funext fun a => Fin.ext (by
      match a with
      | ⟨0, _⟩ => exact (rhs_main_v12_0 _ _).trans hk
      | ⟨1, _⟩ => exact rhs_main_v12_1 _ _)
  rw [el, er]

/-- Entry `(e, h)` of the product of a `262144 × 300` array with a `300 × 300` matrix. -/
theorem dot_step_apply (l : FVec Ideal S262144x300 .f32) (r : FVec Ideal S300x300 .f32) (e : Fin 262144) (h : Fin 300) :
    Host.dotGeneral dot_S262144x300_S300x300_S262144x300_1_0_0_1_n_n none l r (ix2 e h)
      = ∑ k : Fin 300, l (ix2 e k) * r (ix2 k h) := by
  simp only [Host.dotGeneral]
  rw [Ideal.dotGeneral_apply, ← Equiv.sum_comp (contrEquiv1 dot_S262144x300_S300x300_S262144x300_1_0_0_1_n_n 300 rfl rfl).symm]
  refine Finset.sum_congr rfl fun k _ => ?_
  have hk := contrEquiv1_symm_val dot_S262144x300_S300x300_S262144x300_1_0_0_1_n_n 300 rfl rfl k
  have el : dot_S262144x300_S300x300_S262144x300_1_0_0_1_n_n.lhsIdx (ix2 e h)
      ((contrEquiv1 dot_S262144x300_S300x300_S262144x300_1_0_0_1_n_n 300 rfl rfl).symm k) = ix2 e k :=
    funext fun a => Fin.ext (by
      match a with
      | ⟨0, _⟩ => exact lhs_main_v24_0 _ _
      | ⟨1, _⟩ => exact (lhs_main_v24_1 _ _).trans hk)
  have er : dot_S262144x300_S300x300_S262144x300_1_0_0_1_n_n.rhsIdx (ix2 e h)
      ((contrEquiv1 dot_S262144x300_S300x300_S262144x300_1_0_0_1_n_n 300 rfl rfl).symm k) = ix2 k h :=
    funext fun a => Fin.ext (by
      match a with
      | ⟨0, _⟩ => exact (rhs_main_v24_0 _ _).trans hk
      | ⟨1, _⟩ => exact rhs_main_v24_1 _ _)
  rw [el, er]

/-- Entry `(n, h)` of the product of a `131072 × 433` array with a `433 × 300` matrix. -/
theorem dot_atom_apply (l : FVec Ideal S131072x433 .f32) (r : FVec Ideal S433x300 .f32) (e : Fin 131072) (h : Fin 300) :
    Host.dotGeneral dot_S131072x433_S433x300_S131072x300_1_0_0_1_n_n none l r (ix2 e h)
      = ∑ k : Fin 433, l (ix2 e k) * r (ix2 k h) := by
  simp only [Host.dotGeneral]
  rw [Ideal.dotGeneral_apply, ← Equiv.sum_comp (contrEquiv1 dot_S131072x433_S433x300_S131072x300_1_0_0_1_n_n 433 rfl rfl).symm]
  refine Finset.sum_congr rfl fun k _ => ?_
  have hk := contrEquiv1_symm_val dot_S131072x433_S433x300_S131072x300_1_0_0_1_n_n 433 rfl rfl k
  have el : dot_S131072x433_S433x300_S131072x300_1_0_0_1_n_n.lhsIdx (ix2 e h)
      ((contrEquiv1 dot_S131072x433_S433x300_S131072x300_1_0_0_1_n_n 433 rfl rfl).symm k) = ix2 e k :=
    funext fun a => Fin.ext (by
      match a with
      | ⟨0, _⟩ => exact lhs_main_v44_0 _ _
      | ⟨1, _⟩ => exact (lhs_main_v44_1 _ _).trans hk)
  have er : dot_S131072x433_S433x300_S131072x300_1_0_0_1_n_n.rhsIdx (ix2 e h)
      ((contrEquiv1 dot_S131072x433_S433x300_S131072x300_1_0_0_1_n_n 433 rfl rfl).symm k) = ix2 k h :=
    funext fun a => Fin.ext (by
      match a with
      | ⟨0, _⟩ => exact (rhs_main_v44_0 _ _).trans hk
      | ⟨1, _⟩ => exact rhs_main_v44_1 _ _)
  rw [el, er]

/-! ## The joined arrays, entry by entry -/

/-- Columns `0 … 132` of `[gathered atoms | bonds]` are the gathered atom features. -/
theorem cat_init_left (xg : FVec Ideal S262144x133 .f32) (ea : FVec Ideal S262144x14 .f32) (e : Fin 262144) (k : Fin 133) :
    concatenate S262144x147 1 [⟨S262144x133, xg⟩, ⟨S262144x14, ea⟩] concatenates_S262144x133_S262144x14_S262144x147_d1
        (ix2 e (⟨k.val, by omega⟩ : Fin 147)) = xg (ix2 e k) :=
  concatenate_pair_apply_left 1 xg ea concatenates_S262144x133_S262144x14_S262144x147_d1
    (ix2 e (⟨k.val, by omega⟩ : Fin 147)) rfl (ix2 e k) (fun b => match b with
      | ⟨0, _⟩ => rfl
      | ⟨1, _⟩ => rfl)

/-- Columns `133 … 146` of `[gathered atoms | bonds]` are the bond features. -/
theorem cat_init_right (xg : FVec Ideal S262144x133 .f32) (ea : FVec Ideal S262144x14 .f32) (e : Fin 262144) (k : Fin 14) :
    concatenate S262144x147 1 [⟨S262144x133, xg⟩, ⟨S262144x14, ea⟩] concatenates_S262144x133_S262144x14_S262144x147_d1
        (ix2 e (⟨133 + k.val, by omega⟩ : Fin 147)) = ea (ix2 e k) :=
  concatenate_pair_apply_right 1 xg ea concatenates_S262144x133_S262144x14_S262144x147_d1
    (ix2 e (⟨133 + k.val, by omega⟩ : Fin 147)) rfl rfl (ix2 e k) (fun b => match b with
      | ⟨0, _⟩ => fun _ => rfl
      | ⟨1, _⟩ => fun hne => absurd rfl hne)
    (by show k.val + 133 = 133 + k.val; omega)

/-- Columns `0 … 132` of `[atoms | summed messages]` are the atom features. -/
theorem cat_atom_left (x : FVec Ideal S131072x133 .f32) (am : FVec Ideal S131072x300 .f32) (n : Fin 131072) (k : Fin 133) :
    concatenate S131072x433 1 [⟨S131072x133, x⟩, ⟨S131072x300, am⟩] concatenates_S131072x133_S131072x300_S131072x433_d1
        (ix2 n (⟨k.val, by omega⟩ : Fin 433)) = x (ix2 n k) :=
  concatenate_pair_apply_left 1 x am concatenates_S131072x133_S131072x300_S131072x433_d1
    (ix2 n (⟨k.val, by omega⟩ : Fin 433)) rfl (ix2 n k) (fun b => match b with
      | ⟨0, _⟩ => rfl
      | ⟨1, _⟩ => rfl)

/-- Columns `133 … 432` of `[atoms | summed messages]` are the summed messages. -/
theorem cat_atom_right (x : FVec Ideal S131072x133 .f32) (am : FVec Ideal S131072x300 .f32) (n : Fin 131072) (k : Fin 300) :
    concatenate S131072x433 1 [⟨S131072x133, x⟩, ⟨S131072x300, am⟩] concatenates_S131072x133_S131072x300_S131072x433_d1
        (ix2 n (⟨133 + k.val, by omega⟩ : Fin 433)) = am (ix2 n k) :=
  concatenate_pair_apply_right 1 x am concatenates_S131072x133_S131072x300_S131072x433_d1
    (ix2 n (⟨133 + k.val, by omega⟩ : Fin 433)) rfl rfl (ix2 n k) (fun b => match b with
      | ⟨0, _⟩ => fun _ => rfl
      | ⟨1, _⟩ => fun hne => absurd rfl hne)
    (by show k.val + 133 = 133 + k.val; omega)

/-- Row `k` of the first block of rows of a matrix is row `k` of the matrix. -/
theorem rows_zero_ix2 {R C : Nat} (n : Nat) (hR : 0 + n ≤ R) (w : Cert.Spec.Mat R C) (p : Fin n) (q : Fin C) :
    Cert.Spec.rows 0 n hR w (ix2 p q) = w (ix2 (⟨p.val, by omega⟩ : Fin R) q) := by
  rw [Cert.Spec.rows_ix2]
  exact congrArg (fun t : Fin R => w (ix2 t q)) (Fin.ext (Nat.zero_add _))

/-! ## The three stages -/

/-- The initial messages: the clamped product of the joined `[gathered atoms | bonds]` rows with the weights. -/
theorem init_eq (xg : FVec Ideal S262144x133 .f32) (ea : FVec Ideal S262144x14 .f32) (wi : FVec Ideal S147x300 .f32) :
    maximumf
        (Host.dotGeneral dot_S262144x147_S147x300_S262144x300_1_0_0_1_n_n none
          (concatenate S262144x147 1 [⟨S262144x133, xg⟩, ⟨S262144x14, ea⟩] concatenates_S262144x133_S262144x14_S262144x147_d1) wi)
        (broadcastInDim S262144x300 ![] bcast_S_S262144x300 (constant S_ .f32 0x00000000#32))
      = Cert.Spec.initMsg xg ea wi := by
  funext i
  obtain ⟨e, h, rfl⟩ : ∃ (e : Fin 262144) (h : Fin 300), i = ix2 e h := ⟨i 0, i 1, eq_ix2 i⟩
  rw [maximumf_apply, dot_init_apply, zero_edges, sum_split (a := 133) (b := 14) rfl]
  unfold Cert.Spec.initMsg
  rw [Cert.Spec.initMsg4_ix2]
  unfold Cert.Spec.initMsgAt
  refine congrArg (fun s : EReal => max s 0) (congrArg₂ (· + ·) (Finset.sum_congr rfl fun k _ => ?_) (Finset.sum_congr rfl fun k _ => ?_))
  · rw [cat_init_left, rows_zero_ix2]
  · rw [cat_init_right, Cert.Spec.rows_ix2]

/-- One update: the clamped sum of the messages and the product of the gathered sums with the hidden weights. -/
theorem step_eq (msg ng : FVec Ideal S262144x300 .f32) (wh : FVec Ideal S300x300 .f32) :
    maximumf
        (addf msg (Host.dotGeneral dot_S262144x300_S300x300_S262144x300_1_0_0_1_n_n none ng wh))
        (broadcastInDim S262144x300 ![] bcast_S_S262144x300 (constant S_ .f32 0x00000000#32))
      = Cert.Spec.stepMsg msg ng wh := by
  funext i
  obtain ⟨e, h, rfl⟩ : ∃ (e : Fin 262144) (h : Fin 300), i = ix2 e h := ⟨i 0, i 1, eq_ix2 i⟩
  rw [maximumf_apply, addf_apply, dot_step_apply, zero_edges, Cert.Spec.stepMsg_ix2]
  rfl

/-- The atom outputs: the clamped product of the joined `[atoms | summed messages]` rows with the weights, plus
    the bias on every row. -/
theorem atom_eq (x : FVec Ideal S131072x133 .f32) (am : FVec Ideal S131072x300 .f32) (wo : FVec Ideal S433x300 .f32)
    (bo : FVec Ideal S300 .f32) :
    maximumf
        (addf
          (Host.dotGeneral dot_S131072x433_S433x300_S131072x300_1_0_0_1_n_n none
            (concatenate S131072x433 1 [⟨S131072x133, x⟩, ⟨S131072x300, am⟩] concatenates_S131072x133_S131072x300_S131072x433_d1) wo)
          (broadcastInDim S131072x300 ![0, 1] bcast_S1x300_S131072x300_0_1 (broadcastInDim S1x300 ![1] bcast_S300_S1x300_1 bo)))
        (broadcastInDim S131072x300 ![] bcast_S_S131072x300 (constant S_ .f32 0x00000000#32))
      = Cert.Spec.atomOut x am wo bo := by
  funext i
  obtain ⟨n, h, rfl⟩ : ∃ (n : Fin 131072) (h : Fin 300), i = ix2 n h := ⟨i 0, i 1, eq_ix2 i⟩
  rw [maximumf_apply, addf_apply, dot_atom_apply, bias_apply, zero_atoms, sum_split (a := 133) (b := 300) rfl]
  unfold Cert.Spec.atomOut
  rw [Cert.Spec.atomOut5_ix2]
  unfold Cert.Spec.atomOutAt
  refine congrArg (fun s : EReal => max s 0) (congrArg₂ (· + ·)
    (congrArg₂ (· + ·) (Finset.sum_congr rfl fun k _ => ?_) (Finset.sum_congr rfl fun k _ => ?_)) rfl)
  · rw [cat_atom_left, rows_zero_ix2]
  · rw [cat_atom_right, Cert.Spec.rows_ix2]

end Cert.ReferenceIdeal.Bridge

end
-- ==== Proof.Join.lean ====
/-
  The kernel's composition of stages is the reference's, where every source atom is a row number.

  Stage by stage: the two programs slice and reshape the edge index alike; the kernel's filled gather is the
  reference's plain gather in range; the kernel's two-block product with the two slices of the weight matrix is
  the reference's product of the joined rows with the whole matrix; the scatter-additions are the same operation
  on equal operands. Each stage is rewritten to the reference's term, innermost first, so no two full-size terms
  are ever compared by unfolding.
-/
import proofs.«411490_j65558380806592_1_alg».proof.Proof.KernelChain
import proofs.«411490_j65558380806592_1_alg».proof.Proof.RefBridge
import proofs.«411490_j65558380806592_1_alg».proof.Proof.Gen.ReferenceIdeal.Read
import Idealize.ShloMosaic.Lib.Pipeline.Value
import Idealize.ShloMosaic.Lib.ValueIdx

set_option maxRecDepth 16384

noncomputable section

namespace Cert.Join

open Idealize.ShloMosaic Idealize.ShloMosaic.TcCoe Idealize.ShloMosaic.ValueIdx
open Cert.KernelIdeal.Take Cert.KernelIdeal.Chain

/-! ## A block of rows of a weight matrix, and the bias as a row -/

/-- The first 133 rows of a 147-row matrix. -/
theorem slice_147_head (w : Cert.Spec.Mat 147 300) :
    extractStridedSlice Cert.KernelIdeal.S133x300 ![0, 0] w Cert.KernelIdeal.Gen.slices_S147x300_S133x300_0_0
      = Cert.Spec.rows 0 133 (by omega) w := by
  funext j
  obtain ⟨p, q, rfl⟩ : ∃ (p : Fin 133) (q : Fin 300), j = ix2 p q := ⟨j 0, j 1, eq_ix2 j⟩
  rw [Cert.Spec.rows_ix2]
  refine extractStridedSlice_apply _ _ _ _ _ (fun a => ?_)
  match a with
  | ⟨0, _⟩ => rfl
  | ⟨1, _⟩ => show q.val = 0 + q.val; omega

/-- The last 14 rows of a 147-row matrix. -/
theorem slice_147_tail (w : Cert.Spec.Mat 147 300) :
    extractStridedSlice Cert.KernelIdeal.S14x300 ![133, 0] w Cert.KernelIdeal.Gen.slices_S147x300_S14x300_133_0
      = Cert.Spec.rows 133 14 (by omega) w := by
  funext j
  obtain ⟨p, q, rfl⟩ : ∃ (p : Fin 14) (q : Fin 300), j = ix2 p q := ⟨j 0, j 1, eq_ix2 j⟩
  rw [Cert.Spec.rows_ix2]
  refine extractStridedSlice_apply _ _ _ _ _ (fun a => ?_)
  match a with
  | ⟨0, _⟩ => rfl
  | ⟨1, _⟩ => show q.val = 0 + q.val; omega

/-- The first 133 rows of a 433-row matrix. -/
theorem slice_433_head (w : Cert.Spec.Mat 433 300) :
    extractStridedSlice Cert.KernelIdeal.S133x300 ![0, 0] w Cert.KernelIdeal.Gen.slices_S433x300_S133x300_0_0
      = Cert.Spec.rows 0 133 (by omega) w := by
  funext j
  obtain ⟨p, q, rfl⟩ : ∃ (p : Fin 133) (q : Fin 300), j = ix2 p q := ⟨j 0, j 1, eq_ix2 j⟩
  rw [Cert.Spec.rows_ix2]
  refine extractStridedSlice_apply _ _ _ _ _ (fun a => ?_)
  match a with
  | ⟨0, _⟩ => rfl
  | ⟨1, _⟩ => show q.val = 0 + q.val; omega

/-- The last 300 rows of a 433-row matrix. -/
theorem slice_433_tail (w : Cert.Spec.Mat 433 300) :
    extractStridedSlice Cert.KernelIdeal.S300x300 ![133, 0] w Cert.KernelIdeal.Gen.slices_S433x300_S300x300_133_0
      = Cert.Spec.rows 133 300 (by omega) w := by
  funext j
  obtain ⟨p, q, rfl⟩ : ∃ (p : Fin 300) (q : Fin 300), j = ix2 p q := ⟨j 0, j 1, eq_ix2 j⟩
  rw [Cert.Spec.rows_ix2]
  refine extractStridedSlice_apply _ _ _ _ _ (fun a => ?_)
  match a with
  | ⟨0, _⟩ => rfl
  | ⟨1, _⟩ => show q.val = 0 + q.val; omega

/-- A vector of length 300 laid out as one row. -/
theorem bias_row (b : (⟨1, ![300]⟩ : Shape).Idx → EReal) :
    shapeCast Cert.KernelIdeal.S1x300 b Cert.KernelIdeal.Gen.shapeCasts_S300_S1x300
      = fun j : (⟨2, ![1, 300]⟩ : Shape).Idx => b (ix1 ⟨(j 1).val, idx2_lt1 j⟩) := by
  funext j
  refine shapeCast_apply _ _ _ _ ?_
  have h0 : (j 0).val = 0 := by have := idx2_lt0 j; omega
  simp [Shape.rowMajor_val_two, Shape.rowMajor_val_one, h0]

/-! ## The stages -/

section Stages

variable (x0 : FVec Ideal Cert.KernelIdeal.S131072x133 .f32) (x1 : FVec Ideal Cert.KernelIdeal.S262144x14 .f32)
  (x2 : FVec Ideal Cert.KernelIdeal.S147x300 .f32) (x3 : FVec Ideal Cert.KernelIdeal.S300x300 .f32)
  (x4 : FVec Ideal Cert.KernelIdeal.S433x300 .f32) (x5 : FVec Ideal Cert.KernelIdeal.S300 .f32)
  (x6 : IVec Cert.KernelIdeal.S2x262144 32) (x7 : IVec Cert.KernelIdeal.S131072 32)

open Cert.ReferenceIdeal.Read in
/-- The wrapped source indices are the reference's start indices (all three times it forms them). -/
theorem wrap_ref : wrapIdx (srcOf x6) = val_main_v9 (F := Ideal) x6 := rfl

open Cert.ReferenceIdeal.Read in
theorem wrap_ref' : wrapIdx (srcOf x6) = val_main_v22 (F := Ideal) x6 := rfl

open Cert.ReferenceIdeal.Read in
theorem wrap_ref'' : wrapIdx (srcOf x6) = val_main_v35 (F := Ideal) x6 := rfl

open Cert.ReferenceIdeal.Read in
/-- In range, the kernel's gathered atom rows are the reference's. -/
theorem gathered_ref (h : SrcOk (srcOf x6)) : take133 x0 (srcOf x6) = val_main_v10 (F := Ideal) x0 x6 := by
  rw [take133_eq x0 _ h]; rfl

open Cert.ReferenceIdeal.Read in
/-- The initial messages. -/
theorem msg0_ref (h : SrcOk (srcOf x6)) : msg0 x0 x1 x2 x6 = val_main_v13 (F := Ideal) x0 x1 x2 x6 := by
  unfold msg0
  rw [gathered_ref x0 x6 h, slice_147_head, slice_147_tail]
  exact (Cert.ReferenceIdeal.Bridge.init_eq (val_main_v10 (F := Ideal) x0 x6) x1 x2).symm

/-- One update of ANY messages, as the reference spells it: scatter-add at the targets, gather at the sources,
    multiply by the hidden weights, add, clamp. -/
theorem msgNext_ref (msg : FVec Ideal Cert.KernelIdeal.S262144x300 .f32) (h : SrcOk (srcOf x6)) :
    msgNext msg x3 x6
      = maximumf
          (addf msg (Host.dotGeneral Cert.ReferenceIdeal.dot_S262144x300_S300x300_S262144x300_1_0_0_1_n_n none
            (Host.gather Cert.ReferenceIdeal.gather_S131072x300_S262144x1_S262144x300_1_0_n_n_0_1_1300
              (Host.scatterAdd Cert.ReferenceIdeal.scatter_S131072x300_S262144x1_S262144x300_1_0_0_1
                (Cert.ReferenceIdeal.Read.val_main_v14 (F := Ideal)) (Cert.ReferenceIdeal.Read.val_main_v15 (F := Ideal) x6) msg)
              (Cert.ReferenceIdeal.Read.val_main_v9 (F := Ideal) x6)) x3))
          (Cert.ReferenceIdeal.Read.val_main_call0_v0 (F := Ideal)) := by
  unfold msgNext
  rw [take300_eq _ _ h]
  exact (Cert.ReferenceIdeal.Bridge.step_eq msg _ x3).symm

open Cert.ReferenceIdeal.Read in
/-- The messages after one update. -/
theorem msg1_ref (h : SrcOk (srcOf x6)) :
    msgNext (msg0 x0 x1 x2 x6) x3 x6 = val_main_v26 (F := Ideal) x0 x1 x2 x3 x6 := by
  rw [msg0_ref x0 x1 x2 x6 h, msgNext_ref x3 x6 _ h]; rfl

open Cert.ReferenceIdeal.Read in
/-- The messages after two updates. -/
theorem msg2_ref (h : SrcOk (srcOf x6)) :
    msgNext (msgNext (msg0 x0 x1 x2 x6) x3 x6) x3 x6 = val_main_v39 (F := Ideal) x0 x1 x2 x3 x6 := by
  rw [msg1_ref x0 x1 x2 x3 x6 h, msgNext_ref x3 x6 _ h]; rfl

open Cert.ReferenceIdeal.Read in
/-- The atom outputs. -/
theorem atomH_ref (h : SrcOk (srcOf x6)) :
    atomH x0 (msgNext (msgNext (msg0 x0 x1 x2 x6) x3 x6) x3 x6) x4 x5 x6
      = val_main_v48 (F := Ideal) x0 x1 x2 x3 x4 x5 x6 := by
  unfold atomH
  rw [msg2_ref x0 x1 x2 x3 x6 h, slice_433_head, slice_433_tail, bias_row]
  exact (Cert.ReferenceIdeal.Bridge.atom_eq x0 (val_main_v42 (F := Ideal) x0 x1 x2 x3 x6) x4 x5).symm

open Cert.ReferenceIdeal.Read in
/-- THE JOIN: in range the kernel's result is the reference's. -/
theorem kOut_ref (h : SrcOk (srcOf x6)) :
    kOut x0 x1 x2 x3 x4 x5 x6 x7 = val_main_v51 (F := Ideal) x0 x1 x2 x3 x4 x5 x6 x7 := by
  unfold kOut
  rw [atomH_ref x0 x1 x2 x3 x4 x5 x6 h]; rfl

end Stages

end Cert.Join

end
-- ==== Proof.lean ====
/-
  The kernel program and its jnp reference compute one function of their arguments on the extended reals,
  wherever every source atom of the edge index is a row number of the atom array.

  Both are a message-passing network on a graph: gather the source atoms' features along the edges, form the
  initial edge messages by a linear map and a clamp at zero, twice sum the messages into their target atoms,
  gather the sums back at the sources and update the messages, sum once more, form the atom outputs from the
  atom features and the summed messages, and add the atom outputs up per graph. The kernel program computes the
  three linear stages in four tiled regions, each linear map as two products with two blocks of rows of the
  weight matrix; the reference joins the two operands and multiplies once. On the extended reals a sum over
  `a + b` terms is the sum over the first `a` plus the sum over the last `b`, which needs no finiteness, so each
  region's output array is the reference's stage. The one place the two programs differ in kind is the gather:
  the kernel's replaces a row whose index is out of range by a fill pattern, the reference's clamps the index;
  the precondition's range conjuncts say no index is out of range, and there the two gathers agree.

  The frames are the generated ones; the kernel program's run is the generated launch called again with the
  result buffer's final contents kept; the reference's run and its stages are the generated ones.
-/
import proofs.«411490_j65558380806592_1_alg».proof.Defs
import proofs.«411490_j65558380806592_1_alg».proof.Proof.Gen.Kernel
import proofs.«411490_j65558380806592_1_alg».proof.Proof.Gen.Kernel.Skeleton
import proofs.«411490_j65558380806592_1_alg».proof.Proof.Gen.Kernel.Launch
import proofs.«411490_j65558380806592_1_alg».proof.Proof.Gen.Kernel.Points
import proofs.«411490_j65558380806592_1_alg».proof.Proof.Gen.Kernel.Frame
import proofs.«411490_j65558380806592_1_alg».proof.Proof.Gen.KernelIdeal
import proofs.«411490_j65558380806592_1_alg».proof.Proof.Gen.KernelIdeal.Skeleton
import proofs.«411490_j65558380806592_1_alg».proof.Proof.Gen.KernelIdeal.Launch
import proofs.«411490_j65558380806592_1_alg».proof.Proof.Gen.KernelIdeal.Points
import proofs.«411490_j65558380806592_1_alg».proof.Proof.Gen.KernelIdeal.Frame
import proofs.«411490_j65558380806592_1_alg».proof.Proof.Gen.ReferenceIdeal
import proofs.«411490_j65558380806592_1_alg».proof.Proof.Gen.ReferenceIdeal.Run
import proofs.«411490_j65558380806592_1_alg».proof.Proof.Gen.ReferenceIdeal.Read
import proofs.«411490_j65558380806592_1_alg».proof.Proof.Gen.Pre_finite_inputs
import proofs.«411490_j65558380806592_1_alg».proof.Proof.KernelRun
import proofs.«411490_j65558380806592_1_alg».proof.Proof.KernelChain
import proofs.«411490_j65558380806592_1_alg».proof.Proof.Join
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the kernel's composition of stages of the arguments: the kernel program's by
    reading its result buffer back through the run, the reference's because its last stage is that composition
    wherever the source atoms are in range, which the precondition says of the launch memory. -/
theorem algebraic : Cert.algebraic_KernelIdeal_ReferenceIdeal := by
  intro m ρ m' ρ' hpre hagree
  refine ⟨fun c => Cert.KernelIdeal.Chain.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.W13_result m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v51_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Join.kOut_ref _ _ _ _ _ _ _ _ (Cert.KernelIdeal.Take.srcOk_of_pre _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
